-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x3 .f32) (main_arg12 : FVec F S3 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x3 .f32 := Host.absf main_arg11
  let main_cst_16 : FVec F S_ .f32 := constant S_ .f32 0x7F800000#32
  let main_v45 : FVec F S128x3 .f32 := broadcastInDim S128x3 ![] bcast_S_S128x3 main_cst_16
  let main_v46 : IVec S128x3 1 := cmpf .olt main_v44 main_v45
  let main_c_17 : IVec S_ 1 := constantI S_ 1 1#1
  let main_v47 : IVec S_ 1 := (fun x v => Host.reduce IntOp.andi x v reducesTo_S128x3_S_d0_1 h_S_) main_v46 main_c_17
  let main_v48 : IVec S_ 1 := andi main_v43 main_v47
  let main_v49 : FVec F S3 .f32 := Host.absf main_arg12
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x3 .f32) (main_arg12 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x3 .f32) (main_arg12 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S4000x128 : Shape := ⟨2, ![4000, 128]⟩
abbrev S4000x1 : Shape := ⟨2, ![4000, 1]⟩
abbrev S2x2048x128 : Shape := ⟨3, ![2, 2048, 128]⟩
abbrev S2000x128 : Shape := ⟨2, ![2000, 128]⟩
abbrev S2000x1 : Shape := ⟨2, ![2000, 1]⟩
abbrev S1x2048x128 : Shape := ⟨3, ![1, 2048, 128]⟩
abbrev S2048x128 : Shape := ⟨2, ![2048, 128]⟩
abbrev S1x2048 : Shape := ⟨2, ![1, 2048]⟩
abbrev S2000x2048 : Shape := ⟨2, ![2000, 2048]⟩
abbrev S1x3 : Shape := ⟨2, ![1, 3]⟩
abbrev S2048x3 : Shape := ⟨2, ![2048, 3]⟩

abbrev nBuf : Space → Nat
  | .hbm => 66
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x3, .f32⟩
  | .hbm, ⟨12, _⟩ => ⟨S3, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S1x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x1, .i32⟩
  | .hbm, ⟨59, _⟩ => ⟨S1x128, .f32⟩
  | .hbm, ⟨60, _⟩ => ⟨S2x2048x128, .f32⟩
  | .hbm, ⟨61, _⟩ => ⟨S_, .f32⟩
  | .hbm, ⟨62, _⟩ => ⟨S2048x128, .f32⟩
  | .hbm, ⟨63, _⟩ => ⟨S1x128, .f32⟩
  | .hbm, ⟨64, _⟩ => ⟨S1x3, .f32⟩
  | .hbm, ⟨65, _⟩ => ⟨S2048x3, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S4000x1, .f32⟩
  | .local _ .vmem, ⟨10, _⟩ => ⟨S4000x1, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x1, .f32⟩
  | .local _ .vmem, ⟨20, _⟩ => ⟨S2000x1, .f32⟩
  | .local _ .vmem, ⟨21, _⟩ => ⟨S1x128, .f32⟩
  | .local _ .vmem, ⟨22, _⟩ => ⟨S2000x1, .i32⟩
  | .local _ .vmem, ⟨23, _⟩ => ⟨S2000x1, .i32⟩
  | .local _ .vmem, ⟨24, _⟩ => ⟨S1x2048x128, .f32⟩
  | .local _ .vmem, ⟨25, _⟩ => ⟨S1x2048x128, .f32⟩
  | .local _ .vmem, ⟨26, _⟩ => ⟨S2048x128, .f32⟩
  | .local _ .vmem, ⟨27, _⟩ => ⟨S128x128, .f32⟩
  | .local _ .vmem, ⟨28, _⟩ => ⟨S1x128, .f32⟩
  | .local _ .vmem, ⟨29, _⟩ => ⟨S128x3, .f32⟩
  | .local _ .vmem, ⟨30, _⟩ => ⟨S1x3, .f32⟩
  | .local _ .vmem, ⟨31, _⟩ => ⟨S2048x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24_0 : Ref sig .tc := ⟨.hbm, 43, rfl⟩
abbrev main_v24_1 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc2_stg0_0 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem4_1 : DmaSem sig := 23
abbrev cc1_sem5_0 : DmaSem sig := 24
abbrev cc1_sem5_1 : DmaSem sig := 25
abbrev cc2_sem0_0 : DmaSem sig := 26
abbrev cc2_sem1_0 : DmaSem sig := 27
abbrev cc2_sem2_0 : DmaSem sig := 28
abbrev cc2_sem3_0 : DmaSem sig := 29
abbrev cc2_sem4_0 : DmaSem sig := 30
abbrev cc2_sem5_0 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2000x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2048x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x3 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2048x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  broadcasts_S1x128_S2000x128 : S1x128.Broadcasts S2000x128
  iota_S1x2048_d1_w32 : S1x2048.Iotas .tc 32 [1]
  broadcasts_S2000x1_S2000x2048 : S2000x1.Broadcasts S2000x2048
  broadcasts_S1x2048_S2000x2048 : S1x2048.Broadcasts S2000x2048
  natLt_1_32 : 1 < 32
  reducesTo_S2x2048x128_S2048x128_d0 : S2x2048x128.ReducesTo [0] S2048x128
  h_S_ : 0 < S_.numel
  shapeCasts_S3_S1x3 : S3.ShapeCasts S1x3
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1x128_S2048x128 : S1x128.Broadcasts S2048x128
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2048x3 : S1x3.Broadcasts S2048x3
  inb_S2048x3_S2048x3_0_0 : ∀ a, (![0, 0] : Fin 2 → Nat) a + S2048x3.size a ≤ S2048x3.size a
  h_S2048x3 : 0 < S2048x3.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  dot_S2000x2048_S2000x128_S2048x128_0_0_1_1_n_n_wf : DotDims.WF S2000x2048 S2000x128 S2048x128 [0] [0] [1] [1] [] []
  dot_S2048x128_S128x128_S2048x128_1_0_0_1_n_n_wf : DotDims.WF S2048x128 S128x128 S2048x128 [1] [0] [0] [1] [] []
  dot_S2048x128_S128x3_S2048x3_1_0_0_1_n_n_wf : DotDims.WF S2048x128 S128x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x1.size a ≤ S100000x1.size a
  hwx0_7 : ∀ i : grid0.Coords, EltTy.bits .f32 = 32 ∨ (Rect.block (s := S100000x1) S4000x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S100000x128.size a
  hwx0_8 : ∀ i : grid0.Coords, EltTy.bits .f32 = 32 ∨ (Rect.block (s := S100000x128) S4000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S100000x1.size a
  hwx1_4 : ∀ i : grid1.Coords, EltTy.bits .i32 = 32 ∨ (Rect.block (s := S100000x1) S2000x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2048x128.size a ≤ S2x2048x128.size a
  hwx1_5 : ∀ i : grid1.Coords, EltTy.bits .f32 = 32 ∨ (Rect.block (s := S2x2048x128) S1x2048x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S2048x128.size a
  hwx2_0 : ∀ i : grid2.Coords, EltTy.bits .f32 = 32 ∨ (Rect.block (s := S2048x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x3.size a ≤ S128x3.size a
  hwx2_3 : ∀ i : grid2.Coords, EltTy.bits .f32 = 32 ∨ (Rect.block (s := S128x3) S128x3.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x3.size a ≤ S1x3.size a
  hwx2_4 : ∀ i : grid2.Coords, EltTy.bits .f32 = 32 ∨ (Rect.block (s := S1x3) S1x3.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2048x3.size a ≤ S2048x3.size a
  hwx2_5 : ∀ i : grid2.Coords, EltTy.bits .f32 = 32 ∨ (Rect.block (s := S2048x3) S2048x3.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S2000x2048_S2000x128_S2048x128_0_0_1_1_n_n : DotDims S2000x2048 S2000x128 S2048x128 where
  lhsContracting := [0]
  rhsContracting := [0]
  lhsNonContracting := [1]
  rhsNonContracting := [1]
  lhsBatch := []
  rhsBatch := []
  wf := dot_S2000x2048_S2000x128_S2048x128_0_0_1_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x3_S2048x3_1_0_0_1_n_n : DotDims S2048x128 S128x3 S2048x3 where
  lhsContracting := [1]
  rhsContracting := [0]
  lhsNonContracting := [0]
  rhsNonContracting := [1]
  lhsBatch := []
  rhsBatch := []
  wf := dot_S2048x128_S128x3_S2048x3_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S4000x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_0) S4000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v24_1) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v34) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x2048x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S2048x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x3.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x3.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S2048x3.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x1 : Shape := ⟨2, ![100000, 1]⟩
abbrev S2048x128 : Shape := ⟨2, ![2048, 128]⟩
abbrev S2048x3 : Shape := ⟨2, ![2048, 3]⟩
abbrev S1x3 : Shape := ⟨2, ![1, 3]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x3, .f32⟩
  | .hbm, ⟨12, _⟩ => ⟨S3, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S1600000, .f32⟩
  | .hbm, ⟨47, _⟩ => ⟨S_, .f32⟩
  | .hbm, ⟨48, _⟩ => ⟨S100000, .f32⟩
  | .hbm, ⟨49, _⟩ => ⟨S1600000x1, .i32⟩
  | .hbm, ⟨50, _⟩ => ⟨S100000, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S100000, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000, .f32⟩
  | .hbm, ⟨74, _⟩ => ⟨S1600000, .f32⟩
  | .hbm, ⟨75, _⟩ => ⟨S1600000x1, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .f32⟩
  | .hbm, ⟨85, _⟩ => ⟨S1600000x128, .f32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S100000, .f32⟩
  | .hbm, ⟨92, _⟩ => ⟨S100000x1, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S100000x128, .f32⟩
  | .hbm, ⟨101, _⟩ => ⟨S100000x128, .f32⟩
  | .hbm, ⟨102, _⟩ => ⟨S_, .f32⟩
  | .hbm, ⟨103, _⟩ => ⟨S2048x128, .f32⟩
  | .hbm, ⟨104, _⟩ => ⟨S100000x1, .i32⟩
  | .hbm, ⟨105, _⟩ => ⟨S2048x128, .f32⟩
  | .hbm, ⟨106, _⟩ => ⟨S2048x128, .f32⟩
  | .hbm, ⟨107, _⟩ => ⟨S1x128, .f32⟩
  | .hbm, ⟨108, _⟩ => ⟨S2048x128, .f32⟩
  | .hbm, ⟨109, _⟩ => ⟨S2048x128, .f32⟩
  | .hbm, ⟨110, _⟩ => ⟨S_, .f32⟩
  | .hbm, ⟨111, _⟩ => ⟨S2048x128, .f32⟩
  | .hbm, ⟨112, _⟩ => ⟨S2048x128, .f32⟩
  | .hbm, ⟨113, _⟩ => ⟨S2048x3, .f32⟩
  | .hbm, ⟨114, _⟩ => ⟨S1x3, .f32⟩
  | .hbm, ⟨115, _⟩ => ⟨S2048x3, .f32⟩
  | .hbm, ⟨116, _⟩ => ⟨S2048x3, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_cst : Ref sig .tc := ⟨.hbm, 42, rfl⟩
abbrev main_call1_v0 : Ref sig .tc := ⟨.hbm, 43, rfl⟩
abbrev main_v24 : Ref sig .tc := ⟨.hbm, 44, rfl⟩
abbrev main_cst_1 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_4 : Ref sig .tc := ⟨.hbm, 56, rfl⟩
abbrev main_v33 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_6 : Ref sig .tc := ⟨.hbm, 65, rfl⟩
abbrev main_v40 : Ref sig .tc := ⟨.hbm, 66, rfl⟩
abbrev main_v41 : Ref sig .tc := ⟨.hbm, 67, rfl⟩
abbrev main_c_7 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_8 : Ref sig .tc := ⟨.hbm, 76, rfl⟩
abbrev main_v49 : Ref sig .tc := ⟨.hbm, 77, rfl⟩
abbrev main_v50 : Ref sig .tc := ⟨.hbm, 78, rfl⟩
abbrev main_c_9 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_call2_cst : Ref sig .tc := ⟨.hbm, 99, rfl⟩
abbrev main_call2_v0 : Ref sig .tc := ⟨.hbm, 100, rfl⟩
abbrev main_v69 : Ref sig .tc := ⟨.hbm, 101, rfl⟩
abbrev main_cst_11 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_call3_cst : Ref sig .tc := ⟨.hbm, 110, rfl⟩
abbrev main_call3_v0 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000 : S_.BroadcastsInDim S100000 (![] : Fin 0 → Fin S100000.rank)
  bcast_S1600000x1_S1600000x128_0_1 : S1600000x1.BroadcastsInDim S1600000x128 (![0, 1] : Fin 2 → Fin S1600000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S2048x128 : S_.BroadcastsInDim S2048x128 (![] : Fin 0 → Fin S2048x128.rank)
  bcast_S1x128_S2048x128_0_1 : S1x128.BroadcastsInDim S2048x128 (![0, 1] : Fin 2 → Fin S2048x128.rank)
  bcast_S3_S1x3_1 : S3.BroadcastsInDim S1x3 (![1] : Fin 1 → Fin S1x3.rank)
  bcast_S1x3_S2048x3_0_1 : S1x3.BroadcastsInDim S2048x3 (![0, 1] : Fin 2 → Fin S2048x3.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  scatter_S2048x128_S100000x1_S100000x128_1_0_0_1_wf : ScatterDims.WF S2048x128 S100000x1 S100000x128 [1] [0] [0] 1
  dot_S2048x128_S128x128_S2048x128_1_0_0_1_n_n_wf : DotDims.WF S2048x128 S128x128 S2048x128 [1] [0] [0] [1] [] []
  dot_S2048x128_S128x3_S2048x3_1_0_0_1_n_n_wf : DotDims.WF S2048x128 S128x3 S2048x3 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x3_S2048x3_1_0_0_1_n_n : DotDims S2048x128 S128x3 S2048x3 where
  lhsContracting := [1]
  rhsContracting := [0]
  lhsNonContracting := [0]
  rhsNonContracting := [1]
  lhsBatch := []
  rhsBatch := []
  wf := dot_S2048x128_S128x3_S2048x3_1_0_0_1_n_n_wf

class Facts : Prop extends Facts₀ where

variable [Facts]
-- ==== Proof.KernelHost.lean ====
/-
  The host operations between the kernel's three regions, read back: what each region finds in its windows' arrays
  as a term of the launch contents, and the result buffer at the last boundary.

  Before region 0 the host gathers the rows of `x` at the edges' sources and sums them at the targets, counts the
  in-degrees and takes the reciprocal square root of the count plus one, and reshapes the two bias vectors to rows.
  Between regions 0 and 1 it gathers the rows of the scaled product at the sources and sums them at the targets, and
  reshapes the graph ids to a column and a bias to a row.  Between regions 1 and 2 it adds the two cores' partial
  tables and reshapes two biases to rows.  A buffer no operation of a stretch writes, and no region has as a window
  array, keeps what it held.
-/
import proofs.«401344_j78795470012789_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws

noncomputable section
namespace Cert.KernelIdeal.Hand
open Idealize.ShloMosaic Idealize.ShloMosaic.TcCoe Idealize.ShloMosaic.ValueIdx Idealize.SL.Sem Idealize.ShloMosaic.StableHlo
open Cert.KernelIdeal Cert.KernelIdeal.Gen

/-! ## The host stretches' terms -/

abbrev IE := IVec S2x1600000 32

/-- The source words and the target words of the edges. -/
def srcW (ei : IE) : IVec S1600000 32 :=
  shapeCast _ (extractStridedSlice S1x1600000 ![0, 0] ei slices_S2x1600000_S1x1600000_0_0) shapeCasts_S1x1600000_S1600000
def dstW (ei : IE) : IVec S1600000 32 :=
  shapeCast _ (extractStridedSlice S1x1600000 ![1, 0] ei slices_S2x1600000_S1x1600000_1_0) shapeCasts_S1x1600000_S1600000
/-- The index column a row gather reads: the source words, a negative one wrapped. -/
def srcColT (ei : IE) : IVec S1600000x1 32 :=
  broadcastInDim S1600000x1 ![0] bcast_S1600000_S1600000x1_0
    (select (cmpi .slt (srcW ei) (broadcastInDim S1600000 ![] bcast_S_S1600000 (constantI S_ 32 0#32)))
      (addi (srcW ei) (broadcastInDim S1600000 ![] bcast_S_S1600000 (constantI S_ 32 100000#32))) (srcW ei))
/-- The index column a scatter lands at: the target words as they are. -/
def dstColT (ei : IE) : IVec S1600000x1 32 :=
  broadcastInDim S1600000x1 ![0] bcast_S1600000_S1600000x1_0 (dstW ei)
/-- Rows of `T` gathered at the sources and summed at the targets. -/
def gsT (T : FVec Ideal S100000x128 .f32) (ei : IE) : FVec Ideal S100000x128 .f32 :=
  Host.scatterAdd (F := Ideal) scatter_S100000x128_S1600000x1_S1600000x128_1_0_0_1
    (broadcastInDim S100000x128 ![] bcast_S_S100000x128 (constant S_ .f32 0x00000000#32)) (dstColT ei)
    (Host.gather gather_S100000x128_S1600000x1_S1600000x128_1_0_n_n_0_1_1128 T (srcColT ei))
/-- The reciprocal square root of the in-degree plus one. -/
def dinvT (ei : IE) : FVec Ideal S100000 .f32 :=
  Host.rsqrt (F := Ideal) (addf (Host.scatterAdd (F := Ideal) scatter_S100000_S1600000x1_S1600000_n_0_0_1
      (broadcastInDim S100000 ![] bcast_S_S100000 (constant S_ .f32 0x00000000#32)) (dstColT ei)
      (broadcastInDim S1600000 ![] bcast_S_S1600000 (constant S_ .f32 0x3F800000#32)))
    (broadcastInDim S100000 ![] bcast_S_S100000 (constant S_ .f32 0x3F800000#32)))

variable (m : (ℓ : Loc nD τ sig) → Buf (Elt Ideal) ℓ) (ρ : Dev nD → PrngReg)

/-! ## Region 0's entry contents: the first host stretch read back -/

set_option maxHeartbeats 4000000 in
theorem V1_arg0 (c : Dev nD) : V1 m ρ c main_arg0 = m ((c : Thread nD τ).loc main_arg0) := by
  show StableHlo.after hostOps0 (W0 m ρ c) (Proc.devRef .tc main_arg0) = _
  after_results_simp <;> rfl
set_option maxHeartbeats 4000000 in
theorem V1_arg3 (c : Dev nD) : V1 m ρ c main_arg3 = m ((c : Thread nD τ).loc main_arg3) := by
  show StableHlo.after hostOps0 (W0 m ρ c) (Proc.devRef .tc main_arg3) = _
  after_results_simp <;> rfl
set_option maxHeartbeats 4000000 in
theorem V1_arg5 (c : Dev nD) : V1 m ρ c main_arg5 = m ((c : Thread nD τ).loc main_arg5) := by
  show StableHlo.after hostOps0 (W0 m ρ c) (Proc.devRef .tc main_arg5) = _
  after_results_simp <;> rfl
set_option maxHeartbeats 4000000 in
theorem V1_arg7 (c : Dev nD) : V1 m ρ c main_arg7 = m ((c : Thread nD τ).loc main_arg7) := by
  show StableHlo.after hostOps0 (W0 m ρ c) (Proc.devRef .tc main_arg7) = _
  after_results_simp <;> rfl
set_option maxHeartbeats 4000000 in
theorem V1_v13 (c : Dev nD) : V1 m ρ c main_v13 = gsT (m ((c : Thread nD τ).loc main_arg0)) (m ((c : Thread nD τ).loc main_arg1)) := by
  show StableHlo.after hostOps0 (W0 m ρ c) (Proc.devRef .tc main_v13) = _
  after_results_simp <;> rfl
set_option maxHeartbeats 4000000 in
theorem V1_v21 (c : Dev nD) : V1 m ρ c main_v21 = shapeCast _ (dinvT (m ((c : Thread nD τ).loc main_arg1))) shapeCasts_S100000_S100000x1 := by
  show StableHlo.after hostOps0 (W0 m ρ c) (Proc.devRef .tc main_v21) = _
  after_results_simp <;> rfl
set_option maxHeartbeats 4000000 in
theorem V1_v22 (c : Dev nD) : V1 m ρ c main_v22 = shapeCast _ (m ((c : Thread nD τ).loc main_arg4)) shapeCasts_S128_S1x128 := by
  show StableHlo.after hostOps0 (W0 m ρ c) (Proc.devRef .tc main_v22) = _
  after_results_simp <;> rfl
set_option maxHeartbeats 4000000 in
theorem V1_v23 (c : Dev nD) : V1 m ρ c main_v23 = shapeCast _ (m ((c : Thread nD τ).loc main_arg6)) shapeCasts_S128_S1x128 := by
  show StableHlo.after hostOps0 (W0 m ρ c) (Proc.devRef .tc main_v23) = _
  after_results_simp <;> rfl
set_option maxHeartbeats 4000000 in
theorem W1_v1 (c : Dev nD) : W1 m ρ c (Proc.devRef .tc main_v1) = srcW (m ((c : Thread nD τ).loc main_arg1)) := by
  show StableHlo.after hostOps0 (W0 m ρ c) (Proc.devRef .tc main_v1) = _
  after_results_simp <;> rfl
set_option maxHeartbeats 4000000 in
theorem W1_v3 (c : Dev nD) : W1 m ρ c (Proc.devRef .tc main_v3) = dstW (m ((c : Thread nD τ).loc main_arg1)) := by
  show StableHlo.after hostOps0 (W0 m ρ c) (Proc.devRef .tc main_v3) = _
  after_results_simp <;> rfl
set_option maxHeartbeats 4000000 in
theorem W1_arg (c : Dev nD) (b : Ref sig .tc) (hb : b = main_arg2 ∨ b = main_arg8 ∨ b = main_arg9 ∨ b = main_arg10 ∨ b = main_arg11 ∨ b = main_arg12) :
    W1 m ρ c (Proc.devRef .tc b) = m ((c : Thread nD τ).loc b) := by
  rcases hb with rfl | rfl | rfl | rfl | rfl | rfl <;>
  · show StableHlo.after hostOps0 (W0 m ρ c) _ = _
    after_results_simp <;> rfl

/-! ## Region 0's exit contents -/

theorem W2_v24_0 (c : Dev nD) : W2 m ρ c (Proc.devRef .tc main_v24_0) = (dat0 (V1 m ρ) c).arrAt 8 cfg0.N := W2_arr m ρ c 8
theorem W2_v24_1 (c : Dev nD) : W2 m ρ c (Proc.devRef .tc main_v24_1) = (dat0 (V1 m ρ) c).arrAt 9 cfg0.N := W2_arr m ρ c 9
theorem W2_v21 (c : Dev nD) : W2 m ρ c (Proc.devRef .tc main_v21) = V1 m ρ c main_v21 :=
  (W2_arr m ρ c 7).trans (((dat0 (V1 m ρ) c).arrAt_in 7 rfl _).trans (A_eq0 (V1 m ρ) c 7))
theorem W2_other (c : Dev nD) (b : Ref sig .tc) (hb : ∀ w, Pipeline.arrRef spec0 w ≠ b) :
    W2 m ρ c (Proc.devRef .tc b) = W1 m ρ c (Proc.devRef .tc b) := W2_of_ne m ρ c b hb

/-! ## Region 1's entry contents: the second host stretch read back -/

set_option maxHeartbeats 4000000 in
theorem V3_v34 (c : Dev nD) : V3 m ρ c main_v34 = gsT ((dat0 (V1 m ρ) c).arrAt 9 cfg0.N) (m ((c : Thread nD τ).loc main_arg1)) := by
  show StableHlo.after hostOps1 (W2 m ρ c) (Proc.devRef .tc main_v34) = _
  after_results_simp
  rw [W2_other m ρ c main_v1 (by decide), W2_other m ρ c main_v3 (by decide), W1_v1, W1_v3, W2_v24_1]
  rfl
set_option maxHeartbeats 4000000 in
theorem V3_v24_0 (c : Dev nD) : V3 m ρ c main_v24_0 = (dat0 (V1 m ρ) c).arrAt 8 cfg0.N := by
  show StableHlo.after hostOps1 (W2 m ρ c) (Proc.devRef .tc main_v24_0) = _
  after_results_simp
  exact W2_v24_0 m ρ c
set_option maxHeartbeats 4000000 in
theorem V3_v21 (c : Dev nD) : V3 m ρ c main_v21 = V1 m ρ c main_v21 := by
  show StableHlo.after hostOps1 (W2 m ρ c) (Proc.devRef .tc main_v21) = _
  after_results_simp
  exact W2_v21 m ρ c
set_option maxHeartbeats 4000000 in
theorem V3_v35 (c : Dev nD) : V3 m ρ c main_v35 = shapeCast _ (m ((c : Thread nD τ).loc main_arg2)) shapeCasts_S100000_S100000x1 := by
  show StableHlo.after hostOps1 (W2 m ρ c) (Proc.devRef .tc main_v35) = _
  after_results_simp
  rw [W2_other m ρ c main_arg2 (by decide), W1_arg m ρ c main_arg2 (Or.inl rfl)]
  rfl
set_option maxHeartbeats 4000000 in
theorem V3_v36 (c : Dev nD) : V3 m ρ c main_v36 = shapeCast _ (m ((c : Thread nD τ).loc main_arg8)) shapeCasts_S128_S1x128 := by
  show StableHlo.after hostOps1 (W2 m ρ c) (Proc.devRef .tc main_v36) = _
  after_results_simp
  rw [W2_other m ρ c main_arg8 (by decide), W1_arg m ρ c main_arg8 (Or.inr (Or.inl rfl))]
  rfl

/-! ## Region 1's exit contents and region 2's entry contents: the third host stretch read back -/

theorem W4_v37 (c : Dev nD) : W4 m ρ c (Proc.devRef .tc main_v37) = (dat1 (V3 m ρ) c).arrAt 5 cfg1.N := W4_arr m ρ c 5

set_option maxHeartbeats 4000000 in
theorem W4_arg (c : Dev nD) (b : Ref sig .tc) (hb : b = main_arg9 ∨ b = main_arg10 ∨ b = main_arg11 ∨ b = main_arg12) :
    W4 m ρ c (Proc.devRef .tc b) = m ((c : Thread nD τ).loc b) := by
  rcases hb with rfl | rfl | rfl | rfl
  · rw [W4_of_ne m ρ c main_arg9 (by decide)]
    show StableHlo.after hostOps1 (W2 m ρ c) _ = _
    after_results_simp
    rw [W2_other m ρ c main_arg9 (by decide), W1_arg m ρ c main_arg9 (by simp)]
  · rw [W4_of_ne m ρ c main_arg10 (by decide)]
    show StableHlo.after hostOps1 (W2 m ρ c) _ = _
    after_results_simp
    rw [W2_other m ρ c main_arg10 (by decide), W1_arg m ρ c main_arg10 (by simp)]
  · rw [W4_of_ne m ρ c main_arg11 (by decide)]
    show StableHlo.after hostOps1 (W2 m ρ c) _ = _
    after_results_simp
    rw [W2_other m ρ c main_arg11 (by decide), W1_arg m ρ c main_arg11 (by simp)]
  · rw [W4_of_ne m ρ c main_arg12 (by decide)]
    show StableHlo.after hostOps1 (W2 m ρ c) _ = _
    after_results_simp
    rw [W2_other m ρ c main_arg12 (by decide), W1_arg m ρ c main_arg12 (by simp)]

set_option maxHeartbeats 4000000 in
theorem V5_v38 (c : Dev nD) : V5 m ρ c main_v38
    = Host.reduceAdd (F := Ideal) ((dat1 (V3 m ρ) c).arrAt 5 cfg1.N) (constant S_ .f32 0x00000000#32) reducesTo_S2x2048x128_S2048x128_d0 h_S_ := by
  show StableHlo.after hostOps2 (W4 m ρ c) (Proc.devRef .tc main_v38) = _
  after_results_simp
  rw [W4_v37]
set_option maxHeartbeats 4000000 in
theorem V5_arg9 (c : Dev nD) : V5 m ρ c main_arg9 = m ((c : Thread nD τ).loc main_arg9) := by
  show StableHlo.after hostOps2 (W4 m ρ c) (Proc.devRef .tc main_arg9) = _
  after_results_simp
  exact W4_arg m ρ c main_arg9 (by simp)
set_option maxHeartbeats 4000000 in
theorem V5_arg11 (c : Dev nD) : V5 m ρ c main_arg11 = m ((c : Thread nD τ).loc main_arg11) := by
  show StableHlo.after hostOps2 (W4 m ρ c) (Proc.devRef .tc main_arg11) = _
  after_results_simp
  exact W4_arg m ρ c main_arg11 (by simp)
set_option maxHeartbeats 4000000 in
theorem V5_v39 (c : Dev nD) : V5 m ρ c main_v39 = shapeCast _ (m ((c : Thread nD τ).loc main_arg10)) shapeCasts_S128_S1x128 := by
  show StableHlo.after hostOps2 (W4 m ρ c) (Proc.devRef .tc main_v39) = _
  after_results_simp
  rw [W4_arg m ρ c main_arg10 (by simp)]
  rfl
set_option maxHeartbeats 4000000 in
theorem V5_v40 (c : Dev nD) : V5 m ρ c main_v40 = shapeCast _ (m ((c : Thread nD τ).loc main_arg12)) shapeCasts_S3_S1x3 := by
  show StableHlo.after hostOps2 (W4 m ρ c) (Proc.devRef .tc main_v40) = _
  after_results_simp
  rw [W4_arg m ρ c main_arg12 (by simp)]
  rfl

/-! ## The result buffer at the last boundary -/

theorem W6_v41 (c : Dev nD) : W6 m ρ c (Proc.devRef .tc main_v41) = (dat2 (V5 m ρ) c).arrAt 5 cfg2.N := W6_arr m ρ c 5

end Cert.KernelIdeal.Hand
end
-- ==== Proof.Spec.lean ====
/-
  The network both programs compute, written entry by entry over the extended reals.

  A graph of 100000 nodes and 1600000 edges; node features have 128 entries; 2048 graphs are pooled.
  An edge `e` carries a source word and a target word (`ei (0, e)`, `ei (1, e)`).  A row gather reads the row
  named by a word after wrapping a negative word by +100000 and clamping into `[0, 99999]` (`gRow`); an
  accumulating scatter adds update `e` to the row its target word names when that word, read signed and NOT
  wrapped, is a row at all (`lands`).

  * `mm`, `addRow`, `relu`: a matrix product, a bias row added to every row, rectification.
  * `hwOf`: the two-layer perceptron of `agg + x` followed by the convolution's weight: three products.
  * `degOf`, `dinvOf`: the in-degree plus one, and its reciprocal square root.
  * `msgRaw`: the rows `hw · dinv` of the sources summed at each target.  `msgSym`: the rows of the sources, each
    weighted by `dinv(source) · dinv(target)`, summed at each target.
  * `hnodeK`, `hnodeR`: the convolution's output at a node from either form of the message.
  * `poolPart`, `poolK`: the nodes of a graph summed through a one-hot product, block by block, core by core;
    `poolR`: the same sum taken directly over the nodes whose graph word is `g`.
  * `headOf`: the two-layer head.
-/
import Idealize.ShloMosaic.PureOps.Ideal
import Idealize.ShloMosaic.Lib.ValueIdx

noncomputable section

namespace Cert.Gnn

open Idealize.ShloMosaic Idealize.ShloMosaic.ValueIdx
open scoped BigOperators

abbrev TNC : Shape := ⟨2, ![100000, 128]⟩
abbrev TCC : Shape := ⟨2, ![128, 128]⟩
abbrev TC3 : Shape := ⟨2, ![128, 3]⟩
abbrev TGC : Shape := ⟨2, ![2048, 128]⟩
abbrev T2GC : Shape := ⟨3, ![2, 2048, 128]⟩
abbrev TG3 : Shape := ⟨2, ![2048, 3]⟩
abbrev T2E : Shape := ⟨2, ![2, 1600000]⟩

/-- `a · w`: `B` rows, inner extent `K`, `N` columns. -/
def mm {B K N : Nat} (a : (⟨2, ![B, K]⟩ : Shape).Idx → EReal) (w : (⟨2, ![K, N]⟩ : Shape).Idx → EReal) :
    (⟨2, ![B, N]⟩ : Shape).Idx → EReal :=
  fun j => ∑ k : Fin K, a (ix2 (j 0 : Fin B) k) * w (ix2 k (j 1 : Fin N))

/-- The bias `b` added to every row. -/
def addRow {B N : Nat} (a : (⟨2, ![B, N]⟩ : Shape).Idx → EReal) (b : Fin N → EReal) : (⟨2, ![B, N]⟩ : Shape).Idx → EReal :=
  fun j => a j + b (j 1 : Fin N)

/-- Rectification, entry by entry. -/
def relu {B N : Nat} (a : (⟨2, ![B, N]⟩ : Shape).Idx → EReal) : (⟨2, ![B, N]⟩ : Shape).Idx → EReal :=
  fun j => max (a j) 0

/-- `relu (relu ((agg + x) · w1 + b1) · w2 + b2) · wg`, on any number of rows. -/
def hwOf {B : Nat} (x agg : (⟨2, ![B, 128]⟩ : Shape).Idx → EReal) (w1 : TCC.Idx → EReal) (b1 : Fin 128 → EReal)
    (w2 : TCC.Idx → EReal) (b2 : Fin 128 → EReal) (wg : TCC.Idx → EReal) : (⟨2, ![B, 128]⟩ : Shape).Idx → EReal :=
  mm (relu (addRow (mm (relu (addRow (mm (fun j => agg j + x j) w1) b1)) w2) b2)) wg

/-- A negative index word wrapped by +100000. -/
def wrapN (v : BitVec 32) : BitVec 32 := Scalar.select (IntOp.cmpi .slt v 0#32) (IntOp.addi v 100000#32) v

/-- The row a gather reads for the index word `v`: wrapped, read signed, clamped into `[0, 99999]`. -/
def gRow (v : BitVec 32) : Fin 100000 := ⟨min (wrapN v).toInt.toNat 99999, by omega⟩

/-- The edges whose target word, read signed, is the row `i`. -/
def lands (ei : T2E.Idx → BitVec 32) (i : Fin 100000) : Finset (Fin 1600000) :=
  Finset.univ.filter fun e => (ei (ix2 (1 : Fin 2) e)).toInt = (i.val : ℤ)

/-- The source row of edge `e`. -/
def srcRow (ei : T2E.Idx → BitVec 32) (e : Fin 1600000) : Fin 100000 := gRow (ei (ix2 (0 : Fin 2) e))

/-- The rows of `x` at the sources, summed at each target (from zero). -/
def aggOf (x : TNC.Idx → EReal) (ei : T2E.Idx → BitVec 32) : TNC.Idx → EReal :=
  fun j => 0 + ∑ e ∈ lands ei (j 0 : Fin 100000), x (ix2 (srcRow ei e) (j 1 : Fin 128))

/-- In-degree plus one. -/
def degOf (ei : T2E.Idx → BitVec 32) (i : Fin 100000) : EReal := (0 + ∑ _e ∈ lands ei i, (1 : EReal)) + 1

/-- Its reciprocal square root. -/
def dinvOf (ei : T2E.Idx → BitVec 32) (i : Fin 100000) : EReal := Ideal.rsqrt (degOf ei i)

/-- The rows `hw · d` of the sources, summed at each target (from zero). -/
def msgRaw (hw : TNC.Idx → EReal) (d : Fin 100000 → EReal) (ei : T2E.Idx → BitVec 32) : TNC.Idx → EReal :=
  fun j => 0 + ∑ e ∈ lands ei (j 0 : Fin 100000), hw (ix2 (srcRow ei e) (j 1 : Fin 128)) * d (srcRow ei e)

/-- The rows of the sources, each weighted by `d (source) · d (wrapped target)`, summed at each target (from zero). -/
def msgSym (hw : TNC.Idx → EReal) (d : Fin 100000 → EReal) (ei : T2E.Idx → BitVec 32) : TNC.Idx → EReal :=
  fun j => 0 + ∑ e ∈ lands ei (j 0 : Fin 100000),
    (d (srcRow ei e) * d (gRow (ei (ix2 (1 : Fin 2) e)))) * hw (ix2 (srcRow ei e) (j 1 : Fin 128))

/-- The convolution at a node from the raw message: `relu (d · msg + d² · hw + b)`. -/
def hnodeK (msg hw : TNC.Idx → EReal) (d : Fin 100000 → EReal) (b : Fin 128 → EReal) : TNC.Idx → EReal :=
  fun j => max ((d (j 0 : Fin 100000) * msg j + (d (j 0 : Fin 100000) * d (j 0 : Fin 100000)) * hw j) + b (j 1 : Fin 128)) 0

/-- The convolution at a node from the symmetric message: `relu (msg + d² · hw + b)`. -/
def hnodeR (msg hw : TNC.Idx → EReal) (d : Fin 100000 → EReal) (b : Fin 128 → EReal) : TNC.Idx → EReal :=
  fun j => max ((msg j + (d (j 0 : Fin 100000) * d (j 0 : Fin 100000)) * hw j) + b (j 1 : Fin 128)) 0

/-- Node `r` of block `i` of core `c`: 2 cores, 25 blocks each, 2000 nodes a block. -/
def node (c : Fin 2) (i : Fin 25) (r : Fin 2000) : Fin 100000 := ⟨r.val + 2000 * (i.val + 25 * c.val), by omega⟩

/-- Core `c`'s share of graph `g`'s sum: its 25 blocks' one-hot products added up. -/
def poolPart (bt : Fin 100000 → BitVec 32) (h : TNC.Idx → EReal) : T2GC.Idx → EReal :=
  fun j => ∑ i : Fin 25, ∑ r : Fin 2000,
    (if bt (node (j 0 : Fin 2) i r) = BitVec.ofNat 32 (j 1 : Fin 2048).val then (1 : EReal) else 0)
      * h (ix2 (node (j 0 : Fin 2) i r) (j 2 : Fin 128))

/-- The two cores' shares added (from zero). -/
def poolK (bt : Fin 100000 → BitVec 32) (h : TNC.Idx → EReal) : TGC.Idx → EReal :=
  fun j => 0 + ∑ c : Fin 2, poolPart bt h (ix3 c (j 0 : Fin 2048) (j 1 : Fin 128))

/-- The nodes whose graph word, read signed, is `g`, summed (from zero). -/
def poolR (bt : Fin 100000 → BitVec 32) (h : TNC.Idx → EReal) : TGC.Idx → EReal :=
  fun j => 0 + ∑ n ∈ Finset.univ.filter (fun n : Fin 100000 => (bt n).toInt = ((j 0 : Fin 2048).val : ℤ)), h (ix2 n (j 1 : Fin 128))

/-- The head: `relu (g · w1 + b1) · w2 + b2`. -/
def headOf (g : TGC.Idx → EReal) (w1 : TCC.Idx → EReal) (b1 : Fin 128 → EReal) (w2 : TC3.Idx → EReal) (b2 : Fin 3 → EReal) :
    TG3.Idx → EReal :=
  addRow (mm (relu (addRow (mm g w1) b1)) w2) b2

/-- The whole network, the kernel's arrangement. -/
def outK (x : TNC.Idx → EReal) (ei : T2E.Idx → BitVec 32) (bt : Fin 100000 → BitVec 32)
    (w1 : TCC.Idx → EReal) (b1 : Fin 128 → EReal) (w2 : TCC.Idx → EReal) (b2 : Fin 128 → EReal)
    (wg : TCC.Idx → EReal) (bg : Fin 128 → EReal) (l1 : TCC.Idx → EReal) (c1 : Fin 128 → EReal)
    (l2 : TC3.Idx → EReal) (c2 : Fin 3 → EReal) : TG3.Idx → EReal :=
  headOf (poolK bt (hnodeK (msgRaw (hwOf x (aggOf x ei) w1 b1 w2 b2 wg) (dinvOf ei) ei)
    (hwOf x (aggOf x ei) w1 b1 w2 b2 wg) (dinvOf ei) bg)) l1 c1 l2 c2

/-- The whole network, the reference's arrangement. -/
def outR (x : TNC.Idx → EReal) (ei : T2E.Idx → BitVec 32) (bt : Fin 100000 → BitVec 32)
    (w1 : TCC.Idx → EReal) (b1 : Fin 128 → EReal) (w2 : TCC.Idx → EReal) (b2 : Fin 128 → EReal)
    (wg : TCC.Idx → EReal) (bg : Fin 128 → EReal) (l1 : TCC.Idx → EReal) (c1 : Fin 128 → EReal)
    (l2 : TC3.Idx → EReal) (c2 : Fin 3 → EReal) : TG3.Idx → EReal :=
  headOf (poolR bt (hnodeR (msgSym (hwOf x (aggOf x ei) w1 b1 w2 b2 wg) (dinvOf ei) ei)
    (hwOf x (aggOf x ei) w1 b1 w2 b2 wg) (dinvOf ei) bg)) l1 c1 l2 c2

end Cert.Gnn

end
-- ==== Proof.LibRowGatherScatter.lean ====
/-
  Rows of a table gathered by, and scattered-and-added at, a column of integer indices, read at one element.

  The table has `N` rows of `C` entries; the indices are an `E × 1` column of machine integers.

  * The gather of rows (what `table[idx]` lowers to: one collapsed axis, one offset axis, the start index naming a
    row) reads, at `(e, k)`, the table's entry `k` of the row the index `e` names — the index read as a signed
    integer and clamped into `[0, N - 1]`.
  * The accumulating scatter of rows (what `segment_sum` / `.at[idx].add` lowers to), at the ideal values, leaves at
    `(i, k)` the operand's entry plus the sum of the updates' entries `k` over the rows `e` whose index, read as a
    signed integer and NOT clamped, is `i`; an index that names no row contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-! ## The gather of rows -/

/-- The dimension numbers of a row gather: operand `N × C`, start indices `E × 1`, result `E × C`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the row that index `e` names, read signed and clamped into
    `[0, N - 1]`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e (0 : Fin 1))).toInt.toNat (N - 1), by omega⟩ k) := by
  unfold Host.gather
  congr 1
  funext a
  refine Fin.ext ?_
  show (rowGatherDims N E C wf).start (ix2 e k) idx a + (rowGatherDims N E C wf).batchCoord (ix2 e k) a
      + (rowGatherDims N E C wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N E C wf).startIndexMap from List.mem_singleton.mpr rfl)]
    have hsi : (rowGatherDims N E C wf).siIdx (ix2 e k) ⟨List.idxOf (⟨0, by decide⟩ : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx (1 : Fin 2) + 0
        + (rowGatherDims N E C wf).offCoord (ix2 e k) (1 : Fin 2) = k.val
    have hs : (rowGatherDims N E C wf).start (ix2 e k) idx (1 : Fin 2) = 0 := by
      unfold GatherDims.start
      rw [dif_neg (show (1 : Fin 2) ∉ ([0] : List (Fin 2)) from by decide)]
    have hm : (1 : Fin 2) ∈ (rowGatherDims N E C wf).sKept :=
      (GatherDims.mem_sKept _ _).mpr ⟨show (1 : Fin 2) ∉ ([0] : List (Fin 2)) from by decide, List.not_mem_nil⟩
    rw [hs]
    unfold GatherDims.offCoord
    rw [dif_pos hm]
    simp only [Nat.zero_add]
    rfl

/-! ## The accumulating scatter of rows -/

/-- The dimension numbers of a row scatter: operand `N × C`, scatter indices `E × 1`, updates `E × C`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the update `(e, k)` lands at the signed value of index `e`. -/
theorem rowScatter_pos0 :
    (rowScatterDims N E C wf).start (ix2 e k) idx (0 : Fin 2) + ((rowScatterDims N E C wf).window (ix2 e k) (0 : Fin 2) : ℤ)
      = (idx (ix2 e (0 : Fin 1))).toInt := by
  have hw : (rowScatterDims N E C wf).window (ix2 e k) (0 : Fin 2) = 0 := by
    have h0 : (0 : Fin 2) ∉ (rowScatterDims N E C wf).sKept := show (0 : Fin 2) ∉ ([1] : List (Fin 2)) from by decide
    unfold ScatterDims.window
    rw [dif_neg h0]
  rw [hw]
  unfold ScatterDims.start
  rw [dif_pos (show (0 : Fin 2) ∈ ([0] : List (Fin 2)) from by decide)]
  have hsi : (rowScatterDims N E C wf).siIdx (ix2 e k) ⟨List.idxOf (0 : Fin 2) (rowScatterDims N E C wf).scatterDimsToOperandDims,
      List.idxOf_lt_length_iff.2 (show (0 : Fin 2) ∈ ([0] : List (Fin 2)) from by decide)⟩ = ix2 e (0 : Fin 1) := by
    funext b; refine Fin.ext ?_
    match b with
    | ⟨0, _⟩ => rfl
    | ⟨1, _⟩ => rfl
  rw [hsi]
  simp

/-- On the column axis the update `(e, k)` lands at `k`. -/
theorem rowScatter_pos1 :
    (rowScatterDims N E C wf).start (ix2 e k) idx (1 : Fin 2) + ((rowScatterDims N E C wf).window (ix2 e k) (1 : Fin 2) : ℤ)
      = (k.val : ℤ) := by
  have hs : (rowScatterDims N E C wf).start (ix2 e k) idx (1 : Fin 2) = 0 := by
    unfold ScatterDims.start
    rw [dif_neg (show (1 : Fin 2) ∉ ([0] : List (Fin 2)) from by decide)]
  have hw : (rowScatterDims N E C wf).window (ix2 e k) (1 : Fin 2) = k.val := by
    have h1 : (1 : Fin 2) ∈ (rowScatterDims N E C wf).sKept := show (1 : Fin 2) ∈ ([1] : List (Fin 2)) from by decide
    unfold ScatterDims.window
    rw [dif_pos h1]
    rfl
  rw [hs, hw, zero_add]

end

section
variable {N E C w : Nat} (wf : ScatterDims.WF ⟨2, ![N, C]⟩ ⟨2, ![E, 1]⟩ ⟨2, ![E, C]⟩ [1] [0] [0] 1)
  (idx : IVec ⟨2, ![E, 1]⟩ w)

/-- The update `(e, b)` lands on `(i, k)` exactly when index `e`, read signed, is `i` and `b = k`. -/
theorem rowScatter_resultIdx (e : Fin E) (b : Fin C) (i : Fin N) (k : Fin C) :
    (rowScatterDims N E C wf).resultIdx? (ix2 e b) idx = some (ix2 i k)
      ↔ (idx (ix2 e (0 : Fin 1))).toInt = (i.val : ℤ) ∧ b = k := by
  have p0 := rowScatter_pos0 wf idx e b
  have p1 := rowScatter_pos1 wf idx e b
  unfold ScatterDims.resultIdx?
  constructor
  · intro h
    split at h
    · rename_i hb
      have hf := Option.some.inj h
      have h0 : ((rowScatterDims N E C wf).start (ix2 e b) idx (0 : Fin 2)
          + ((rowScatterDims N E C wf).window (ix2 e b) (0 : Fin 2) : ℤ)).toNat = i.val :=
        congrArg (fun f => (f (0 : Fin 2)).val) hf
      have h1 : ((rowScatterDims N E C wf).start (ix2 e b) idx (1 : Fin 2)
          + ((rowScatterDims N E C wf).window (ix2 e b) (1 : Fin 2) : ℤ)).toNat = k.val :=
        congrArg (fun f => (f (1 : Fin 2)).val) hf
      have b0 := (hb (0 : Fin 2)).1
      rw [p0] at h0 b0
      rw [p1] at h1
      exact ⟨by omega, Fin.ext (by omega)⟩
    · exact absurd h (by simp)
  · rintro ⟨h0, rfl⟩
    have hb : ∀ a : Fin 2, 0 ≤ (rowScatterDims N E C wf).start (ix2 e b) idx a + ((rowScatterDims N E C wf).window (ix2 e b) a : ℤ)
        ∧ (rowScatterDims N E C wf).start (ix2 e b) idx a + ((rowScatterDims N E C wf).window (ix2 e b) a : ℤ)
          < (((⟨2, ![N, C]⟩ : Shape).size a : ℕ) : ℤ) := by
      intro a
      match a with
      | ⟨0, _⟩ =>
        show 0 ≤ (rowScatterDims N E C wf).start (ix2 e b) idx (0 : Fin 2) + ((rowScatterDims N E C wf).window (ix2 e b) (0 : Fin 2) : ℤ)
          ∧ (rowScatterDims N E C wf).start (ix2 e b) idx (0 : Fin 2) + ((rowScatterDims N E C wf).window (ix2 e b) (0 : Fin 2) : ℤ) < ((N : ℕ) : ℤ)
        rw [p0, h0]
        exact ⟨by omega, by exact_mod_cast i.isLt⟩
      | ⟨1, _⟩ =>
        show 0 ≤ (rowScatterDims N E C wf).start (ix2 e b) idx (1 : Fin 2) + ((rowScatterDims N E C wf).window (ix2 e b) (1 : Fin 2) : ℤ)
          ∧ (rowScatterDims N E C wf).start (ix2 e b) idx (1 : Fin 2) + ((rowScatterDims N E C wf).window (ix2 e b) (1 : Fin 2) : ℤ) < ((C : ℕ) : ℤ)
        rw [p1]
        exact ⟨by omega, by exact_mod_cast b.isLt⟩
    rw [dif_pos hb]
    congr 1
    funext a
    refine Fin.ext ?_
    match a with
    | ⟨0, _⟩ =>
      show ((rowScatterDims N E C wf).start (ix2 e b) idx (0 : Fin 2) + ((rowScatterDims N E C wf).window (ix2 e b) (0 : Fin 2) : ℤ)).toNat = i.val
      rw [p0, h0]; simp
    | ⟨1, _⟩ =>
      show ((rowScatterDims N E C wf).start (ix2 e b) idx (1 : Fin 2) + ((rowScatterDims N E C wf).window (ix2 e b) (1 : Fin 2) : ℤ)).toNat = b.val
      rw [p1]; simp

/-- THE ACCUMULATING ROW SCATTER READ AT `(i, k)`, at the ideal values: the operand's entry plus the sum of the
    updates' entries `k` over the rows `e` whose index, read signed, is `i`. -/
theorem scatterAdd_rows_apply (x : (⟨2, ![N, C]⟩ : Shape).Idx → EReal) (upd : (⟨2, ![E, C]⟩ : Shape).Idx → EReal)
    (i : Fin N) (k : Fin C) :
    Ideal.hostScatterAdd (rowScatterDims N E C wf) x idx upd (ix2 i k)
      = x (ix2 i k) + ∑ e ∈ Finset.univ.filter (fun e : Fin E => (idx (ix2 e (0 : Fin 1))).toInt = (i.val : ℤ)), upd (ix2 e k) := by
  unfold Ideal.hostScatterAdd
  congr 1
  rw [Finset.sum_filter, sum_idx2, Finset.sum_filter]
  refine Finset.sum_congr rfl fun e _ => ?_
  simp only [rowScatter_resultIdx wf idx e _ i k]
  by_cases h : (idx (ix2 e (0 : Fin 1))).toInt = (i.val : ℤ)
  · simp [h]
  · simp [h]

end

end Cert.Gcn

end
-- ==== Proof.LibVecScatter.lean ====
/-
  An accumulating scatter of scalars along one axis, read at one element.

  The operand has `N` entries; the indices are an `E × 1` column of machine integers; the updates are `E` scalars.
  At the ideal values the scatter leaves at `i` the operand's entry plus the sum of the updates over the positions
  `e` whose index, read as a signed integer and NOT clamped, is `i`; an index that names no entry contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-- A rank-1 index set is its one coordinate's range, so a sum over it is the sum over the coordinate. -/
theorem sum_ix1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- The dimension numbers of a scatter of scalars: operand `N`, scatter indices `E × 1`, updates `E`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E w : Nat} (wf : ScatterDims.WF ⟨1, ![N]⟩ ⟨2, ![E, 1]⟩ ⟨1, ![E]⟩ [] [0] [0] 1)
  (idx : IVec ⟨2, ![E, 1]⟩ w)

/-- Update `e` lands at the signed value of index `e`. -/
theorem vecScatter_pos (e : Fin E) :
    (vecScatterDims N E wf).start (ix1 e) idx (0 : Fin 1) + ((vecScatterDims N E wf).window (ix1 e) (0 : Fin 1) : ℤ)
      = (idx (ix2 e (0 : Fin 1))).toInt := by
  have hw : (vecScatterDims N E wf).window (ix1 e) (0 : Fin 1) = 0 := by
    have h0 : (0 : Fin 1) ∉ (vecScatterDims N E wf).sKept := show (0 : Fin 1) ∉ ([] : List (Fin 1)) from List.not_mem_nil
    unfold ScatterDims.window
    rw [dif_neg h0]
  rw [hw]
  unfold ScatterDims.start
  rw [dif_pos (show (0 : Fin 1) ∈ ([0] : List (Fin 1)) from by decide)]
  have hsi : (vecScatterDims N E wf).siIdx (ix1 e) ⟨List.idxOf (0 : Fin 1) (vecScatterDims N E wf).scatterDimsToOperandDims,
      List.idxOf_lt_length_iff.2 (show (0 : Fin 1) ∈ ([0] : List (Fin 1)) from by decide)⟩ = ix2 e (0 : Fin 1) := by
    funext b; refine Fin.ext ?_
    match b with
    | ⟨0, _⟩ => rfl
    | ⟨1, _⟩ => rfl
  rw [hsi]
  simp

/-- Update `e` lands on element `i` exactly when index `e`, read signed, is `i`. -/
theorem vecScatter_resultIdx (e : Fin E) (i : Fin N) :
    (vecScatterDims N E wf).resultIdx? (ix1 e) idx = some (ix1 i) ↔ (idx (ix2 e (0 : Fin 1))).toInt = (i.val : ℤ) := by
  have p0 := vecScatter_pos wf idx e
  unfold ScatterDims.resultIdx?
  constructor
  · intro h
    split at h
    · rename_i hb
      have hf := Option.some.inj h
      have h0 : ((vecScatterDims N E wf).start (ix1 e) idx (0 : Fin 1)
          + ((vecScatterDims N E wf).window (ix1 e) (0 : Fin 1) : ℤ)).toNat = i.val :=
        congrArg (fun f => (f (0 : Fin 1)).val) hf
      have b0 := (hb (0 : Fin 1)).1
      rw [p0] at h0 b0
      omega
    · exact absurd h (by simp)
  · intro h0
    have hb : ∀ a : Fin 1, 0 ≤ (vecScatterDims N E wf).start (ix1 e) idx a + ((vecScatterDims N E wf).window (ix1 e) a : ℤ)
        ∧ (vecScatterDims N E wf).start (ix1 e) idx a + ((vecScatterDims N E wf).window (ix1 e) a : ℤ)
          < (((⟨1, ![N]⟩ : Shape).size a : ℕ) : ℤ) := by
      intro a
      match a with
      | ⟨0, _⟩ =>
        show 0 ≤ (vecScatterDims N E wf).start (ix1 e) idx (0 : Fin 1) + ((vecScatterDims N E wf).window (ix1 e) (0 : Fin 1) : ℤ)
          ∧ (vecScatterDims N E wf).start (ix1 e) idx (0 : Fin 1) + ((vecScatterDims N E wf).window (ix1 e) (0 : Fin 1) : ℤ) < ((N : ℕ) : ℤ)
        rw [p0, h0]
        exact ⟨by omega, by exact_mod_cast i.isLt⟩
    rw [dif_pos hb]
    congr 1
    funext a
    refine Fin.ext ?_
    match a with
    | ⟨0, _⟩ =>
      show ((vecScatterDims N E wf).start (ix1 e) idx (0 : Fin 1) + ((vecScatterDims N E wf).window (ix1 e) (0 : Fin 1) : ℤ)).toNat = i.val
      rw [p0, h0]; simp

/-- THE ACCUMULATING SCATTER OF SCALARS READ AT `i`, at the ideal values: the operand's element plus the sum of the
    updates over the positions `e` whose index, read signed, is `i`. -/
theorem scatterAdd_vec_apply (x : (⟨1, ![N]⟩ : Shape).Idx → EReal) (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e (0 : Fin 1))).toInt = (i.val : ℤ)), upd (ix1 e) := by
  unfold Ideal.hostScatterAdd
  congr 1
  rw [Finset.sum_filter, sum_ix1, Finset.sum_filter]
  refine Finset.sum_congr rfl fun e _ => ?_
  simp only [vecScatter_resultIdx wf idx e i]

end

end Cert.Gcn

end
-- ==== Proof.HostGraphOps.lean ====
/-
  The host-side index, gather and scatter operations of the graph network, read at one entry.

  The graph has 100000 nodes and 1600000 edges; the edge array has two rows of words, the sources and the targets.
  Both programs prepare their gathers and scatters by the same host operations:

  * a row of the edge array is cut out as a 1 × 1600000 slice and reshaped to a vector: its word `e` is the edge
    array's word `(row, e)` (`edgeWord_src`, `edgeWord_dst`);
  * a vector of words, a negative word moved up by 100000, is spread as a 1600000 × 1 column: its entry `(e, 0)` is
    the wrapped word `wrapN (s e)` (`wrappedCol_apply`); spread as it is, the entry is `s e` (`plainCol_apply`,
    `plainColN_apply`);
  * rows of a table gathered at the wrapped source column and added up at the unwrapped target column, from the zero
    table: entry `(i, k)` is the sum, over the edges whose target word names row `i`, of entry `k` of the source's
    row (`gatherScatter_rows`, `gatherScatter_agg`); with each gathered row first scaled by a weight of its edge, the
    sum of the scaled entries (`gatherScatter_scaled`);
  * ones added up at the target column from the zero vector, plus one, then the reciprocal square root: the
    in-degree plus one and its reciprocal root (`degree_rsqrt`);
  * a vector gathered at a column: the vector's entry at the row the column's word names, read signed and clamped
    (`gather_vec_apply`), at the wrapped column the entry at `gRow` of the word (`gather_vec_wrapped`).

  The sums are first read over any two vectors of words, one wrapped for the gather and one unwrapped for the scatter
  (`gatherScatter_rows_vec`, `gatherScatter_scaled_vec`, `degree_rsqrt_vec`), then over the two rows of the edge array.
  No law of the extended reals' arithmetic is used: both sides of every equation carry the same `0 +`, sums and
  products, entry for entry, so each holds at the infinities too.

  Every shape relation an operation takes is a hypothesis, so the lemmas apply to either program's printed terms
  whatever proofs those carry.
-/
import proofs.«401344_j78795470012789_2_alg».proof.Proof.Spec
import proofs.«401344_j78795470012789_2_alg».proof.Proof.LibRowGatherScatter
import proofs.«401344_j78795470012789_2_alg».proof.Proof.LibVecScatter
import Idealize.ShloMosaic.Lib.ValueIdx
import Idealize.ShloMosaic.Lib.Pipeline.Value
import Idealize.ShloMosaic.Lib.IdealHost

noncomputable section

namespace Cert.Gnn

open Idealize.ShloMosaic Idealize.ShloMosaic.ValueIdx
open scoped BigOperators

/-! ## The two rows of the edge array -/

/-- The source row as a vector: word `e` is the edge array's `(0, e)`. -/
theorem edgeWord_src (ei : T2E.Idx → BitVec 32)
    (hs : (⟨2, ![2, 1600000]⟩ : Shape).Slices ![0, 0] ⟨2, ![1, 1600000]⟩)
    (hc : (⟨2, ![1, 1600000]⟩ : Shape).ShapeCasts ⟨1, ![1600000]⟩) (e : Fin 1600000) :
    shapeCast ⟨1, ![1600000]⟩ (extractStridedSlice ⟨2, ![1, 1600000]⟩ ![0, 0] ei hs) hc (ix1 e)
      = ei (ix2 (0 : Fin 2) e) := by
  refine (shapeCast_apply _ hc (ix1 e) (ix2 (0 : Fin 1) e) ?_).trans ?_
  · rw [Shape.rowMajor_val_two, Shape.rowMajor_val_one]
    show 0 * 1600000 + e.val = e.val
    omega
  · exact extractStridedSlice_apply ![0, 0] ei hs (ix2 (0 : Fin 1) e) (ix2 (0 : Fin 2) e) (fun a => match a with
      | ⟨0, _⟩ => by show (0 : Nat) = 0 + 0; rfl
      | ⟨1, _⟩ => by show e.val = 0 + e.val; omega)

/-- The target row as a vector: word `e` is the edge array's `(1, e)`. -/
theorem edgeWord_dst (ei : T2E.Idx → BitVec 32)
    (hs : (⟨2, ![2, 1600000]⟩ : Shape).Slices ![1, 0] ⟨2, ![1, 1600000]⟩)
    (hc : (⟨2, ![1, 1600000]⟩ : Shape).ShapeCasts ⟨1, ![1600000]⟩) (e : Fin 1600000) :
    shapeCast ⟨1, ![1600000]⟩ (extractStridedSlice ⟨2, ![1, 1600000]⟩ ![1, 0] ei hs) hc (ix1 e)
      = ei (ix2 (1 : Fin 2) e) := by
  refine (shapeCast_apply _ hc (ix1 e) (ix2 (0 : Fin 1) e) ?_).trans ?_
  · rw [Shape.rowMajor_val_two, Shape.rowMajor_val_one]
    show 0 * 1600000 + e.val = e.val
    omega
  · exact extractStridedSlice_apply ![1, 0] ei hs (ix2 (0 : Fin 1) e) (ix2 (1 : Fin 2) e) (fun a => match a with
      | ⟨0, _⟩ => by show (1 : Nat) = 1 + 0; rfl
      | ⟨1, _⟩ => by show e.val = 0 + e.val; omega)

/-! ## Index columns -/

/-- A vector of 1600000 words spread as a column reads the vector's word. -/
theorem plainCol_apply {α : Type} (s : (⟨1, ![1600000]⟩ : Shape).Idx → α)
    (hb : (⟨1, ![1600000]⟩ : Shape).BroadcastsInDim ⟨2, ![1600000, 1]⟩ (![0] : Fin 1 → Fin 2))
    (e : Fin 1600000) :
    broadcastInDim ⟨2, ![1600000, 1]⟩ ![0] hb s (ix2 e (0 : Fin 1)) = s (ix1 e) :=
  broadcastInDim_apply _ hb s (ix2 e (0 : Fin 1)) (ix1 e) (fun a => match a with
    | ⟨0, _⟩ => by show e.val = if (1600000 : Nat) = 1 then 0 else e.val; rw [if_neg (by decide)])

/-- A vector of 100000 entries spread as a column reads the vector's entry. -/
theorem plainColN_apply {α : Type} (s : (⟨1, ![100000]⟩ : Shape).Idx → α)
    (hb : (⟨1, ![100000]⟩ : Shape).BroadcastsInDim ⟨2, ![100000, 1]⟩ (![0] : Fin 1 → Fin 2))
    (i : Fin 100000) :
    broadcastInDim ⟨2, ![100000, 1]⟩ ![0] hb s (ix2 i (0 : Fin 1)) = s (ix1 i) :=
  broadcastInDim_apply _ hb s (ix2 i (0 : Fin 1)) (ix1 i) (fun a => match a with
    | ⟨0, _⟩ => by show i.val = if (100000 : Nat) = 1 then 0 else i.val; rw [if_neg (by decide)])

/-- The wrapped vector at a word: a negative word moved up by 100000. -/
theorem wrappedVec_apply (s : (⟨1, ![1600000]⟩ : Shape).Idx → BitVec 32)
    (hb0 : (⟨0, ![]⟩ : Shape).BroadcastsInDim ⟨1, ![1600000]⟩ (![] : Fin 0 → Fin 1)) (j : (⟨1, ![1600000]⟩ : Shape).Idx) :
    select (cmpi .slt s (broadcastInDim ⟨1, ![1600000]⟩ ![] hb0 (constantI ⟨0, ![]⟩ 32 0#32)))
        (addi s (broadcastInDim ⟨1, ![1600000]⟩ ![] hb0 (constantI ⟨0, ![]⟩ 32 100000#32))) s j
      = wrapN (s j) := by
  show Scalar.select (IntOp.cmpi .slt (s j) (broadcastInDim ⟨1, ![1600000]⟩ ![] hb0 (constantI ⟨0, ![]⟩ 32 0#32) j))
      (IntOp.addi (s j) (broadcastInDim ⟨1, ![1600000]⟩ ![] hb0 (constantI ⟨0, ![]⟩ 32 100000#32) j)) (s j) = wrapN (s j)
  rw [broadcastInDim_scalar_apply hb0, broadcastInDim_scalar_apply hb0]
  rfl

/-- The wrapped index column: entry `(e, 0)` is the wrapped word `e`. -/
theorem wrappedCol_apply (s : (⟨1, ![1600000]⟩ : Shape).Idx → BitVec 32)
    (hb0 : (⟨0, ![]⟩ : Shape).BroadcastsInDim ⟨1, ![1600000]⟩ (![] : Fin 0 → Fin 1))
    (hb : (⟨1, ![1600000]⟩ : Shape).BroadcastsInDim ⟨2, ![1600000, 1]⟩ (![0] : Fin 1 → Fin 2))
    (e : Fin 1600000) :
    broadcastInDim ⟨2, ![1600000, 1]⟩ ![0] hb
        (select (cmpi .slt s (broadcastInDim ⟨1, ![1600000]⟩ ![] hb0 (constantI ⟨0, ![]⟩ 32 0#32)))
          (addi s (broadcastInDim ⟨1, ![1600000]⟩ ![] hb0 (constantI ⟨0, ![]⟩ 32 100000#32))) s) (ix2 e (0 : Fin 1))
      = wrapN (s (ix1 e)) := by
  rw [plainCol_apply _ hb e]
  exact wrappedVec_apply s hb0 (ix1 e)

/-! ## Rows gathered at the sources and added up at the targets -/

/-- At the ideal values the host's accumulating scatter is the exact sum. -/
theorem hostScatterAdd_ideal {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

/-- The zero table at an entry. -/
theorem zeroTable_apply {S : Shape} (hbz : (⟨0, ![]⟩ : Shape).BroadcastsInDim S (![] : Fin 0 → Fin S.rank)) (j : S.Idx) :
    broadcastInDim S ![] hbz (constant (F := Ideal) ⟨0, ![]⟩ .f32 0x00000000#32) j = (0 : EReal) := by
  rw [broadcastInDim_scalar_apply hbz]
  exact Ideal.ofBits_zero_f32

/-- A gathered row at the wrapped column of the words `s`: the table's row `gRow (s e)`. -/
theorem gatherRow_wrapped (T : TNC.Idx → EReal) (s : (⟨1, ![1600000]⟩ : Shape).Idx → BitVec 32)
    (hb0 : (⟨0, ![]⟩ : Shape).BroadcastsInDim ⟨1, ![1600000]⟩ (![] : Fin 0 → Fin 1))
    (hb : (⟨1, ![1600000]⟩ : Shape).BroadcastsInDim ⟨2, ![1600000, 1]⟩ (![0] : Fin 1 → Fin 2))
    (wfG : GatherDims.WF ⟨2, ![100000, 128]⟩ ⟨2, ![1600000, 1]⟩ ⟨2, ![1600000, 128]⟩ [1] [0] [] [0] [] 1 ![1, 128])
    (e : Fin 1600000) (k : Fin 128) :
    Host.gather (Cert.Gcn.rowGatherDims 100000 1600000 128 wfG) T
        (broadcastInDim ⟨2, ![1600000, 1]⟩ ![0] hb
          (select (cmpi .slt s (broadcastInDim ⟨1, ![1600000]⟩ ![] hb0 (constantI ⟨0, ![]⟩ 32 0#32)))
            (addi s (broadcastInDim ⟨1, ![1600000]⟩ ![] hb0 (constantI ⟨0, ![]⟩ 32 100000#32))) s)) (ix2 e k)
      = T (ix2 (gRow (s (ix1 e))) k) := by
  refine (Cert.Gcn.gather_rows_apply (by decide) wfG T _ e k).trans ?_
  refine congrArg (fun r : Fin 100000 => T (ix2 r k)) (Fin.ext ?_)
  show min (_ : BitVec 32).toInt.toNat (100000 - 1) = min (wrapN (s (ix1 e))).toInt.toNat 99999
  rw [wrappedCol_apply s hb0 hb e]

/-- ROWS GATHERED AND ADDED UP, over any two word vectors: entry `(i, k)` is, from zero, the sum of entry `k` of the row
    `gRow (s e)` of `T` over the positions `e` whose word `d e`, read signed, is `i`. -/
theorem gatherScatter_rows_vec (T : TNC.Idx → EReal) (s d : (⟨1, ![1600000]⟩ : Shape).Idx → BitVec 32)
    (hb0 : (⟨0, ![]⟩ : Shape).BroadcastsInDim ⟨1, ![1600000]⟩ (![] : Fin 0 → Fin 1))
    (hb : (⟨1, ![1600000]⟩ : Shape).BroadcastsInDim ⟨2, ![1600000, 1]⟩ (![0] : Fin 1 → Fin 2))
    (hbz : (⟨0, ![]⟩ : Shape).BroadcastsInDim TNC (![] : Fin 0 → Fin 2))
    (wfG : GatherDims.WF ⟨2, ![100000, 128]⟩ ⟨2, ![1600000, 1]⟩ ⟨2, ![1600000, 128]⟩ [1] [0] [] [0] [] 1 ![1, 128])
    (wfS : ScatterDims.WF ⟨2, ![100000, 128]⟩ ⟨2, ![1600000, 1]⟩ ⟨2, ![1600000, 128]⟩ [1] [0] [0] 1)
    (i : Fin 100000) (k : Fin 128) :
    Host.scatterAdd (F := Ideal) (Cert.Gcn.rowScatterDims 100000 1600000 128 wfS)
        (broadcastInDim TNC ![] hbz (constant (F := Ideal) ⟨0, ![]⟩ .f32 0x00000000#32))
        (broadcastInDim ⟨2, ![1600000, 1]⟩ ![0] hb d)
        (Host.gather (Cert.Gcn.rowGatherDims 100000 1600000 128 wfG) T
          (broadcastInDim ⟨2, ![1600000, 1]⟩ ![0] hb
            (select (cmpi .slt s (broadcastInDim ⟨1, ![1600000]⟩ ![] hb0 (constantI ⟨0, ![]⟩ 32 0#32)))
              (addi s (broadcastInDim ⟨1, ![1600000]⟩ ![] hb0 (constantI ⟨0, ![]⟩ 32 100000#32))) s))) (ix2 i k)
      = 0 + ∑ e ∈ Finset.univ.filter (fun e : Fin 1600000 => (d (ix1 e)).toInt = (i.val : ℤ)),
          T (ix2 (gRow (s (ix1 e))) k) := by
  rw [hostScatterAdd_ideal]
  refine (Cert.Gcn.scatterAdd_rows_apply wfS _ _ _ i k).trans ?_
  rw [zeroTable_apply hbz]
  refine congrArg (fun z : EReal => 0 + z) ?_
  refine Finset.sum_congr (Finset.filter_congr fun e _ => ?_) fun e _ => ?_
  · rw [plainCol_apply d hb e]
  · exact gatherRow_wrapped T s hb0 hb wfG e k

/-- ROWS GATHERED, SCALED AND ADDED UP, over any two word vectors: entry `(i, k)` is, from zero, the sum of the weight
    `wvec e` times entry `k` of the row `gRow (s e)` of `T` over the positions `e` whose word `d e`, read signed, is `i`. -/
theorem gatherScatter_scaled_vec (T : TNC.Idx → EReal) (wvec : (⟨1, ![1600000]⟩ : Shape).Idx → EReal)
    (s d : (⟨1, ![1600000]⟩ : Shape).Idx → BitVec 32)
    (hb0 : (⟨0, ![]⟩ : Shape).BroadcastsInDim ⟨1, ![1600000]⟩ (![] : Fin 0 → Fin 1))
    (hb : (⟨1, ![1600000]⟩ : Shape).BroadcastsInDim ⟨2, ![1600000, 1]⟩ (![0] : Fin 1 → Fin 2))
    (hbw : (⟨2, ![1600000, 1]⟩ : Shape).BroadcastsInDim ⟨2, ![1600000, 128]⟩ (![0, 1] : Fin 2 → Fin 2))
    (hbz : (⟨0, ![]⟩ : Shape).BroadcastsInDim TNC (![] : Fin 0 → Fin 2))
    (wfG : GatherDims.WF ⟨2, ![100000, 128]⟩ ⟨2, ![1600000, 1]⟩ ⟨2, ![1600000, 128]⟩ [1] [0] [] [0] [] 1 ![1, 128])
    (wfS : ScatterDims.WF ⟨2, ![100000, 128]⟩ ⟨2, ![1600000, 1]⟩ ⟨2, ![1600000, 128]⟩ [1] [0] [0] 1)
    (i : Fin 100000) (k : Fin 128) :
    Host.scatterAdd (F := Ideal) (Cert.Gcn.rowScatterDims 100000 1600000 128 wfS)
        (broadcastInDim TNC ![] hbz (constant (F := Ideal) ⟨0, ![]⟩ .f32 0x00000000#32))
        (broadcastInDim ⟨2, ![1600000, 1]⟩ ![0] hb d)
        (mulf (F := Ideal) (φ := .f32)
          (broadcastInDim ⟨2, ![1600000, 128]⟩ ![0, 1] hbw (broadcastInDim ⟨2, ![1600000, 1]⟩ ![0] hb wvec))
          (Host.gather (Cert.Gcn.rowGatherDims 100000 1600000 128 wfG) T
            (broadcastInDim ⟨2, ![1600000, 1]⟩ ![0] hb
              (select (cmpi .slt s (broadcastInDim ⟨1, ![1600000]⟩ ![] hb0 (constantI ⟨0, ![]⟩ 32 0#32)))
                (addi s (broadcastInDim ⟨1, ![1600000]⟩ ![] hb0 (constantI ⟨0, ![]⟩ 32 100000#32))) s)))) (ix2 i k)
      = 0 + ∑ e ∈ Finset.univ.filter (fun e : Fin 1600000 => (d (ix1 e)).toInt = (i.val : ℤ)),
          wvec (ix1 e) * T (ix2 (gRow (s (ix1 e))) k) := by
  rw [hostScatterAdd_ideal]
  refine (Cert.Gcn.scatterAdd_rows_apply wfS _ _ _ i k).trans ?_
  rw [zeroTable_apply hbz]
  refine congrArg (fun z : EReal => 0 + z) ?_
  refine Finset.sum_congr (Finset.filter_congr fun e _ => ?_) fun e _ => ?_
  · rw [plainCol_apply d hb e]
  rw [mulf_apply, gatherRow_wrapped T s hb0 hb wfG e k]
  refine congrArg (fun z : EReal => z * T (ix2 (gRow (s (ix1 e))) k)) ?_
  refine (broadcastInDim_apply _ hbw _ (ix2 e k) (ix2 e (0 : Fin 1)) (fun a => match a with
    | ⟨0, _⟩ => by show e.val = if (1600000 : Nat) = 1 then 0 else e.val; rw [if_neg (by decide)]
    | ⟨1, _⟩ => by show (0 : Nat) = if (1 : Nat) = 1 then 0 else k.val; rw [if_pos rfl])).trans ?_
  exact plainCol_apply wvec hb e

/-! ## The same over the edge array: sources in row 0, targets in row 1 -/

/-- ROWS GATHERED AT THE SOURCES AND ADDED UP AT THE TARGETS: entry `(i, k)` is, from zero, the sum over the edges landing
    on row `i` of entry `k` of the source's row. -/
theorem gatherScatter_rows (T : TNC.Idx → EReal) (ei : T2E.Idx → BitVec 32)
    (hs0 : (⟨2, ![2, 1600000]⟩ : Shape).Slices ![0, 0] ⟨2, ![1, 1600000]⟩)
    (hs1 : (⟨2, ![2, 1600000]⟩ : Shape).Slices ![1, 0] ⟨2, ![1, 1600000]⟩)
    (hc : (⟨2, ![1, 1600000]⟩ : Shape).ShapeCasts ⟨1, ![1600000]⟩)
    (hb0 : (⟨0, ![]⟩ : Shape).BroadcastsInDim ⟨1, ![1600000]⟩ (![] : Fin 0 → Fin 1))
    (hb : (⟨1, ![1600000]⟩ : Shape).BroadcastsInDim ⟨2, ![1600000, 1]⟩ (![0] : Fin 1 → Fin 2))
    (hbz : (⟨0, ![]⟩ : Shape).BroadcastsInDim TNC (![] : Fin 0 → Fin 2))
    (wfG : GatherDims.WF ⟨2, ![100000, 128]⟩ ⟨2, ![1600000, 1]⟩ ⟨2, ![1600000, 128]⟩ [1] [0] [] [0] [] 1 ![1, 128])
    (wfS : ScatterDims.WF ⟨2, ![100000, 128]⟩ ⟨2, ![1600000, 1]⟩ ⟨2, ![1600000, 128]⟩ [1] [0] [0] 1) :
    Host.scatterAdd (F := Ideal) (Cert.Gcn.rowScatterDims 100000 1600000 128 wfS)
        (broadcastInDim TNC ![] hbz (constant (F := Ideal) ⟨0, ![]⟩ .f32 0x00000000#32))
        (broadcastInDim ⟨2, ![1600000, 1]⟩ ![0] hb (shapeCast ⟨1, ![1600000]⟩ (extractStridedSlice ⟨2, ![1, 1600000]⟩ ![1, 0] ei hs1) hc))
        (Host.gather (Cert.Gcn.rowGatherDims 100000 1600000 128 wfG) T
          (broadcastInDim ⟨2, ![1600000, 1]⟩ ![0] hb
            (select (cmpi .slt (shapeCast ⟨1, ![1600000]⟩ (extractStridedSlice ⟨2, ![1, 1600000]⟩ ![0, 0] ei hs0) hc) (broadcastInDim ⟨1, ![1600000]⟩ ![] hb0 (constantI ⟨0, ![]⟩ 32 0#32)))
              (addi (shapeCast ⟨1, ![1600000]⟩ (extractStridedSlice ⟨2, ![1, 1600000]⟩ ![0, 0] ei hs0) hc) (broadcastInDim ⟨1, ![1600000]⟩ ![] hb0 (constantI ⟨0, ![]⟩ 32 100000#32))) (shapeCast ⟨1, ![1600000]⟩ (extractStridedSlice ⟨2, ![1, 1600000]⟩ ![0, 0] ei hs0) hc))))
      = fun j => 0 + ∑ e ∈ lands ei (j 0 : Fin 100000), T (ix2 (srcRow ei e) (j 1 : Fin 128)) := by
  funext j
  obtain ⟨i, k, rfl⟩ : ∃ (i : Fin 100000) (k : Fin 128), j = ix2 i k := ⟨j 0, j 1, eq_ix2 j⟩
  refine (gatherScatter_rows_vec T _ _ hb0 hb hbz wfG wfS i k).trans ?_
  refine congrArg (fun z : EReal => 0 + z) ?_
  unfold lands srcRow
  refine Finset.sum_congr (Finset.filter_congr fun e _ => ?_) fun e _ => ?_
  · rw [edgeWord_dst ei hs1 hc e]
  · rw [edgeWord_src ei hs0 hc e]

/-- With the node features for the table: the aggregate of the specification. -/
theorem gatherScatter_agg (x : TNC.Idx → EReal) (ei : T2E.Idx → BitVec 32)
    (hs0 : (⟨2, ![2, 1600000]⟩ : Shape).Slices ![0, 0] ⟨2, ![1, 1600000]⟩)
    (hs1 : (⟨2, ![2, 1600000]⟩ : Shape).Slices ![1, 0] ⟨2, ![1, 1600000]⟩)
    (hc : (⟨2, ![1, 1600000]⟩ : Shape).ShapeCasts ⟨1, ![1600000]⟩)
    (hb0 : (⟨0, ![]⟩ : Shape).BroadcastsInDim ⟨1, ![1600000]⟩ (![] : Fin 0 → Fin 1))
    (hb : (⟨1, ![1600000]⟩ : Shape).BroadcastsInDim ⟨2, ![1600000, 1]⟩ (![0] : Fin 1 → Fin 2))
    (hbz : (⟨0, ![]⟩ : Shape).BroadcastsInDim TNC (![] : Fin 0 → Fin 2))
    (wfG : GatherDims.WF ⟨2, ![100000, 128]⟩ ⟨2, ![1600000, 1]⟩ ⟨2, ![1600000, 128]⟩ [1] [0] [] [0] [] 1 ![1, 128])
    (wfS : ScatterDims.WF ⟨2, ![100000, 128]⟩ ⟨2, ![1600000, 1]⟩ ⟨2, ![1600000, 128]⟩ [1] [0] [0] 1) :
    Host.scatterAdd (F := Ideal) (Cert.Gcn.rowScatterDims 100000 1600000 128 wfS)
        (broadcastInDim TNC ![] hbz (constant (F := Ideal) ⟨0, ![]⟩ .f32 0x00000000#32))
        (broadcastInDim ⟨2, ![1600000, 1]⟩ ![0] hb (shapeCast ⟨1, ![1600000]⟩ (extractStridedSlice ⟨2, ![1, 1600000]⟩ ![1, 0] ei hs1) hc))
        (Host.gather (Cert.Gcn.rowGatherDims 100000 1600000 128 wfG) x
          (broadcastInDim ⟨2, ![1600000, 1]⟩ ![0] hb
            (select (cmpi .slt (shapeCast ⟨1, ![1600000]⟩ (extractStridedSlice ⟨2, ![1, 1600000]⟩ ![0, 0] ei hs0) hc) (broadcastInDim ⟨1, ![1600000]⟩ ![] hb0 (constantI ⟨0, ![]⟩ 32 0#32)))
              (addi (shapeCast ⟨1, ![1600000]⟩ (extractStridedSlice ⟨2, ![1, 1600000]⟩ ![0, 0] ei hs0) hc) (broadcastInDim ⟨1, ![1600000]⟩ ![] hb0 (constantI ⟨0, ![]⟩ 32 100000#32))) (shapeCast ⟨1, ![1600000]⟩ (extractStridedSlice ⟨2, ![1, 1600000]⟩ ![0, 0] ei hs0) hc))))
      = aggOf x ei :=
  gatherScatter_rows x ei hs0 hs1 hc hb0 hb hbz wfG wfS

/-- ROWS GATHERED AT THE SOURCES, SCALED BY THEIR EDGE'S WEIGHT AND ADDED UP AT THE TARGETS. -/
theorem gatherScatter_scaled (T : TNC.Idx → EReal) (wvec : (⟨1, ![1600000]⟩ : Shape).Idx → EReal)
    (ei : T2E.Idx → BitVec 32)
    (hs0 : (⟨2, ![2, 1600000]⟩ : Shape).Slices ![0, 0] ⟨2, ![1, 1600000]⟩)
    (hs1 : (⟨2, ![2, 1600000]⟩ : Shape).Slices ![1, 0] ⟨2, ![1, 1600000]⟩)
    (hc : (⟨2, ![1, 1600000]⟩ : Shape).ShapeCasts ⟨1, ![1600000]⟩)
    (hb0 : (⟨0, ![]⟩ : Shape).BroadcastsInDim ⟨1, ![1600000]⟩ (![] : Fin 0 → Fin 1))
    (hb : (⟨1, ![1600000]⟩ : Shape).BroadcastsInDim ⟨2, ![1600000, 1]⟩ (![0] : Fin 1 → Fin 2))
    (hbw : (⟨2, ![1600000, 1]⟩ : Shape).BroadcastsInDim ⟨2, ![1600000, 128]⟩ (![0, 1] : Fin 2 → Fin 2))
    (hbz : (⟨0, ![]⟩ : Shape).BroadcastsInDim TNC (![] : Fin 0 → Fin 2))
    (wfG : GatherDims.WF ⟨2, ![100000, 128]⟩ ⟨2, ![1600000, 1]⟩ ⟨2, ![1600000, 128]⟩ [1] [0] [] [0] [] 1 ![1, 128])
    (wfS : ScatterDims.WF ⟨2, ![100000, 128]⟩ ⟨2, ![1600000, 1]⟩ ⟨2, ![1600000, 128]⟩ [1] [0] [0] 1) :
    Host.scatterAdd (F := Ideal) (Cert.Gcn.rowScatterDims 100000 1600000 128 wfS)
        (broadcastInDim TNC ![] hbz (constant (F := Ideal) ⟨0, ![]⟩ .f32 0x00000000#32))
        (broadcastInDim ⟨2, ![1600000, 1]⟩ ![0] hb (shapeCast ⟨1, ![1600000]⟩ (extractStridedSlice ⟨2, ![1, 1600000]⟩ ![1, 0] ei hs1) hc))
        (mulf (F := Ideal) (φ := .f32)
          (broadcastInDim ⟨2, ![1600000, 128]⟩ ![0, 1] hbw (broadcastInDim ⟨2, ![1600000, 1]⟩ ![0] hb wvec))
          (Host.gather (Cert.Gcn.rowGatherDims 100000 1600000 128 wfG) T
            (broadcastInDim ⟨2, ![1600000, 1]⟩ ![0] hb
              (select (cmpi .slt (shapeCast ⟨1, ![1600000]⟩ (extractStridedSlice ⟨2, ![1, 1600000]⟩ ![0, 0] ei hs0) hc) (broadcastInDim ⟨1, ![1600000]⟩ ![] hb0 (constantI ⟨0, ![]⟩ 32 0#32)))
              (addi (shapeCast ⟨1, ![1600000]⟩ (extractStridedSlice ⟨2, ![1, 1600000]⟩ ![0, 0] ei hs0) hc) (broadcastInDim ⟨1, ![1600000]⟩ ![] hb0 (constantI ⟨0, ![]⟩ 32 100000#32))) (shapeCast ⟨1, ![1600000]⟩ (extractStridedSlice ⟨2, ![1, 1600000]⟩ ![0, 0] ei hs0) hc)))))
      = fun j => 0 + ∑ e ∈ lands ei (j 0 : Fin 100000), wvec (ix1 e) * T (ix2 (srcRow ei e) (j 1 : Fin 128)) := by
  funext j
  obtain ⟨i, k, rfl⟩ : ∃ (i : Fin 100000) (k : Fin 128), j = ix2 i k := ⟨j 0, j 1, eq_ix2 j⟩
  refine (gatherScatter_scaled_vec T wvec _ _ hb0 hb hbw hbz wfG wfS i k).trans ?_
  refine congrArg (fun z : EReal => 0 + z) ?_
  unfold lands srcRow
  refine Finset.sum_congr (Finset.filter_congr fun e _ => ?_) fun e _ => ?_
  · rw [edgeWord_dst ei hs1 hc e]
  · rw [edgeWord_src ei hs0 hc e]

/-! ## The degree and its reciprocal square root -/

/-- At the ideal values the host's reciprocal square root is the extended reals' at each entry. -/
theorem hostRsqrt_ideal {s : Shape} {φ : FTy} (x : FVec Ideal s φ) (j : s.Idx) :
    Host.rsqrt (F := Ideal) x j = Ideal.rsqrt (x j) := rfl

/-- The table of ones at an entry. -/
theorem oneTable_apply {S : Shape} (hb1 : (⟨0, ![]⟩ : Shape).BroadcastsInDim S (![] : Fin 0 → Fin S.rank)) (j : S.Idx) :
    broadcastInDim S ![] hb1 (constant (F := Ideal) ⟨0, ![]⟩ .f32 0x3F800000#32) j = (1 : EReal) := by
  rw [broadcastInDim_scalar_apply hb1]
  exact Ideal.ofBits_one_f32

/-- Ones added up at the column of the words `d`, plus one, then the reciprocal square root: at node `i` the count of
    the positions whose word, read signed, is `i`, plus one, under the reciprocal square root. -/
theorem degree_rsqrt_vec (d : (⟨1, ![1600000]⟩ : Shape).Idx → BitVec 32)
    (hb0 : (⟨0, ![]⟩ : Shape).BroadcastsInDim ⟨1, ![1600000]⟩ (![] : Fin 0 → Fin 1))
    (hb : (⟨1, ![1600000]⟩ : Shape).BroadcastsInDim ⟨2, ![1600000, 1]⟩ (![0] : Fin 1 → Fin 2))
    (hbn : (⟨0, ![]⟩ : Shape).BroadcastsInDim ⟨1, ![100000]⟩ (![] : Fin 0 → Fin 1))
    (wfV : ScatterDims.WF ⟨1, ![100000]⟩ ⟨2, ![1600000, 1]⟩ ⟨1, ![1600000]⟩ [] [0] [0] 1)
    (i : Fin 100000) :
    Host.rsqrt (F := Ideal) (φ := .f32)
        (addf (F := Ideal)
          (Host.scatterAdd (F := Ideal) (Cert.Gcn.vecScatterDims 100000 1600000 wfV)
            (broadcastInDim ⟨1, ![100000]⟩ ![] hbn (constant (F := Ideal) ⟨0, ![]⟩ .f32 0x00000000#32))
            (broadcastInDim ⟨2, ![1600000, 1]⟩ ![0] hb d)
            (broadcastInDim ⟨1, ![1600000]⟩ ![] hb0 (constant (F := Ideal) ⟨0, ![]⟩ .f32 0x3F800000#32)))
          (broadcastInDim ⟨1, ![100000]⟩ ![] hbn (constant (F := Ideal) ⟨0, ![]⟩ .f32 0x3F800000#32))) (ix1 i)
      = Ideal.rsqrt ((0 + ∑ _e ∈ Finset.univ.filter (fun e : Fin 1600000 => (d (ix1 e)).toInt = (i.val : ℤ)), (1 : EReal)) + 1) := by
  rw [hostRsqrt_ideal, addf_apply, hostScatterAdd_ideal, Cert.Gcn.scatterAdd_vec_apply wfV, zeroTable_apply hbn,
    oneTable_apply hbn]
  refine congrArg (fun z : EReal => Ideal.rsqrt ((0 + z) + 1)) ?_
  refine Finset.sum_congr (Finset.filter_congr fun e _ => ?_) fun e _ => ?_
  · rw [plainCol_apply d hb e]
  · exact oneTable_apply hb0 (ix1 e)

/-- THE DEGREE'S RECIPROCAL ROOT over the edge array: ones added up at the targets, plus one, under the reciprocal
    square root, is `dinvOf`. -/
theorem degree_rsqrt (ei : T2E.Idx → BitVec 32)
    (hs1 : (⟨2, ![2, 1600000]⟩ : Shape).Slices ![1, 0] ⟨2, ![1, 1600000]⟩)
    (hc : (⟨2, ![1, 1600000]⟩ : Shape).ShapeCasts ⟨1, ![1600000]⟩)
    (hb0 : (⟨0, ![]⟩ : Shape).BroadcastsInDim ⟨1, ![1600000]⟩ (![] : Fin 0 → Fin 1))
    (hb : (⟨1, ![1600000]⟩ : Shape).BroadcastsInDim ⟨2, ![1600000, 1]⟩ (![0] : Fin 1 → Fin 2))
    (hbn : (⟨0, ![]⟩ : Shape).BroadcastsInDim ⟨1, ![100000]⟩ (![] : Fin 0 → Fin 1))
    (wfV : ScatterDims.WF ⟨1, ![100000]⟩ ⟨2, ![1600000, 1]⟩ ⟨1, ![1600000]⟩ [] [0] [0] 1)
    (i : Fin 100000) :
    Host.rsqrt (F := Ideal) (φ := .f32)
        (addf (F := Ideal)
          (Host.scatterAdd (F := Ideal) (Cert.Gcn.vecScatterDims 100000 1600000 wfV)
            (broadcastInDim ⟨1, ![100000]⟩ ![] hbn (constant (F := Ideal) ⟨0, ![]⟩ .f32 0x00000000#32))
            (broadcastInDim ⟨2, ![1600000, 1]⟩ ![0] hb (shapeCast ⟨1, ![1600000]⟩ (extractStridedSlice ⟨2, ![1, 1600000]⟩ ![1, 0] ei hs1) hc))
            (broadcastInDim ⟨1, ![1600000]⟩ ![] hb0 (constant (F := Ideal) ⟨0, ![]⟩ .f32 0x3F800000#32)))
          (broadcastInDim ⟨1, ![100000]⟩ ![] hbn (constant (F := Ideal) ⟨0, ![]⟩ .f32 0x3F800000#32))) (ix1 i)
      = dinvOf ei i := by
  refine (degree_rsqrt_vec _ hb0 hb hbn wfV i).trans ?_
  unfold dinvOf degOf lands
  refine congrArg (fun z : EReal => Ideal.rsqrt ((0 + z) + 1)) ?_
  refine Finset.sum_congr (Finset.filter_congr fun e _ => ?_) fun _ _ => rfl
  rw [edgeWord_dst ei hs1 hc e]

/-! ## A vector gathered at a column -/

/-- The dimension numbers of a gather of scalars: operand `N`, start indices `E × 1`, result `E`. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER OF SCALARS READ AT `e`: the operand's entry at the position index `e` names, read signed and clamped
    into `[0, N - 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e (0 : Fin 1))).toInt.toNat (N - 1), by omega⟩) := by
  unfold Host.gather
  refine congrArg x (funext fun a => ?_)
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- A vector over the nodes gathered at the wrapped column of the words `s`: its entry at `gRow (s e)`. -/
theorem gather_vec_wrapped {α : Type} (dv : (⟨1, ![100000]⟩ : Shape).Idx → α)
    (s : (⟨1, ![1600000]⟩ : Shape).Idx → BitVec 32)
    (hb0 : (⟨0, ![]⟩ : Shape).BroadcastsInDim ⟨1, ![1600000]⟩ (![] : Fin 0 → Fin 1))
    (hb : (⟨1, ![1600000]⟩ : Shape).BroadcastsInDim ⟨2, ![1600000, 1]⟩ (![0] : Fin 1 → Fin 2))
    (wfg : GatherDims.WF ⟨1, ![100000]⟩ ⟨2, ![1600000, 1]⟩ ⟨1, ![1600000]⟩ [] [0] [] [0] [] 1 ![1])
    (e : Fin 1600000) :
    Host.gather (vecGatherDims 100000 1600000 wfg) dv
        (broadcastInDim ⟨2, ![1600000, 1]⟩ ![0] hb
          (select (cmpi .slt s (broadcastInDim ⟨1, ![1600000]⟩ ![] hb0 (constantI ⟨0, ![]⟩ 32 0#32)))
            (addi s (broadcastInDim ⟨1, ![1600000]⟩ ![] hb0 (constantI ⟨0, ![]⟩ 32 100000#32))) s)) (ix1 e)
      = dv (ix1 (gRow (s (ix1 e)))) := by
  refine (gather_vec_apply (by decide) wfg dv _ e).trans ?_
  refine congrArg (fun r : Fin 100000 => dv (ix1 r)) (Fin.ext ?_)
  show min (_ : BitVec 32).toInt.toNat (100000 - 1) = min (wrapN (s (ix1 e))).toInt.toNat 99999
  rw [wrappedCol_apply s hb0 hb e]

/-- Gathered at the wrapped SOURCE column of the edge array: the entry at the edge's source row. -/
theorem gather_vec_src {α : Type} (dv : (⟨1, ![100000]⟩ : Shape).Idx → α) (ei : T2E.Idx → BitVec 32)
    (hs0 : (⟨2, ![2, 1600000]⟩ : Shape).Slices ![0, 0] ⟨2, ![1, 1600000]⟩)
    (hc : (⟨2, ![1, 1600000]⟩ : Shape).ShapeCasts ⟨1, ![1600000]⟩)
    (hb0 : (⟨0, ![]⟩ : Shape).BroadcastsInDim ⟨1, ![1600000]⟩ (![] : Fin 0 → Fin 1))
    (hb : (⟨1, ![1600000]⟩ : Shape).BroadcastsInDim ⟨2, ![1600000, 1]⟩ (![0] : Fin 1 → Fin 2))
    (wfg : GatherDims.WF ⟨1, ![100000]⟩ ⟨2, ![1600000, 1]⟩ ⟨1, ![1600000]⟩ [] [0] [] [0] [] 1 ![1])
    (e : Fin 1600000) :
    Host.gather (vecGatherDims 100000 1600000 wfg) dv
        (broadcastInDim ⟨2, ![1600000, 1]⟩ ![0] hb
          (select (cmpi .slt (shapeCast ⟨1, ![1600000]⟩ (extractStridedSlice ⟨2, ![1, 1600000]⟩ ![0, 0] ei hs0) hc) (broadcastInDim ⟨1, ![1600000]⟩ ![] hb0 (constantI ⟨0, ![]⟩ 32 0#32)))
              (addi (shapeCast ⟨1, ![1600000]⟩ (extractStridedSlice ⟨2, ![1, 1600000]⟩ ![0, 0] ei hs0) hc) (broadcastInDim ⟨1, ![1600000]⟩ ![] hb0 (constantI ⟨0, ![]⟩ 32 100000#32))) (shapeCast ⟨1, ![1600000]⟩ (extractStridedSlice ⟨2, ![1, 1600000]⟩ ![0, 0] ei hs0) hc))) (ix1 e)
      = dv (ix1 (srcRow ei e)) := by
  refine (gather_vec_wrapped dv _ hb0 hb wfg e).trans ?_
  unfold srcRow
  rw [edgeWord_src ei hs0 hc e]

/-- Gathered at the wrapped TARGET column of the edge array: the entry at the row the wrapped target word names. -/
theorem gather_vec_dst {α : Type} (dv : (⟨1, ![100000]⟩ : Shape).Idx → α) (ei : T2E.Idx → BitVec 32)
    (hs1 : (⟨2, ![2, 1600000]⟩ : Shape).Slices ![1, 0] ⟨2, ![1, 1600000]⟩)
    (hc : (⟨2, ![1, 1600000]⟩ : Shape).ShapeCasts ⟨1, ![1600000]⟩)
    (hb0 : (⟨0, ![]⟩ : Shape).BroadcastsInDim ⟨1, ![1600000]⟩ (![] : Fin 0 → Fin 1))
    (hb : (⟨1, ![1600000]⟩ : Shape).BroadcastsInDim ⟨2, ![1600000, 1]⟩ (![0] : Fin 1 → Fin 2))
    (wfg : GatherDims.WF ⟨1, ![100000]⟩ ⟨2, ![1600000, 1]⟩ ⟨1, ![1600000]⟩ [] [0] [] [0] [] 1 ![1])
    (e : Fin 1600000) :
    Host.gather (vecGatherDims 100000 1600000 wfg) dv
        (broadcastInDim ⟨2, ![1600000, 1]⟩ ![0] hb
          (select (cmpi .slt (shapeCast ⟨1, ![1600000]⟩ (extractStridedSlice ⟨2, ![1, 1600000]⟩ ![1, 0] ei hs1) hc) (broadcastInDim ⟨1, ![1600000]⟩ ![] hb0 (constantI ⟨0, ![]⟩ 32 0#32)))
              (addi (shapeCast ⟨1, ![1600000]⟩ (extractStridedSlice ⟨2, ![1, 1600000]⟩ ![1, 0] ei hs1) hc) (broadcastInDim ⟨1, ![1600000]⟩ ![] hb0 (constantI ⟨0, ![]⟩ 32 100000#32))) (shapeCast ⟨1, ![1600000]⟩ (extractStridedSlice ⟨2, ![1, 1600000]⟩ ![1, 0] ei hs1) hc))) (ix1 e)
      = dv (ix1 (gRow (ei (ix2 (1 : Fin 2) e)))) := by
  refine (gather_vec_wrapped dv _ hb0 hb wfg e).trans ?_
  rw [edgeWord_dst ei hs1 hc e]

end Cert.Gnn

end
-- ==== Proof.KernelHostValue.lean ====
/-
  The host operations between the kernel's regions, at an entry.

  * Rows of a table gathered at the wrapped source column and added up at the raw target column, from the zero table:
    entry `(p, q)` is, from zero, the sum over the edges landing at `p` of entry `q` of the source's row; on the node
    features this is the specification's aggregate.
  * Ones added up at the targets from zero, plus one, under the reciprocal square root: the specification's normaliser.
  * A vector reshaped to a column, or to a row, keeps its entries.
  * The two cores' tables added from zero: the sum over the two cores.
-/
import proofs.«401344_j78795470012789_2_alg».proof.Proof.KernelHost
import proofs.«401344_j78795470012789_2_alg».proof.Proof.HostGraphOps
import proofs.«401344_j78795470012789_2_alg».proof.Proof.Spec
import proofs.«401344_j78795470012789_2_alg».proof.Proof.LibRowGatherScatter
import proofs.«401344_j78795470012789_2_alg».proof.Proof.LibVecScatter
import Idealize.ShloMosaic.Lib.Pipeline.Value
import Idealize.ShloMosaic.Lib.ValueIdx
import Idealize.ShloMosaic.Lib.IdealHost
import Idealize.ShloMosaic.PureOps.Ideal.Laws

noncomputable section
namespace Cert.KernelIdeal.Hand
open Idealize.ShloMosaic Idealize.ShloMosaic.TcCoe Idealize.ShloMosaic.ValueIdx
open Cert.KernelIdeal Cert.KernelIdeal.Gen
open scoped BigOperators

/-! ## The printed dimension numbers are the general ones -/

theorem rowScatter_rec : scatter_S100000x128_S1600000x1_S1600000x128_1_0_0_1
    = Cert.Gcn.rowScatterDims 100000 1600000 128 Facts₀.scatter_S100000x128_S1600000x1_S1600000x128_1_0_0_1_wf := rfl

theorem rowGather_rec : gather_S100000x128_S1600000x1_S1600000x128_1_0_n_n_0_1_1128
    = Cert.Gcn.rowGatherDims 100000 1600000 128 Facts₀.gather_S100000x128_S1600000x1_S1600000x128_1_0_n_n_0_1_1128_wf := rfl

theorem vecScatter_rec : scatter_S100000_S1600000x1_S1600000_n_0_0_1
    = Cert.Gcn.vecScatterDims 100000 1600000 Facts₀.scatter_S100000_S1600000x1_S1600000_n_0_0_1_wf := rfl

/-! ## Gather the rows at the sources, add them up at the targets -/

/-- ENTRY `(p, q)` OF THE GATHER-AND-SCATTER: from zero, the sum over the edges landing at `p` of entry `q` of the
    source's row. -/
theorem gsT_apply (T : FVec Ideal S100000x128 .f32) (ei : IE) :
    gsT T ei = fun j => 0 + ∑ e ∈ Cert.Gnn.lands ei (j 0 : Fin 100000), T (ix2 (Cert.Gnn.srcRow ei e) (j 1 : Fin 128)) := by
  unfold gsT srcColT dstColT srcW dstW
  rw [rowScatter_rec, rowGather_rec]
  exact Cert.Gnn.gatherScatter_rows T ei slices_S2x1600000_S1x1600000_0_0 slices_S2x1600000_S1x1600000_1_0
    shapeCasts_S1x1600000_S1600000 bcast_S_S1600000 bcast_S1600000_S1600000x1_0 bcast_S_S100000x128 _ _

/-- On the node features it is the specification's aggregate. -/
theorem gsT_agg (x : FVec Ideal S100000x128 .f32) (ei : IE) : gsT x ei = Cert.Gnn.aggOf x ei := gsT_apply x ei

/-! ## The reciprocal square root of the in-degree plus one -/

/-- ENTRY `i` OF THE NORMALISER is the specification's: the reciprocal square root of (from zero, one for each edge landing
    at `i`) plus one. -/
theorem dinvT_apply (ei : IE) (i : Fin 100000) : dinvT ei (ix1 i) = Cert.Gnn.dinvOf ei i := by
  unfold dinvT dstColT dstW
  rw [vecScatter_rec]
  exact Cert.Gnn.degree_rsqrt ei slices_S2x1600000_S1x1600000_1_0 shapeCasts_S1x1600000_S1600000 bcast_S_S1600000
    bcast_S1600000_S1600000x1_0 bcast_S_S100000 _ i

/-! ## Vectors reshaped to a column or to a row -/

theorem colCast_f (v : FVec Ideal S100000 .f32) (n : Fin 100000) :
    shapeCast S100000x1 v shapeCasts_S100000_S100000x1 (ix2 n (0 : Fin 1)) = v (ix1 n) :=
  shapeCast_apply v shapeCasts_S100000_S100000x1 (ix2 n (0 : Fin 1)) (ix1 n)
    (by rw [Shape.rowMajor_val_two, Shape.rowMajor_val_one]; show n.val = n.val * 1 + 0; omega)

theorem colCast_i (v : IVec S100000 32) (n : Fin 100000) :
    shapeCast S100000x1 v shapeCasts_S100000_S100000x1 (ix2 n (0 : Fin 1)) = v (ix1 n) :=
  shapeCast_apply v shapeCasts_S100000_S100000x1 (ix2 n (0 : Fin 1)) (ix1 n)
    (by rw [Shape.rowMajor_val_two, Shape.rowMajor_val_one]; show n.val = n.val * 1 + 0; omega)

theorem rowCast128 (v : FVec Ideal S128 .f32) (k : Fin 128) :
    shapeCast S1x128 v shapeCasts_S128_S1x128 (ix2 (0 : Fin 1) k) = v (ix1 k) :=
  shapeCast_apply v shapeCasts_S128_S1x128 (ix2 (0 : Fin 1) k) (ix1 k)
    (by rw [Shape.rowMajor_val_two, Shape.rowMajor_val_one]; show k.val = 0 * 128 + k.val; omega)

theorem rowCast3 (v : FVec Ideal S3 .f32) (k : Fin 3) :
    shapeCast S1x3 v shapeCasts_S3_S1x3 (ix2 (0 : Fin 1) k) = v (ix1 k) :=
  shapeCast_apply v shapeCasts_S3_S1x3 (ix2 (0 : Fin 1) k) (ix1 k)
    (by rw [Shape.rowMajor_val_two, Shape.rowMajor_val_one]; show k.val = 0 * 3 + k.val; omega)

/-! ## The two cores' tables added -/

/-- The reduced index `(g, k)` with core `c` put back is `(c, g, k)`. -/
theorem lift_core (h : S2x2048x128.Reduces [0] S2048x128) (g : Fin 2048) (k : Fin 128) (c : Fin (S2x2048x128.size 0)) :
    h.lift (ix2 g k) c = ix3 (⟨c.val, c.isLt⟩ : Fin 2) g k := by
  funext a; apply Fin.ext
  fin_cases a <;> rfl

/-- The host's sum over the core axis, from zero: at `(g, k)` the two cores' entries added. -/
theorem reduce_cores (x : FVec Ideal S2x2048x128 .f32) :
    Host.reduceAdd (F := Ideal) x (constant S_ .f32 0x00000000#32) reducesTo_S2x2048x128_S2048x128_d0 h_S_
      = fun j => 0 + ∑ c : Fin 2, x (ix3 c (j 0 : Fin 2048) (j 1 : Fin 128)) := by
  funext j
  obtain ⟨g, k, rfl⟩ : ∃ (g : Fin 2048) (k : Fin 128), j = ix2 g k := ⟨j 0, j 1, eq_ix2 j⟩
  show _ = 0 + ∑ c : Fin 2, x (ix3 c g k)
  have h : S2x2048x128.Reduces [0] S2048x128 := by decide
  rw [hostReduceAdd_apply, Ideal.hostReduceAdd_single reducesTo_S2x2048x128_S2048x128_d0 h, constant_apply,
    Ideal.ofBits_zero_f32]
  refine congrArg (fun s => (0 : EReal) + s) (Finset.sum_congr rfl fun c _ => ?_)
  rw [lift_core]
  rfl

end Cert.KernelIdeal.Hand
end
-- ==== Proof.LibDenseLayer.lean ====
/-
  One dense layer followed by rectification, at the ideal values.

  For a matrix `a` of `B` rows and `K` columns and a weight matrix `w` of `N` rows and `K` columns the layer is

      denseRelu a w (r, n) = max (Σ_k a (r, k) · w (n, k)) 0 ,

  i.e. `relu (a · wᵀ)`.  Row `r` of the result depends on row `r` of `a` alone, and column `n` on row `n` of `w`
  alone (`denseRelu_congr`): a block of rows of the result is the layer of that block of rows.

  Two printed spellings of it are read to this form.  Both contract ONE axis, of extent `K`, and the sum over the
  contraction index is re-indexed to `Fin K` through its one coordinate (`contraction_sum`):

  * a kernel's matrix product accumulated into the zero splat, the weight's SECOND axis contracted, then the
    maximum with the zero splat (`matmul_relu_eq`);
  * the host's `dot_general` of `a` with the TRANSPOSE of `w` (so the transpose's FIRST axis is contracted), then the
    maximum with the broadcast zero constant (`dot_transpose_relu_eq`).

  What the two need of the dimension numbers is stated as hypotheses on the operand index maps, coordinate by
  coordinate; for a literal record each is decided by unfolding.  Only `0 + x = x` is used of the arithmetic, so
  both hold at the infinities too.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx
open scoped BigOperators

/-- `relu (a · wᵀ)` on extended reals: entry `(r, n)` is `max (Σ_k a (r, k) · w (n, k)) 0`. -/
def denseRelu {B K N : Nat} (a : (⟨2, ![B, K]⟩ : Shape).Idx → EReal) (w : (⟨2, ![N, K]⟩ : Shape).Idx → EReal) :
    (⟨2, ![B, N]⟩ : Shape).Idx → EReal :=
  fun i => max (∑ k : Fin K, a (ix2 (i 0 : Fin B) k) * w (ix2 (i 1 : Fin N) k)) 0

theorem denseRelu_apply {B K N : Nat} (a : (⟨2, ![B, K]⟩ : Shape).Idx → EReal) (w : (⟨2, ![N, K]⟩ : Shape).Idx → EReal)
    (r : Fin B) (n : Fin N) : denseRelu a w (ix2 r n) = max (∑ k : Fin K, a (ix2 r k) * w (ix2 n k)) 0 := rfl

/-- An entry of the layer depends on one row of each operand: equal rows give equal entries, whatever the two
    operands' other rows (and numbers of rows) are. -/
theorem denseRelu_congr {B B' K N N' : Nat} (a : (⟨2, ![B, K]⟩ : Shape).Idx → EReal) (a' : (⟨2, ![B', K]⟩ : Shape).Idx → EReal)
    (w : (⟨2, ![N, K]⟩ : Shape).Idx → EReal) (w' : (⟨2, ![N', K]⟩ : Shape).Idx → EReal)
    (r : Fin B) (r' : Fin B') (n : Fin N) (n' : Fin N')
    (ha : ∀ k : Fin K, a (ix2 r k) = a' (ix2 r' k)) (hw : ∀ k : Fin K, w (ix2 n k) = w' (ix2 n' k)) :
    denseRelu a w (ix2 r n) = denseRelu a' w' (ix2 r' n') := by
  rw [denseRelu_apply, denseRelu_apply]
  exact congrArg (fun t => max t 0) (Finset.sum_congr rfl fun k _ => by rw [ha k, hw k])

/-- A ONE-AXIS CONTRACTION AS A SUM OVER `Fin K`: if at the result index `j` the two operands, read at the operand
    indices of the contraction position `q`, are `L` and `R` of `q`'s one coordinate, the contraction's sum is
    `Σ_k L k · R k`. -/
theorem contraction_sum {sl sr so : Shape} (d : DotDims sl sr so) (K : Nat) (hrk : d.contr.rank = 1)
    (hsz : d.contr.size ⟨0, by omega⟩ = K) (lhs : sl.Idx → EReal) (rhs : sr.Idx → EReal) (j : so.Idx) (L R : Fin K → EReal)
    (hl : ∀ q : d.contr.Idx, lhs (d.lhsIdx j q) = L ((q ⟨0, by omega⟩).cast hsz))
    (hr : ∀ q : d.contr.Idx, rhs (d.rhsIdx j q) = R ((q ⟨0, by omega⟩).cast hsz)) :
    ∑ q : d.contr.Idx, lhs (d.lhsIdx j q) * rhs (d.rhsIdx j q) = ∑ k : Fin K, L k * R k :=
  (Finset.sum_congr rfl fun q _ => by rw [hl q, hr q]; rfl).trans
    (Equiv.sum_comp (contrEquiv1 d K hrk hsz) fun k => L k * R k)

section Kernel
variable {B K N : Nat} {φ₁ φ₂ : FTy} (d : DotDims ⟨2, ![B, K]⟩ ⟨2, ![N, K]⟩ ⟨2, ![B, N]⟩)
  (hrk : d.contr.rank = 1) (hsz : d.contr.size ⟨0, by omega⟩ = K)
  (hl0 : ∀ (j : (⟨2, ![B, N]⟩ : Shape).Idx) (q : d.contr.Idx), (d.lhsIdx j q 0).val = (j 0).val)
  (hl1 : ∀ (j : (⟨2, ![B, N]⟩ : Shape).Idx) (q : d.contr.Idx), (d.lhsIdx j q 1).val = (q ⟨0, by omega⟩).val)
  (hr0 : ∀ (j : (⟨2, ![B, N]⟩ : Shape).Idx) (q : d.contr.Idx), (d.rhsIdx j q 0).val = (j 1).val)
  (hr1 : ∀ (j : (⟨2, ![B, N]⟩ : Shape).Idx) (q : d.contr.Idx), (d.rhsIdx j q 1).val = (q ⟨0, by omega⟩).val)

include hrk hsz hl0 hl1 hr0 hr1 in
/-- THE KERNEL'S LAYER: the product of `a` (rows × `K`) with `w` (columns × `K`, its second axis contracted)
    accumulated into the zero splat, then the maximum with the zero splat, is `denseRelu a w`. -/
theorem matmul_relu_eq (a : FVec Ideal ⟨2, ![B, K]⟩ φ₁) (w : FVec Ideal ⟨2, ![N, K]⟩ φ₂) :
    maximumf (matmul d none a w (constant ⟨2, ![B, N]⟩ .f32 0x00000000#32))
        (broadcast ⟨2, ![B, N]⟩ (Scalar.ofBits (F := Ideal) .f32 0x00000000#32))
      = denseRelu a w := by
  funext j
  show max (FloatOps.matmul d none a w (constant ⟨2, ![B, N]⟩ .f32 0x00000000#32) j) (Ideal.ofBits .f32 0x00000000#32) = _
  rw [Ideal.matmul_constant_zero_apply, Ideal.ofBits_zero_f32,
    contraction_sum d K hrk hsz a w j (fun k => a (ix2 (j 0 : Fin B) k)) (fun k => w (ix2 (j 1 : Fin N) k))
      (fun q => congrArg a (funext fun ax => Fin.ext (by
        match ax with
        | ⟨0, _⟩ => exact hl0 j q
        | ⟨1, _⟩ => exact hl1 j q)))
      (fun q => congrArg w (funext fun ax => Fin.ext (by
        match ax with
        | ⟨0, _⟩ => exact hr0 j q
        | ⟨1, _⟩ => exact hr1 j q)))]
  rfl

end Kernel

section Host
variable {B K N : Nat} {φ₁ φ₂ : FTy} (d : DotDims ⟨2, ![B, K]⟩ ⟨2, ![K, N]⟩ ⟨2, ![B, N]⟩)
  (hrk : d.contr.rank = 1) (hsz : d.contr.size ⟨0, by omega⟩ = K)
  (hl0 : ∀ (j : (⟨2, ![B, N]⟩ : Shape).Idx) (q : d.contr.Idx), (d.lhsIdx j q 0).val = (j 0).val)
  (hl1 : ∀ (j : (⟨2, ![B, N]⟩ : Shape).Idx) (q : d.contr.Idx), (d.lhsIdx j q 1).val = (q ⟨0, by omega⟩).val)
  (hr0 : ∀ (j : (⟨2, ![B, N]⟩ : Shape).Idx) (q : d.contr.Idx), (d.rhsIdx j q 0).val = (q ⟨0, by omega⟩).val)
  (hr1 : ∀ (j : (⟨2, ![B, N]⟩ : Shape).Idx) (q : d.contr.Idx), (d.rhsIdx j q 1).val = (j 1).val)

include hrk hsz hl0 hl1 hr0 hr1 in
/-- THE HOST'S LAYER: `dot_general` of `a` (rows × `K`) with the transpose of `w` (`K` × columns, its first axis
    contracted), then the maximum with the zero constant broadcast, is `denseRelu a w`. -/
theorem dot_transpose_relu_eq (ht : (⟨2, ![N, K]⟩ : Shape).Transposes [1, 0] ⟨2, ![K, N]⟩)
    (hb : (⟨0, ![]⟩ : Shape).BroadcastsInDim ⟨2, ![B, N]⟩ (![] : Fin 0 → Fin 2))
    (a : FVec Ideal ⟨2, ![B, K]⟩ φ₁) (w : FVec Ideal ⟨2, ![N, K]⟩ φ₂) :
    maximumf (Host.dotGeneral d none a (transpose ⟨2, ![K, N]⟩ [1, 0] w ht))
        (broadcastInDim ⟨2, ![B, N]⟩ ![] hb (constant (F := Ideal) ⟨0, ![]⟩ .f32 0x00000000#32))
      = denseRelu a w := by
  funext j
  show max (FloatOps.dotGeneral d none .single a (transpose ⟨2, ![K, N]⟩ [1, 0] w ht) j) (Ideal.ofBits .f32 0x00000000#32) = _
  rw [Ideal.dotGeneral_apply, Ideal.ofBits_zero_f32,
    contraction_sum d K hrk hsz a (transpose ⟨2, ![K, N]⟩ [1, 0] w ht) j (fun k => a (ix2 (j 0 : Fin B) k))
      (fun k => w (ix2 (j 1 : Fin N) k))
      (fun q => congrArg a (funext fun ax => Fin.ext (by
        match ax with
        | ⟨0, _⟩ => exact hl0 j q
        | ⟨1, _⟩ => exact hl1 j q)))
      (fun q => transpose_apply [1, 0] w ht (d.rhsIdx j q) (ix2 (j 1 : Fin N) ((q ⟨0, by omega⟩).cast hsz)) (fun b => by
        match b with
        | ⟨0, _⟩ => exact (hr0 j q).symm
        | ⟨1, _⟩ => exact (hr1 j q).symm))]
  rfl

end Host

end Cert.Lib

end
-- ==== Proof.Region0Value.lean ====
/-
  Region 0 of the kernel, read as values: the two arrays it leaves are the perceptron `hwOf` of the arrays it finds,
  and that perceptron with each row scaled by the row's entry of the column `dinv`.

  The region runs over 25 points; point `t` stages rows `4000 t … 4000 t + 3999` of `x`, of `agg` and of `dinv`,
  and the whole of the three weights and the two bias rows, and stores one 4000-row block into each output.

  * The block's matrix product accumulated into the zero splat is the product `mm`: the contraction has one position,
    re-indexed to `Fin 128`; the narrowing of its operands is the identity on extended reals (`blockdot_eq_mm`).
  * One layer — product, bias row broadcast over the rows, maximum with zero — is `relu (a · w + b)` (`layer_eq`), so
    the first store's payload is `hwOf` of the loaded blocks (`pay1_eq`) and the second's is that times the `dinv`
    column broadcast over the lanes (`pay2_apply`).
  * `hwOf` is row-local: row `r` of the result needs row `r` of `x` and of `agg` only (`hwOf_row_congr`). Hence
    `hwOf` of point `t`'s blocks at row `r` is `hwOf` of the arrays at row `4000 t + r` (`hw_at_point`): what point
    `t` writes back is block `t` of one function of the arrays (`flushed8_eq`, `flushed9_eq`).
  * Row `R` lies in the block of point `R / 4000`, so the blocks cover the arrays (`cover8`, `cover9`) and each
    output array is that function everywhere (`hw_final`, `hws_final`).

  Only `0 + x = x` and congruence are used of the arithmetic: every step holds at the infinities too.
-/
import proofs.«401344_j78795470012789_2_alg».proof.Proof.Gen.KernelIdeal.Frame
import proofs.«401344_j78795470012789_2_alg».proof.Proof.Spec
import proofs.«401344_j78795470012789_2_alg».proof.Proof.LibDenseLayer
import Idealize.ShloMosaic.Lib.ValueIdx
import Idealize.ShloMosaic.Lib.Pipeline.Value
import Idealize.ShloMosaic.PureOps.Ideal.Laws

noncomputable section
namespace Cert.KernelIdeal.Hand
open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

namespace Region0

/-! ## The block's matrix product -/

theorem lhs_blockdot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_blockdot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_blockdot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_blockdot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block's matrix product accumulated into the zero splat is the product `mm`: entry `(r, n)` is
    `Σ_k a (r, k) · w (k, n)`, the contraction's one position re-indexed to `Fin 128`. -/
theorem blockdot_eq_mm {φ₁ φ₂ : FTy} (a : FVec Ideal S4000x128 φ₁) (w : FVec Ideal S128x128 φ₂) :
    matmul dot_S4000x128_S128x128_S4000x128_1_0_0_1_n_n none a w (constant S4000x128 .f32 0x00000000#32)
      = Cert.Gnn.mm (B := 4000) (K := 128) (N := 128) a w := by
  funext j
  show FloatOps.matmul dot_S4000x128_S128x128_S4000x128_1_0_0_1_n_n none a w (constant S4000x128 .f32 0x00000000#32) j = _
  rw [Ideal.matmul_constant_zero_apply]
  exact Cert.Lib.contraction_sum dot_S4000x128_S128x128_S4000x128_1_0_0_1_n_n 128 rfl rfl a w j
    (fun k => a (ix2 (j 0 : Fin 4000) k)) (fun k => w (ix2 k (j 1 : Fin 128)))
    (fun q => congrArg a (funext fun ax => Fin.ext (by
      match ax with
      | ⟨0, _⟩ => exact lhs_blockdot_0 j q
      | ⟨1, _⟩ => exact lhs_blockdot_1 j q)))
    (fun q => congrArg w (funext fun ax => Fin.ext (by
      match ax with
      | ⟨0, _⟩ => exact rhs_blockdot_0 j q
      | ⟨1, _⟩ => exact rhs_blockdot_1 j q)))

/-! ## The payload is the perceptron of the block -/

/-- ONE LAYER as the body spells it — the product into the zero splat, the bias row `[1, 128]` broadcast over the
    4000 rows, the maximum with the zero splat — is `relu (a · w + b)`; the narrowing of the operands is the
    identity on extended reals. -/
theorem layer_eq (a : FVec Ideal S4000x128 .f32) (w : Vec Ideal S128x128 .f32) (b : Vec Ideal S1x128 .f32) :
    maximumf (addf (matmul dot_S4000x128_S128x128_S4000x128_1_0_0_1_n_n none (truncf .bf16 a bitsLt_bf16_f32) (truncf .bf16 w bitsLt_bf16_f32)
          (constant S4000x128 .f32 0x00000000#32))
        (broadcastTo S4000x128 (shapeCast S1x128 b shapeCasts_S1x128_S1x128) broadcasts_S1x128_S4000x128))
      (broadcast S4000x128 (Scalar.ofBits (F := Ideal) .f32 0x00000000#32))
    = Cert.Gnn.relu (Cert.Gnn.addRow (Cert.Gnn.mm (B := 4000) (K := 128) (N := 128) a w) (fun k => b (ix2 (0 : Fin 1) k))) := by
  rw [blockdot_eq_mm, shapeCast_self]
  funext j
  obtain ⟨p, q, rfl⟩ : ∃ (p : Fin 4000) (q : Fin 128), j = ix2 p q := ⟨j 0, j 1, eq_ix2 j⟩
  show max (Cert.Gnn.mm (B := 4000) (K := 128) (N := 128) a w (ix2 p q)
      + broadcastTo S4000x128 b broadcasts_S1x128_S4000x128 (ix2 p q)) (Ideal.ofBits .f32 0x00000000#32)
    = max (Cert.Gnn.mm (B := 4000) (K := 128) (N := 128) a w (ix2 p q) + b (ix2 (0 : Fin 1) q)) 0
  rw [Ideal.ofBits_zero_f32, broadcastTo_apply b broadcasts_S1x128_S4000x128 (ix2 p q) (ix2 (0 : Fin 1) q) (fun ax => by
    match ax with
    | ⟨0, _⟩ => show (0 : Nat) = if (1 : Nat) = 1 then 0 else _; rw [if_pos rfl]
    | ⟨1, _⟩ => show q.val = if (128 : Nat) = 1 then 0 else q.val; rw [if_neg (by decide)])]

/-- THE PAYLOAD: what the body stores in the first output's block is `hwOf` of the loaded blocks — the sum block
    `agg + x`, two layers, the third product. -/
theorem pay1_eq (agg x : Vec Ideal S4000x128 .f32) (w1 : Vec Ideal S128x128 .f32) (b1 : Vec Ideal S1x128 .f32)
    (w2 : Vec Ideal S128x128 .f32) (b2 : Vec Ideal S1x128 .f32) (wg : Vec Ideal S128x128 .f32) :
    k0_pay1 (F := Ideal) agg x w1 b1 w2 b2 wg
      = Cert.Gnn.hwOf (B := 4000) x agg w1 (fun k => b1 (ix2 (0 : Fin 1) k)) w2 (fun k => b2 (ix2 (0 : Fin 1) k)) wg := by
  unfold k0_pay1
  dsimp only
  rw [shapeCast_self, layer_eq, layer_eq, blockdot_eq_mm]
  rfl

/-- The second output's payload is the first's times the column `dinv` broadcast over the 128 lanes. -/
theorem pay2_apply (agg x : Vec Ideal S4000x128 .f32) (w1 : Vec Ideal S128x128 .f32) (b1 : Vec Ideal S1x128 .f32)
    (w2 : Vec Ideal S128x128 .f32) (b2 : Vec Ideal S1x128 .f32) (wg : Vec Ideal S128x128 .f32) (d : Vec Ideal S4000x1 .f32)
    (p : Fin 4000) (q : Fin 128) :
    k0_pay2 (F := Ideal) agg x w1 b1 w2 b2 wg d (ix2 p q)
      = Cert.Gnn.hwOf (B := 4000) x agg w1 (fun k => b1 (ix2 (0 : Fin 1) k)) w2 (fun k => b2 (ix2 (0 : Fin 1) k)) wg (ix2 p q)
        * d (ix2 p (0 : Fin 1)) := by
  unfold k0_pay2
  rw [shapeCast_self, pay1_eq]
  show Cert.Gnn.hwOf (B := 4000) x agg w1 (fun k => b1 (ix2 (0 : Fin 1) k)) w2 (fun k => b2 (ix2 (0 : Fin 1) k)) wg (ix2 p q)
      * broadcastTo S4000x128 d broadcasts_S4000x1_S4000x128 (ix2 p q) = _
  rw [broadcastTo_apply d broadcasts_S4000x1_S4000x128 (ix2 p q) (ix2 p (0 : Fin 1)) (fun ax => by
    match ax with
    | ⟨0, _⟩ => show p.val = if (4000 : Nat) = 1 then 0 else p.val; rw [if_neg (by decide)]
    | ⟨1, _⟩ => show (0 : Nat) = if (1 : Nat) = 1 then 0 else _; rw [if_pos rfl])]

/-! ## `hwOf` is row-local -/

/-- Row `r` of `hwOf` depends on row `r` of `x` and of `agg` alone: if two pairs of arrays, of any numbers of
    rows, agree on a row, so do their perceptrons there. -/
theorem hwOf_row_congr {B B' : Nat} (x agg : (⟨2, ![B, 128]⟩ : Shape).Idx → EReal)
    (x' agg' : (⟨2, ![B', 128]⟩ : Shape).Idx → EReal) (w1 : Cert.Gnn.TCC.Idx → EReal) (b1 : Fin 128 → EReal)
    (w2 : Cert.Gnn.TCC.Idx → EReal) (b2 : Fin 128 → EReal) (wg : Cert.Gnn.TCC.Idx → EReal) (r : Fin B) (r' : Fin B')
    (hx : ∀ k : Fin 128, x (ix2 r k) = x' (ix2 r' k)) (hagg : ∀ k : Fin 128, agg (ix2 r k) = agg' (ix2 r' k)) (n : Fin 128) :
    Cert.Gnn.hwOf x agg w1 b1 w2 b2 wg (ix2 r n) = Cert.Gnn.hwOf x' agg' w1 b1 w2 b2 wg (ix2 r' n) := by
  unfold Cert.Gnn.hwOf Cert.Gnn.mm Cert.Gnn.relu Cert.Gnn.addRow
  refine Finset.sum_congr rfl fun k _ => congrArg (· * wg (ix2 k n)) ?_
  refine congrArg (fun s => max (s + b2 k) 0) ?_
  refine Finset.sum_congr rfl fun k' _ => congrArg (· * w2 (ix2 k' k)) ?_
  refine congrArg (fun s => max (s + b1 k') 0) ?_
  refine Finset.sum_congr rfl fun k'' _ => congrArg (· * w1 (ix2 k'' k')) ?_
  show agg (ix2 r k'') + x (ix2 r k'') = agg' (ix2 r' k'') + x' (ix2 r' k'')
  rw [hx k'', hagg k'']

/-! ## The windows' blocks as rows of the arrays -/

theorem zero_offsets : (![0, 0] : Fin 2 → Nat) = fun _ => 0 :=
  funext fun a => by match a with | ⟨0, _⟩ => rfl | ⟨1, _⟩ => rfl

/-- The printed index maps of the windows that move with the grid, decided over its 25 points: point `t` reads and
    writes block `(t, 0)`. -/
theorem idx0_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The weights' and biases' windows stay at block `(0, 0)`: the whole array at every point. -/
theorem idx0_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Window 0's block at point `t` is rows `4000 t … 4000 t + 3999` of `x`. -/
theorem xblk_apply (c : Dev nD) (t : Fin cfg0.N) (r : Fin 4000) (k : Fin 128) (R : Fin 100000)
    (hR : R.val = 4000 * t.val + r.val) :
    (iblk0 (F := Ideal) V c 0 t : S4000x128.Idx → EReal) (ix2 r k) = V c main_arg0 (ix2 R k) := by
  have e0 : win0_0.index t (0 : Fin 2) = t.val := (idx0_rows t).1
  have e1 : win0_0.index t (1 : Fin 2) = 0 := (idx0_rows t).2.1
  show V c main_arg0 (((cfg0.win 0).blk t).view.emb (ix2 r k)) = V c main_arg0 (ix2 R k)
  refine congrArg (V c main_arg0) (funext fun a => Fin.ext ?_)
  match a with
  | ⟨0, _⟩ => show win0_0.index t (0 : Fin 2) * 4000 + 1 * r.val = R.val; rw [e0, hR]; omega
  | ⟨1, _⟩ => show win0_0.index t (1 : Fin 2) * 128 + 1 * k.val = k.val; rw [e1]; omega

/-- Window 1's block at point `t` is the same rows of `agg`. -/
theorem aggblk_apply (c : Dev nD) (t : Fin cfg0.N) (r : Fin 4000) (k : Fin 128) (R : Fin 100000)
    (hR : R.val = 4000 * t.val + r.val) :
    (iblk0 (F := Ideal) V c 1 t : S4000x128.Idx → EReal) (ix2 r k) = V c main_v13 (ix2 R k) := by
  have e0 : win0_1.index t (0 : Fin 2) = t.val := (idx0_rows t).2.2.1
  have e1 : win0_1.index t (1 : Fin 2) = 0 := (idx0_rows t).2.2.2.1
  show V c main_v13 (((cfg0.win 1).blk t).view.emb (ix2 r k)) = V c main_v13 (ix2 R k)
  refine congrArg (V c main_v13) (funext fun a => Fin.ext ?_)
  match a with
  | ⟨0, _⟩ => show win0_1.index t (0 : Fin 2) * 4000 + 1 * r.val = R.val; rw [e0, hR]; omega
  | ⟨1, _⟩ => show win0_1.index t (1 : Fin 2) * 128 + 1 * k.val = k.val; rw [e1]; omega

/-- Window 7's block at point `t` is the same rows of the column `dinv`. -/
theorem dblk_apply (c : Dev nD) (t : Fin cfg0.N) (r : Fin 4000) (R : Fin 100000) (hR : R.val = 4000 * t.val + r.val) :
    (iblk0 (F := Ideal) V c 7 t : S4000x1.Idx → EReal) (ix2 r (0 : Fin 1)) = V c main_v21 (ix2 R (0 : Fin 1)) := by
  have e0 : win0_7.index t (0 : Fin 2) = t.val := (idx0_rows t).2.2.2.2.1
  have e1 : win0_7.index t (1 : Fin 2) = 0 := (idx0_rows t).2.2.2.2.2.1
  show V c main_v21 (((cfg0.win 7).blk t).view.emb (ix2 r (0 : Fin 1))) = V c main_v21 (ix2 R (0 : Fin 1))
  refine congrArg (V c main_v21) (funext fun a => Fin.ext ?_)
  match a with
  | ⟨0, _⟩ => show win0_7.index t (0 : Fin 2) * 4000 + 1 * r.val = R.val; rw [e0, hR]; omega
  | ⟨1, _⟩ => show win0_7.index t (1 : Fin 2) * 1 + 1 * 0 = 0; rw [e1]

/-- Window 2's block is all of `w1` at every point. -/
theorem w1blk_eq (c : Dev nD) (t : Fin cfg0.N) : (iblk0 (F := Ideal) V c 2 t : S128x128.Idx → EReal) = V c main_arg3 := by
  have e0 : win0_2.index t (0 : Fin 2) = 0 := (idx0_whole t).1
  have e1 : win0_2.index t (1 : Fin 2) = 0 := (idx0_whole t).2.1
  funext y
  show V c main_arg3 (((cfg0.win 2).blk t).view.emb y) = V c main_arg3 y
  refine congrArg (V c main_arg3) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- Window 3's block is the whole bias row `b1`. -/
theorem b1blk_eq (c : Dev nD) (t : Fin cfg0.N) : (iblk0 (F := Ideal) V c 3 t : S1x128.Idx → EReal) = V c main_v22 := by
  have e0 : win0_3.index t (0 : Fin 2) = 0 := (idx0_whole t).2.2.1
  have e1 : win0_3.index t (1 : Fin 2) = 0 := (idx0_whole t).2.2.2.1
  funext y
  show V c main_v22 (((cfg0.win 3).blk t).view.emb y) = V c main_v22 y
  refine congrArg (V c main_v22) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- Window 4's block is all of `w2`. -/
theorem w2blk_eq (c : Dev nD) (t : Fin cfg0.N) : (iblk0 (F := Ideal) V c 4 t : S128x128.Idx → EReal) = V c main_arg5 := by
  have e0 : win0_4.index t (0 : Fin 2) = 0 := (idx0_whole t).2.2.2.2.1
  have e1 : win0_4.index t (1 : Fin 2) = 0 := (idx0_whole t).2.2.2.2.2.1
  funext y
  show V c main_arg5 (((cfg0.win 4).blk t).view.emb y) = V c main_arg5 y
  refine congrArg (V c main_arg5) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- Window 5's block is the whole bias row `b2`. -/
theorem b2blk_eq (c : Dev nD) (t : Fin cfg0.N) : (iblk0 (F := Ideal) V c 5 t : S1x128.Idx → EReal) = V c main_v23 := by
  have e0 : win0_5.index t (0 : Fin 2) = 0 := (idx0_whole t).2.2.2.2.2.2.1
  have e1 : win0_5.index t (1 : Fin 2) = 0 := (idx0_whole t).2.2.2.2.2.2.2.1
  funext y
  show V c main_v23 (((cfg0.win 5).blk t).view.emb y) = V c main_v23 y
  refine congrArg (V c main_v23) (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- Window 6's block is all of `wg`. -/
theorem wgblk_eq (c : Dev nD) (t : Fin cfg0.N) : (iblk0 (F := Ideal) V c 6 t : S128x128.Idx → EReal) = V c main_arg7 := by
  have e0 : win0_6.index t (0 : Fin 2) = 0 := (idx0_whole t).2.2.2.2.2.2.2.2.1
  have e1 : win0_6.index t (1 : Fin 2) = 0 := (idx0_whole t).2.2.2.2.2.2.2.2.2
  funext y
  show V c main_arg7 (((cfg0.win 6).blk t).view.emb y) = V c main_arg7 y
  refine congrArg (V c main_arg7) (funext fun a => Fin.ext ?_)
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

/-! ## From blocks to the arrays -/

/-- The perceptron of the whole arrays as the region finds them. -/
abbrev hwArr (c : Dev nD) : S100000x128.Idx → EReal :=
  Cert.Gnn.hwOf (V c main_arg0) (V c main_v13) (V c main_arg3) (fun k => V c main_v22 (ix2 (0 : Fin 1) k))
          (V c main_arg5) (fun k => V c main_v23 (ix2 (0 : Fin 1) k)) (V c main_arg7)

/-- Row `r` of the perceptron of a point's blocks is row `R` of the perceptron of the arrays, when the blocks' row
    `r` is the arrays' row `R` and the weight and bias blocks are the whole weights and biases. -/
theorem hw_block_row (X A : S100000x128.Idx → EReal) (xb ab : S4000x128.Idx → EReal)
    (W1 W2 Wg w1 w2 wg : S128x128.Idx → EReal) (B1 B2 b1 b2 : S1x128.Idx → EReal)
    (hw1 : w1 = W1) (hb1 : b1 = B1) (hw2 : w2 = W2) (hb2 : b2 = B2) (hwg : wg = Wg)
    (r : Fin 4000) (R : Fin 100000)
    (hx : ∀ k : Fin 128, xb (ix2 r k) = X (ix2 R k)) (ha : ∀ k : Fin 128, ab (ix2 r k) = A (ix2 R k)) (n : Fin 128) :
    Cert.Gnn.hwOf (B := 4000) xb ab w1 (fun k => b1 (ix2 (0 : Fin 1) k)) w2 (fun k => b2 (ix2 (0 : Fin 1) k)) wg (ix2 r n)
      = Cert.Gnn.hwOf (B := 100000) X A W1 (fun k => B1 (ix2 (0 : Fin 1) k)) W2 (fun k => B2 (ix2 (0 : Fin 1) k)) Wg (ix2 R n) := by
  subst hw1 hb1 hw2 hb2 hwg
  exact hwOf_row_congr xb ab X A w1 (fun k => b1 (ix2 (0 : Fin 1) k)) w2 (fun k => b2 (ix2 (0 : Fin 1) k)) wg r R hx ha n

/-- The same at a point's blocks: row `r` of point `t` is row `4000 t + r`. -/
theorem hw_at_point (c : Dev nD) (t : Fin cfg0.N) (r : Fin 4000) (n : Fin 128) (R : Fin 100000)
    (hR : R.val = 4000 * t.val + r.val) :
    Cert.Gnn.hwOf (B := 4000) (iblk0 (F := Ideal) V c 0 t) (iblk0 (F := Ideal) V c 1 t) (iblk0 (F := Ideal) V c 2 t)
        (fun k => (iblk0 (F := Ideal) V c 3 t : S1x128.Idx → EReal) (ix2 (0 : Fin 1) k)) (iblk0 (F := Ideal) V c 4 t)
        (fun k => (iblk0 (F := Ideal) V c 5 t : S1x128.Idx → EReal) (ix2 (0 : Fin 1) k)) (iblk0 (F := Ideal) V c 6 t) (ix2 r n)
      = hwArr V c (ix2 R n) :=
  hw_block_row (V c main_arg0) (V c main_v13) (iblk0 (F := Ideal) V c 0 t) (iblk0 (F := Ideal) V c 1 t)
    (V c main_arg3) (V c main_arg5) (V c main_arg7) (iblk0 (F := Ideal) V c 2 t) (iblk0 (F := Ideal) V c 4 t) (iblk0 (F := Ideal) V c 6 t)
    (V c main_v22) (V c main_v23) (iblk0 (F := Ideal) V c 3 t) (iblk0 (F := Ideal) V c 5 t)
    (w1blk_eq V c t) (b1blk_eq V c t) (w2blk_eq V c t) (b2blk_eq V c t) (wgblk_eq V c t) r R
    (fun k => xblk_apply V c t r k R hR) (fun k => aggblk_apply V c t r k R hR) n

/-- Where point `t`'s output block sits in the array: its row `r` is row `4000 t + r`. -/
theorem emb8 (t : Fin cfg0.N) (r : Fin 4000) (n : Fin 128) (R : Fin 100000) (hR : R.val = 4000 * t.val + r.val) :
    ((cfg0.win 8).blk t).view.emb (ix2 r n) = ix2 R n := by
  have e0 : win0_8.index t (0 : Fin 2) = t.val := (idx0_rows t).2.2.2.2.2.2.1
  have e1 : win0_8.index t (1 : Fin 2) = 0 := (idx0_rows t).2.2.2.2.2.2.2.1
  funext a; apply Fin.ext
  match a with
  | ⟨0, _⟩ => show win0_8.index t (0 : Fin 2) * 4000 + 1 * r.val = R.val; rw [e0, hR]; omega
  | ⟨1, _⟩ => show win0_8.index t (1 : Fin 2) * 128 + 1 * n.val = n.val; rw [e1]; omega

theorem emb9 (t : Fin cfg0.N) (r : Fin 4000) (n : Fin 128) (R : Fin 100000) (hR : R.val = 4000 * t.val + r.val) :
    ((cfg0.win 9).blk t).view.emb (ix2 r n) = ix2 R n := by
  have e0 : win0_9.index t (0 : Fin 2) = t.val := (idx0_rows t).2.2.2.2.2.2.2.2.1
  have e1 : win0_9.index t (1 : Fin 2) = 0 := (idx0_rows t).2.2.2.2.2.2.2.2.2
  funext a; apply Fin.ext
  match a with
  | ⟨0, _⟩ => show win0_9.index t (0 : Fin 2) * 4000 + 1 * r.val = R.val; rw [e0, hR]; omega
  | ⟨1, _⟩ => show win0_9.index t (1 : Fin 2) * 128 + 1 * n.val = n.val; rw [e1]; omega

/-- A point's rows stay inside the array. -/
theorem row_lt (t : Fin cfg0.N) (r : Fin 4000) : 4000 * t.val + r.val < 100000 := by
  have hN : cfg0.N = 25 := N_0
  have ht : t.val < 25 := lt_of_lt_of_eq t.isLt hN
  have hr : r.val < 4000 := r.isLt
  omega

/-- WHAT POINT `t` WRITES BACK to the first output is block `t` of the perceptron of the arrays. -/
theorem flushed8_eq (c : Dev nD) (t : Fin cfg0.N) :
    (dat0 (F := Ideal) V c).flushed 8 t = ((cfg0.win 8).blk t).view.read (Elt Ideal) (hwArr V c) := by
  show (cfg0.win 8).cut (grid0.coords t) ((dat0 (F := Ideal) V c).after 8 t) = _
  rw [after0_8]
  unfold out0_8
  rw [View.canon_unit_zero zero_offsets]
  simp only [View.ld_unit_zero (S := S4000x128) zero_offsets, View.ld_unit_zero (S := S128x128) zero_offsets,
    View.ld_unit_zero (S := S1x128) zero_offsets]
  rw [pay1_eq]
  refine funext fun (j : S4000x128.Idx) => ?_
  obtain ⟨r, n, rfl⟩ : ∃ (r : Fin 4000) (n : Fin 128), j = ix2 r n := ⟨j 0, j 1, eq_ix2 j⟩
  show Cert.Gnn.hwOf (B := 4000) (iblk0 (F := Ideal) V c 0 t) (iblk0 (F := Ideal) V c 1 t) (iblk0 (F := Ideal) V c 2 t)
        (fun k => (iblk0 (F := Ideal) V c 3 t : S1x128.Idx → EReal) (ix2 (0 : Fin 1) k)) (iblk0 (F := Ideal) V c 4 t)
        (fun k => (iblk0 (F := Ideal) V c 5 t : S1x128.Idx → EReal) (ix2 (0 : Fin 1) k)) (iblk0 (F := Ideal) V c 6 t) (ix2 r n)
      = hwArr V c (((cfg0.win 8).blk t).view.emb (ix2 r n))
  rw [emb8 t r n ⟨4000 * t.val + r.val, row_lt t r⟩ rfl]
  exact hw_at_point V c t r n ⟨4000 * t.val + r.val, row_lt t r⟩ rfl

/-- An index of the array is in point `t`'s block iff each coordinate is in the block's range on its axis. -/
theorem mem_blk8 (t : Fin cfg0.N) (i : S100000x128.Idx) :
    i ∈ ((cfg0.win 8).blk t).view.set ↔ ∀ a : Fin 2, win0_8.index t a * S4000x128.size a ≤ (i a).val
      ∧ (i a).val < win0_8.index t a * S4000x128.size a + S4000x128.size a := by
  show i ∈ ((View.whole main_v24_0).slice (win0_8.rect t)).set ↔ _
  rw [View.set_slice_whole, Rect.mem_set_unit]
  exact Iff.rfl

/-- Every row is some point's: row `R` is in the block of point `R / 4000`. -/
theorem cover8 (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  have e0 : win0_8.index t (0 : Fin 2) = t.val := (idx0_rows t).2.2.2.2.2.2.1
  have e1 : win0_8.index t (1 : Fin 2) = 0 := (idx0_rows t).2.2.2.2.2.2.2.1
  refine ⟨t, flush0_8 t, ?_⟩
  rw [mem_blk8]
  intro a
  match a with
  | ⟨0, _⟩ => show win0_8.index t (0 : Fin 2) * 4000 ≤ (i 0).val ∧ (i 0).val < win0_8.index t (0 : Fin 2) * 4000 + 4000; rw [e0, ht]; omega
  | ⟨1, _⟩ => show win0_8.index t (1 : Fin 2) * 128 ≤ (i 1).val ∧ (i 1).val < win0_8.index t (1 : Fin 2) * 128 + 128; rw [e1]; omega

/-! ## The second output: the perceptron times `dinv` of the row -/

/-- The second output's array function: row `R` of the perceptron scaled by entry `R` of the column `dinv`. -/
abbrev hwsArr (c : Dev nD) : S100000x128.Idx → EReal :=
  fun j : S100000x128.Idx => Cert.Gnn.hwOf (V c main_arg0) (V c main_v13) (V c main_arg3) (fun k => V c main_v22 (ix2 (0 : Fin 1) k))
          (V c main_arg5) (fun k => V c main_v23 (ix2 (0 : Fin 1) k)) (V c main_arg7) j * V c main_v21 (ix2 (j 0 : Fin 100000) (0 : Fin 1))

/-- WHAT POINT `t` WRITES BACK to the second output is block `t` of that function. -/
theorem flushed9_eq (c : Dev nD) (t : Fin cfg0.N) :
    (dat0 (F := Ideal) V c).flushed 9 t = ((cfg0.win 9).blk t).view.read (Elt Ideal) (hwsArr V c) := by
  show (cfg0.win 9).cut (grid0.coords t) ((dat0 (F := Ideal) V c).after 9 t) = _
  rw [after0_9]
  unfold out0_9
  rw [View.canon_unit_zero zero_offsets]
  simp only [View.ld_unit_zero (S := S4000x128) zero_offsets, View.ld_unit_zero (S := S128x128) zero_offsets,
    View.ld_unit_zero (S := S1x128) zero_offsets, View.ld_unit_zero (S := S4000x1) zero_offsets]
  refine funext fun (j : S4000x128.Idx) => ?_
  obtain ⟨r, n, rfl⟩ : ∃ (r : Fin 4000) (n : Fin 128), j = ix2 r n := ⟨j 0, j 1, eq_ix2 j⟩
  show k0_pay2 (F := Ideal) (iblk0 (F := Ideal) V c 1 t) (iblk0 (F := Ideal) V c 0 t) (iblk0 (F := Ideal) V c 2 t)
        (iblk0 (F := Ideal) V c 3 t) (iblk0 (F := Ideal) V c 4 t) (iblk0 (F := Ideal) V c 5 t) (iblk0 (F := Ideal) V c 6 t)
        (iblk0 (F := Ideal) V c 7 t) (ix2 r n)
      = hwsArr V c (((cfg0.win 9).blk t).view.emb (ix2 r n))
  rw [emb9 t r n ⟨4000 * t.val + r.val, row_lt t r⟩ rfl]
  refine (pay2_apply (iblk0 (F := Ideal) V c 1 t) (iblk0 (F := Ideal) V c 0 t) (iblk0 (F := Ideal) V c 2 t)
    (iblk0 (F := Ideal) V c 3 t) (iblk0 (F := Ideal) V c 4 t) (iblk0 (F := Ideal) V c 5 t) (iblk0 (F := Ideal) V c 6 t)
    (iblk0 (F := Ideal) V c 7 t) r n).trans ?_
  show _ = hwArr V c (ix2 (⟨4000 * t.val + r.val, row_lt t r⟩ : Fin 100000) n)
      * V c main_v21 (ix2 (⟨4000 * t.val + r.val, row_lt t r⟩ : Fin 100000) (0 : Fin 1))
  rw [hw_at_point V c t r n ⟨4000 * t.val + r.val, row_lt t r⟩ rfl,
    dblk_apply V c t r ⟨4000 * t.val + r.val, row_lt t r⟩ rfl]

theorem mem_blk9 (t : Fin cfg0.N) (i : S100000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v24_1).slice (win0_9.rect t)).set ↔ _
  rw [View.set_slice_whole, Rect.mem_set_unit]
  exact Iff.rfl

theorem cover9 (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  have e0 : win0_9.index t (0 : Fin 2) = t.val := (idx0_rows t).2.2.2.2.2.2.2.2.1
  have e1 : win0_9.index t (1 : Fin 2) = 0 := (idx0_rows t).2.2.2.2.2.2.2.2.2
  refine ⟨t, flush0_9 t, ?_⟩
  rw [mem_blk9]
  intro a
  match a with
  | ⟨0, _⟩ => show win0_9.index t (0 : Fin 2) * 4000 ≤ (i 0).val ∧ (i 0).val < win0_9.index t (0 : Fin 2) * 4000 + 4000; rw [e0, ht]; omega
  | ⟨1, _⟩ => show win0_9.index t (1 : Fin 2) * 128 ≤ (i 1).val ∧ (i 1).val < win0_9.index t (1 : Fin 2) * 128 + 128; rw [e1]; omega

end Region0

open Region0

/-! ## The two arrays the region leaves -/

/-- THE FIRST OUTPUT after the region: the perceptron of `agg + x`, every row. -/
theorem hw_final (c : Dev nD) :
    (dat0 (F := Ideal) V c).arrAt 8 cfg0.N
      = Cert.Gnn.hwOf (V c main_arg0) (V c main_v13) (V c main_arg3) (fun k => V c main_v22 (ix2 (0 : Fin 1) k))
          (V c main_arg5) (fun k => V c main_v23 (ix2 (0 : Fin 1) k)) (V c main_arg7) :=
  (dat0 (F := Ideal) V c).arrAt_eq_of_cover 8 (hwArr V c) (fun t _ => flushed8_eq V c t) cover8

/-- THE SECOND OUTPUT after the region: the first, each row scaled by `dinv` of the row. -/
theorem hws_final (c : Dev nD) :
    (dat0 (F := Ideal) V c).arrAt 9 cfg0.N
      = fun j : S100000x128.Idx => Cert.Gnn.hwOf (V c main_arg0) (V c main_v13) (V c main_arg3) (fun k => V c main_v22 (ix2 (0 : Fin 1) k))
          (V c main_arg5) (fun k => V c main_v23 (ix2 (0 : Fin 1) k)) (V c main_arg7) j * V c main_v21 (ix2 (j 0 : Fin 100000) (0 : Fin 1)) :=
  (dat0 (F := Ideal) V c).arrAt_eq_of_cover 9 (hwsArr V c) (fun t _ => flushed9_eq V c t) cover9

end Cert.KernelIdeal.Hand
end
-- ==== Proof.Region1Value.lean ====
/-
  Region 1: the pooled sums of the graph convolution's output, core by core.

  The region runs over a grid of 2 cores by 25 steps; point `t` (core `t / 25`, step `t % 25`) reads the 2000 rows
  `r + 2000 t` of the message, of the weighted features, of the reciprocal-root degrees and of the graph words, and the
  bias row. Its output block (one core's 2048 by 128 sums) stays resident over the core's 25 steps and is written back
  after the last of them.

  At a point the body forms, for each graph `g` and column `k`,

      Σ_r  [graph word of row r = word of g] · relu (d_r · msg (r, k) + d_r² · hw (r, k) + b_k) ,

  a product of a one-hot matrix (2000 by 2048, contracted over its rows) with the rectified rows, and adds it to the
  block: to the zero block at a core's first step (the block is first reset and the reset is what is read back), to
  what the step before left otherwise. So after point `t` the block holds the products of the blocks
  `25 (t / 25) … t` summed in that order (`outsAt_eq`, by induction on the point); after a core's last step that is
  `Cert.Gnn.poolPart` at the core, whose blocks are exactly the two the write-backs cover.

  Only `0 + x = x` and the re-indexing of finite sums are used of the arithmetic, so everything holds at the
  infinities too.
-/
import proofs.«401344_j78795470012789_2_alg».proof.Proof.Gen.KernelIdeal.Frame
import proofs.«401344_j78795470012789_2_alg».proof.Proof.Spec
import proofs.«401344_j78795470012789_2_alg».proof.Proof.LibDenseLayer
import Idealize.ShloMosaic.Lib.ValueIdx
import Idealize.ShloMosaic.Lib.ValueLayout
import Idealize.ShloMosaic.Lib.Pipeline.Value
import Idealize.ShloMosaic.Lib.Tactic
import Idealize.ShloMosaic.PureOps.Ideal.Laws

noncomputable section
namespace Cert.KernelIdeal.Hand
open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

namespace Pool

theorem hz3 : (![0, 0, 0] : Fin 3 → Nat) = fun _ => 0 := funext fun a => by fin_cases a <;> rfl
theorem hz2 : (![0, 0] : Fin 2 → Nat) = fun _ => 0 := funext fun a => by fin_cases a <;> rfl

/-! ## What one grid point leaves in the resident output block -/

section Pieces
variable {F : FTy → Type} [FloatOps F]

/-- A point that is not the first of its core: the block `xo` left by the point before, plus the one-hot product of
    this point's rows. -/
theorem piece_B (c : Dev nD) (i : grid1.Coords) (a2 : Memref sig .tc .vmem S2000x128 .f32) (h2 : a2.IsWhole)
    (a3 : Memref sig .tc .vmem S2000x128 .f32) (h3 : a3.IsWhole) (a4 : Memref sig .tc .vmem S2000x1 .f32) (h4 : a4.IsWhole)
    (a5 : Memref sig .tc .vmem S1x128 .f32) (h5 : a5.IsWhole) (a6 : Memref sig .tc .vmem S2000x1 .i32) (h6 : a6.IsWhole)
    (a7 : Memref sig .tc .vmem S1x2048x128 .f32) (h7 : a7.IsWhole) (hc : ¬cond1_0 i)
    (x0 x1 : Vec F S2000x128 .f32) (x2 : Vec F S2000x1 .f32) (x3 : Vec F S1x128 .f32) (x4 : Vec F S2000x1 .i32)
    (xo : Vec F S1x2048x128 .f32) :
    out1_B_5 c i a2 h2 a3 h3 a4 h4 a5 h5 a6 h6 a7 h7 hc x0 x1 x2 x3 x4 xo = k1_pay1 (k1_pay3 x2 x0 x1 x3 x4 xo) := by
  unfold out1_B_5
  rw [View.read_writes_eq_canon _ _ _ (cover1_B_5 c i a2 h2 a3 h3 a4 h4 a5 h5 a6 h6 a7 h7 hc x0 x1 x2 x3 x4 xo)]
  unfold kernelRun1_B
  dsimp only
  sl_unfold_words
  rw [View.canon_unit_zero hz3]
  simp only [View.readAt_eq_ld, h2.read_unread, h3.read_unread, h4.read_unread, h5.read_unread, h6.read_unread, h7.read_unread,
    View.ld_unit_zero (S := S2000x128) hz2, View.ld_unit_zero (S := S2000x1) hz2, View.ld_unit_zero (S := S1x128) hz2,
    View.ld_unit_zero (S := S1x2048x128) hz3]

/-- The first point of a core: the block is first set to the zero block, which is then read back as the block
    "left by the point before". -/
theorem piece_A (c : Dev nD) (i : grid1.Coords) (a2 : Memref sig .tc .vmem S2000x128 .f32) (h2 : a2.IsWhole)
    (a3 : Memref sig .tc .vmem S2000x128 .f32) (h3 : a3.IsWhole) (a4 : Memref sig .tc .vmem S2000x1 .f32) (h4 : a4.IsWhole)
    (a5 : Memref sig .tc .vmem S1x128 .f32) (h5 : a5.IsWhole) (a6 : Memref sig .tc .vmem S2000x1 .i32) (h6 : a6.IsWhole)
    (a7 : Memref sig .tc .vmem S1x2048x128 .f32) (h7 : a7.IsWhole) (hc : cond1_0 i)
    (x0 x1 : Vec F S2000x128 .f32) (x2 : Vec F S2000x1 .f32) (x3 : Vec F S1x128 .f32) (x4 : Vec F S2000x1 .i32) :
    out1_A_5 c i a2 h2 a3 h3 a4 h4 a5 h5 a6 h6 a7 h7 hc x0 x1 x2 x3 x4 = k1_pay1 (k1_pay3 x2 x0 x1 x3 x4 (k1_pay2 (F := F))) := by
  unfold out1_A_5
  rw [View.read_writes_eq_canon _ _ _ (cover1_A_5 c i a2 h2 a3 h3 a4 h4 a5 h5 a6 h6 a7 h7 hc x0 x1 x2 x3 x4)]
  unfold kernelRun1_A
  dsimp only
  sl_unfold_words
  rw [View.canon_cons_unit_zero (S := S1x2048x128) hz3, View.readCov_unit_zero (S := S1x2048x128) _ hz3]
  simp only [View.readAt_eq_ld, h2.read_unread, h3.read_unread, h4.read_unread, h5.read_unread, h6.read_unread,
    View.ld_unit_zero (S := S2000x128) hz2, View.ld_unit_zero (S := S2000x1) hz2, View.ld_unit_zero (S := S1x128) hz2]

end Pieces

/-! ## The arithmetic of one point, entry by entry -/

/-- A column `[a, 1]` broadcast to `[a, b]` reads, at `(p, q)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one-hot operand of the product: row `r`, column `g` compares node `r`'s graph word with the word of `g`. -/
def ohVec (x4 : Vec Ideal S2000x1 .i32) : FVec Ideal S2000x2048 .bf16 :=
  truncf .bf16 (sitofp .f32 (extui 32 (cmpi .eq
    (broadcastTo S2000x2048 (shapeCast S2000x1 x4 shapeCasts_S2000x1_S2000x1) broadcasts_S2000x1_S2000x2048)
    (broadcastTo S2000x2048 (iota .tc S1x2048 32 [1] iota_S1x2048_d1_w32) broadcasts_S1x2048_S2000x2048)) natLt_1_32)) bitsLt_bf16_f32

/-- The other operand: the rectified convolution output of the block's rows. -/
def hVec (x2 : Vec Ideal S2000x1 .f32) (x0 x1 : Vec Ideal S2000x128 .f32) (x3 : Vec Ideal S1x128 .f32) : FVec Ideal S2000x128 .bf16 :=
  truncf .bf16 (maximumf
    (addf (addf (mulf (broadcastTo S2000x128 (shapeCast S2000x1 x2 shapeCasts_S2000x1_S2000x1) broadcasts_S2000x1_S2000x128)
                      (shapeCast S2000x128 x0 shapeCasts_S2000x128_S2000x128))
                (mulf (broadcastTo S2000x128 (mulf (shapeCast S2000x1 x2 shapeCasts_S2000x1_S2000x1) (shapeCast S2000x1 x2 shapeCasts_S2000x1_S2000x1)) broadcasts_S2000x1_S2000x128)
                      (shapeCast S2000x128 x1 shapeCasts_S2000x128_S2000x128)))
          (broadcastTo S2000x128 (shapeCast S1x128 x3 shapeCasts_S1x128_S1x128) broadcasts_S1x128_S2000x128))
    (broadcast S2000x128 (Scalar.ofBits (F := Ideal) .f32 0x00000000#32))) bitsLt_bf16_f32

/-- The point's payload is the previous block plus the product of the two operands, contracted over the rows. -/
theorem pay3_eq (x2 : Vec Ideal S2000x1 .f32) (x0 x1 : Vec Ideal S2000x128 .f32) (x3 : Vec Ideal S1x128 .f32)
    (x4 : Vec Ideal S2000x1 .i32) (xo : Vec Ideal S1x2048x128 .f32) :
    k1_pay3 (F := Ideal) x2 x0 x1 x3 x4 xo
      = addf (shapeCast S2048x128 xo shapeCasts_S1x2048x128_S2048x128)
          (matmul dot_S2000x2048_S2000x128_S2048x128_0_0_1_1_n_n none (ohVec x4) (hVec x2 x0 x1 x3)
            (constant S2048x128 .f32 0x00000000#32)) := rfl

/-- Two words compared for equality, the one-bit answer widened and read signed: 1 if equal, else 0. -/
theorem cmpi_eq_toInt (a b : BitVec 32) : ((IntOp.cmpi .eq a b).setWidth 32).toInt = if a = b then 1 else 0 := by
  unfold IntOp.cmpi
  show ((BitVec.ofBool (a == b)).setWidth 32).toInt = _
  by_cases h : a = b
  · rw [if_pos h, h, beq_self_eq_true]; decide
  · rw [if_neg h, beq_eq_false_iff_ne.mpr h]; decide

theorem ohVec_apply (x4 : Vec Ideal S2000x1 .i32) (r : Fin 2000) (g : Fin 2048) :
    ohVec x4 (ix2 r g) = if x4 (ix2 r (0 : Fin 1)) = BitVec.ofNat 32 g.val then (1 : EReal) else 0 := by
  unfold ohVec
  rw [truncf_apply, sitofp_apply, extui_apply]
  show ((((IntOp.cmpi .eq
      (broadcastTo S2000x2048 (shapeCast S2000x1 x4 shapeCasts_S2000x1_S2000x1) broadcasts_S2000x1_S2000x2048 (ix2 r g))
      (broadcastTo S2000x2048 (iota .tc S1x2048 32 [1] iota_S1x2048_d1_w32) broadcasts_S1x2048_S2000x2048 (ix2 r g))).setWidth 32).toInt : ℝ) : EReal) = _
  rw [broadcastTo_a1_ab_apply, broadcastTo_1b_ab_apply, shapeCast_self, iota_single_apply]
  show ((((IntOp.cmpi .eq (x4 (ix2 r (0 : Fin 1))) (BitVec.ofNat 32 g.val)).setWidth 32).toInt : ℝ) : EReal) = _
  rw [cmpi_eq_toInt]
  by_cases h : x4 (ix2 r (0 : Fin 1)) = BitVec.ofNat 32 g.val
  · rw [if_pos h, if_pos h]; norm_num
  · rw [if_neg h, if_neg h]; norm_num

theorem hVec_apply (x2 : Vec Ideal S2000x1 .f32) (x0 x1 : Vec Ideal S2000x128 .f32) (x3 : Vec Ideal S1x128 .f32)
    (r : Fin 2000) (k : Fin 128) :
    hVec x2 x0 x1 x3 (ix2 r k)
      = max ((x2 (ix2 r (0 : Fin 1)) * x0 (ix2 r k) + (x2 (ix2 r (0 : Fin 1)) * x2 (ix2 r (0 : Fin 1))) * x1 (ix2 r k))
          + x3 (ix2 (0 : Fin 1) k)) 0 := by
  unfold hVec
  rw [truncf_apply, maximumf_apply, addf_apply, addf_apply, mulf_apply, mulf_apply, broadcast_apply,
    broadcastTo_a1_ab_apply, broadcastTo_a1_ab_apply, mulf_apply, broadcastTo_1b_ab_apply,
    shapeCast_self, shapeCast_self, shapeCast_self, shapeCast_self, Ideal.ofBits_def, Ideal.ofBits_zero_f32]

/-! The product contracts axis 0 of both operands: at the result index `(g, k)` and contraction position `q` the left
    operand is read at `(q, g)` and the right one at `(q, k)`. -/
theorem lhs_pool_0 (j : S2048x128.Idx) (q : dot_S2000x2048_S2000x128_S2048x128_0_0_1_1_n_n.contr.Idx) :
    (dot_S2000x2048_S2000x128_S2048x128_0_0_1_1_n_n.lhsIdx j q 0).val = (q ⟨0, by decide⟩).val :=
  dot_S2000x2048_S2000x128_S2048x128_0_0_1_1_n_n.lhsIdx_val_of_single rfl j q
theorem lhs_pool_1 (j : S2048x128.Idx) (q : dot_S2000x2048_S2000x128_S2048x128_0_0_1_1_n_n.contr.Idx) :
    (dot_S2000x2048_S2000x128_S2048x128_0_0_1_1_n_n.lhsIdx j q 1).val = (j 0).val := by
  unfold DotDims.lhsIdx
  rw [dif_neg (show ¬(1 : Fin S2000x2048.rank) ∈ dot_S2000x2048_S2000x128_S2048x128_0_0_1_1_n_n.lhsBatch by decide), dif_pos (show (1 : Fin S2000x2048.rank) ∈ dot_S2000x2048_S2000x128_S2048x128_0_0_1_1_n_n.lhsNonContracting by decide)]
  rfl
theorem rhs_pool_0 (j : S2048x128.Idx) (q : dot_S2000x2048_S2000x128_S2048x128_0_0_1_1_n_n.contr.Idx) :
    (dot_S2000x2048_S2000x128_S2048x128_0_0_1_1_n_n.rhsIdx j q 0).val = (q ⟨0, by decide⟩).val :=
  dot_S2000x2048_S2000x128_S2048x128_0_0_1_1_n_n.rhsIdx_val_of_single rfl j q
theorem rhs_pool_1 (j : S2048x128.Idx) (q : dot_S2000x2048_S2000x128_S2048x128_0_0_1_1_n_n.contr.Idx) :
    (dot_S2000x2048_S2000x128_S2048x128_0_0_1_1_n_n.rhsIdx j q 1).val = (j 1).val := by
  unfold DotDims.rhsIdx
  rw [dif_neg (show ¬(1 : Fin S2000x128.rank) ∈ dot_S2000x2048_S2000x128_S2048x128_0_0_1_1_n_n.rhsBatch by decide), dif_pos (show (1 : Fin S2000x128.rank) ∈ dot_S2000x2048_S2000x128_S2048x128_0_0_1_1_n_n.rhsNonContracting by decide)]
  rfl

/-- THE POINT'S PAYLOAD AT `(g, k)`: the previous block's entry plus the sum over the block's 2000 rows. -/
theorem pay3_apply (x2 : Vec Ideal S2000x1 .f32) (x0 x1 : Vec Ideal S2000x128 .f32) (x3 : Vec Ideal S1x128 .f32)
    (x4 : Vec Ideal S2000x1 .i32) (xo : Vec Ideal S1x2048x128 .f32) (g : Fin 2048) (k : Fin 128) :
    k1_pay3 (F := Ideal) x2 x0 x1 x3 x4 xo (ix2 g k)
      = xo (ix3 (0 : Fin 1) g k) + ∑ r : Fin 2000, ohVec x4 (ix2 r g) * hVec x2 x0 x1 x3 (ix2 r k) := by
  rw [pay3_eq, addf_apply, shapeCast_1ab_ab_apply]
  refine congrArg (xo (ix3 (0 : Fin 1) g k) + ·) ?_
  show FloatOps.matmul dot_S2000x2048_S2000x128_S2048x128_0_0_1_1_n_n none (ohVec x4) (hVec x2 x0 x1 x3)
    (constant S2048x128 .f32 0x00000000#32) (ix2 g k) = _
  rw [Ideal.matmul_constant_zero_apply]
  exact Cert.Lib.contraction_sum dot_S2000x2048_S2000x128_S2048x128_0_0_1_1_n_n 2000 rfl rfl (ohVec x4) (hVec x2 x0 x1 x3) (ix2 g k)
    (fun r => ohVec x4 (ix2 r g)) (fun r => hVec x2 x0 x1 x3 (ix2 r k))
    (fun q => congrArg (ohVec x4) (funext fun ax => Fin.ext (by
      match ax with
      | ⟨0, _⟩ => exact lhs_pool_0 _ _
      | ⟨1, _⟩ => exact lhs_pool_1 _ _)))
    (fun q => congrArg (hVec x2 x0 x1 x3) (funext fun ax => Fin.ext (by
      match ax with
      | ⟨0, _⟩ => exact rhs_pool_0 _ _
      | ⟨1, _⟩ => exact rhs_pool_1 _ _)))

/-- The stored block is the payload with a unit axis in front. -/
theorem pay1_apply (v : FVec Ideal S2048x128 .f32) (g : Fin 2048) (k : Fin 128) :
    k1_pay1 (F := Ideal) v (ix3 (0 : Fin 1) g k) = v (ix2 g k) :=
  shapeCast_ab_1ab_apply v shapeCasts_S2048x128_S1x2048x128 (0 : Fin 1) g k

/-- The reset block is zero at every entry. -/
theorem pay2_apply (j : S1x2048x128.Idx) : k1_pay2 (F := Ideal) j = 0 := by
  obtain ⟨u, g, k, rfl⟩ : ∃ (u : Fin 1) (g : Fin 2048) (k : Fin 128), j = ix3 u g k := ⟨j 0, j 1, j 2, eq_ix3 j⟩
  unfold k1_pay2
  rw [shapeCast_ab_1ab_apply, broadcast_apply, Ideal.ofBits_def, Ideal.ofBits_zero_f32]

/-! ## The blocks the windows read -/

/-- Row `r` of the 2000-row block number `n` (taken modulo the number of rows, so that it is a row for every `n`). -/
def rowAt (n : ℕ) (r : Fin 2000) : Fin 100000 := ⟨(r.val + 2000 * n) % 100000, Nat.mod_lt _ (by decide)⟩

/-- The input blocks of point `t`, at their literal types. -/
abbrev blk0 (c : Dev nD) (t : Fin cfg1.N) : Vec Ideal S2000x128 .f32 := iblk1 V c 0 t
abbrev blk1 (c : Dev nD) (t : Fin cfg1.N) : Vec Ideal S2000x128 .f32 := iblk1 V c 1 t
abbrev blk2 (c : Dev nD) (t : Fin cfg1.N) : Vec Ideal S2000x1 .f32 := iblk1 V c 2 t
abbrev blk3 (c : Dev nD) (t : Fin cfg1.N) : Vec Ideal S1x128 .f32 := iblk1 V c 3 t
abbrev blk4 (c : Dev nD) (t : Fin cfg1.N) : Vec Ideal S2000x1 .i32 := iblk1 V c 4 t

/-- The printed index maps, decided over the grid: the row-blocked inputs are at block `t`, the bias row at block 0,
    the output at the block of the point's core. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 3) = t.val / 25 ∧ win1_5.index t (1 : Fin 3) = 0 ∧ win1_5.index t (2 : Fin 3) = 0 :=
  (by decide +kernel : ∀ t : Fin grid1.N, _)

theorem blk0_apply (c : Dev nD) (t : Fin cfg1.N) (r : Fin 2000) (k : Fin 128) :
    blk0 V c t (ix2 r k) = V c main_v34 (ix2 (rowAt t.val r) k) := by
  obtain ⟨e0, e1, -⟩ := idx_facts1 t
  have hN : t.val < 50 := lt_of_lt_of_eq t.isLt (show cfg1.N = 50 from N_1)
  have hr : r.val < 2000 := r.isLt
  show V c main_v34 (((cfg1.win 0).blk t).view.emb (ix2 r k)) = V c main_v34 _
  refine congrArg (V c main_v34) (funext fun a => Fin.ext ?_)
  match a with
  | ⟨0, _⟩ =>
    show win1_0.index t (0 : Fin 2) * 2000 + 1 * r.val = (r.val + 2000 * t.val) % 100000
    rw [e0, Nat.mod_eq_of_lt (by omega)]; omega
  | ⟨1, _⟩ => show win1_0.index t (1 : Fin 2) * 128 + 1 * k.val = k.val; rw [e1]; omega

theorem blk1_apply (c : Dev nD) (t : Fin cfg1.N) (r : Fin 2000) (k : Fin 128) :
    blk1 V c t (ix2 r k) = V c main_v24_0 (ix2 (rowAt t.val r) k) := by
  obtain ⟨-, -, e0, e1, -⟩ := idx_facts1 t
  have hN : t.val < 50 := lt_of_lt_of_eq t.isLt (show cfg1.N = 50 from N_1)
  have hr : r.val < 2000 := r.isLt
  show V c main_v24_0 (((cfg1.win 1).blk t).view.emb (ix2 r k)) = V c main_v24_0 _
  refine congrArg (V c main_v24_0) (funext fun a => Fin.ext ?_)
  match a with
  | ⟨0, _⟩ =>
    show win1_1.index t (0 : Fin 2) * 2000 + 1 * r.val = (r.val + 2000 * t.val) % 100000
    rw [e0, Nat.mod_eq_of_lt (by omega)]; omega
  | ⟨1, _⟩ => show win1_1.index t (1 : Fin 2) * 128 + 1 * k.val = k.val; rw [e1]; omega

theorem blk2_apply (c : Dev nD) (t : Fin cfg1.N) (r : Fin 2000) :
    blk2 V c t (ix2 r (0 : Fin 1)) = V c main_v21 (ix2 (rowAt t.val r) (0 : Fin 1)) := by
  obtain ⟨-, -, -, -, e0, e1, -⟩ := idx_facts1 t
  have hN : t.val < 50 := lt_of_lt_of_eq t.isLt (show cfg1.N = 50 from N_1)
  have hr : r.val < 2000 := r.isLt
  show V c main_v21 (((cfg1.win 2).blk t).view.emb (ix2 r (0 : Fin 1))) = V c main_v21 _
  refine congrArg (V c main_v21) (funext fun a => Fin.ext ?_)
  match a with
  | ⟨0, _⟩ =>
    show win1_2.index t (0 : Fin 2) * 2000 + 1 * r.val = (r.val + 2000 * t.val) % 100000
    rw [e0, Nat.mod_eq_of_lt (by omega)]; omega
  | ⟨1, _⟩ => show win1_2.index t (1 : Fin 2) * 1 + 1 * 0 = 0; rw [e1]

theorem blk3_apply (c : Dev nD) (t : Fin cfg1.N) (k : Fin 128) :
    blk3 V c t (ix2 (0 : Fin 1) k) = V c main_v36 (ix2 (0 : Fin 1) k) := by
  obtain ⟨-, -, -, -, -, -, e0, e1, -⟩ := idx_facts1 t
  show V c main_v36 (((cfg1.win 3).blk t).view.emb (ix2 (0 : Fin 1) k)) = V c main_v36 _
  refine congrArg (V c main_v36) (funext fun a => Fin.ext ?_)
  match a with
  | ⟨0, _⟩ => show win1_3.index t (0 : Fin 2) * 1 + 1 * 0 = 0; rw [e0]
  | ⟨1, _⟩ => show win1_3.index t (1 : Fin 2) * 128 + 1 * k.val = k.val; rw [e1]; omega

theorem blk4_apply (c : Dev nD) (t : Fin cfg1.N) (r : Fin 2000) :
    blk4 V c t (ix2 r (0 : Fin 1)) = V c main_v35 (ix2 (rowAt t.val r) (0 : Fin 1)) := by
  obtain ⟨-, -, -, -, -, -, -, -, e0, e1, -⟩ := idx_facts1 t
  have hN : t.val < 50 := lt_of_lt_of_eq t.isLt (show cfg1.N = 50 from N_1)
  have hr : r.val < 2000 := r.isLt
  show V c main_v35 (((cfg1.win 4).blk t).view.emb (ix2 r (0 : Fin 1))) = V c main_v35 _
  refine congrArg (V c main_v35) (funext fun a => Fin.ext ?_)
  match a with
  | ⟨0, _⟩ =>
    show win1_4.index t (0 : Fin 2) * 2000 + 1 * r.val = (r.val + 2000 * t.val) % 100000
    rw [e0, Nat.mod_eq_of_lt (by omega)]; omega
  | ⟨1, _⟩ => show win1_4.index t (1 : Fin 2) * 1 + 1 * 0 = 0; rw [e1]

/-! ## The running sum -/

/-- The graph word of a node, and the convolution's output at a node, as the region finds the arrays. -/
abbrev btOf (c : Dev nD) : Fin 100000 → BitVec 32 := fun n => V c main_v35 (ix2 n (0 : Fin 1))
abbrev hOf (c : Dev nD) : Cert.Gnn.TNC.Idx → EReal :=
  Cert.Gnn.hnodeK (V c main_v34) (V c main_v24_0) (fun n => V c main_v21 (ix2 n (0 : Fin 1))) (fun k => V c main_v36 (ix2 (0 : Fin 1) k))

/-- The one-hot product of block `n`: the rows of the block whose graph word is `g`'s, summed. -/
def pointSum (c : Dev nD) (n : ℕ) (g : Fin 2048) (k : Fin 128) : EReal :=
  ∑ r : Fin 2000, (if btOf V c (rowAt n r) = BitVec.ofNat 32 g.val then (1 : EReal) else 0) * hOf V c (ix2 (rowAt n r) k)

/-- The product the body forms at point `t` is the one-hot product of block `t`. -/
theorem point_sum_eq (c : Dev nD) (t : Fin cfg1.N) (g : Fin 2048) (k : Fin 128) :
    ∑ r : Fin 2000, ohVec (blk4 V c t) (ix2 r g) * hVec (blk2 V c t) (blk0 V c t) (blk1 V c t) (blk3 V c t) (ix2 r k)
      = pointSum V c t.val g k := by
  unfold pointSum
  refine Finset.sum_congr rfl fun r _ => ?_
  rw [ohVec_apply, hVec_apply, blk4_apply, blk2_apply, blk0_apply, blk1_apply, blk3_apply]
  rfl

/-- At the first point of a core the block becomes the point's one-hot product (added to zero). -/
theorem step_A (c : Dev nD) (t : Fin cfg1.N) (h0 : t.val % 25 = 0) (g : Fin 2048) (k : Fin 128) :
    outsAt1 V c t.val t.isLt (ix3 (0 : Fin 1) g k) = 0 + pointSum V c t.val g k := by
  rw [outsAt1_A V c t h0]
  refine (congrFun (piece_A (F := Ideal) c (grid1.coords t) (ms1_0 t) (hs1_0 t) (ms1_1 t) (hs1_1 t) (ms1_2 t) (hs1_2 t)
    (ms1_3 t) (hs1_3 t) (ms1_4 t) (hs1_4 t) (ms1_5 t) (hs1_5 t) ((hcond1_0 t).mpr h0)
    (blk0 V c t) (blk1 V c t) (blk2 V c t) (blk3 V c t) (blk4 V c t)) (ix3 (0 : Fin 1) g k)).trans ?_
  rw [pay1_apply, pay3_apply, pay2_apply, point_sum_eq]

/-- At any other point the point's one-hot product is added to what the point before left. -/
theorem step_B (c : Dev nD) (t : Fin cfg1.N) (h0 : ¬t.val % 25 = 0) (g : Fin 2048) (k : Fin 128) :
    outsAt1 V c t.val t.isLt (ix3 (0 : Fin 1) g k)
      = outsAt1 V c (t.val - 1) (Nat.lt_of_le_of_lt (Nat.sub_le _ _) t.isLt) (ix3 (0 : Fin 1) g k) + pointSum V c t.val g k := by
  rw [outsAt1_B V c t h0]
  refine (congrFun (piece_B (F := Ideal) c (grid1.coords t) (ms1_0 t) (hs1_0 t) (ms1_1 t) (hs1_1 t) (ms1_2 t) (hs1_2 t)
    (ms1_3 t) (hs1_3 t) (ms1_4 t) (hs1_4 t) (ms1_5 t) (hs1_5 t) (fun h => h0 ((hcond1_0 t).mp h))
    (blk0 V c t) (blk1 V c t) (blk2 V c t) (blk3 V c t) (blk4 V c t)
    (outsAt1 V c (t.val - 1) (Nat.lt_of_le_of_lt (Nat.sub_le _ _) t.isLt))) (ix3 (0 : Fin 1) g k)).trans ?_
  rw [pay1_apply, pay3_apply, point_sum_eq]

/-- THE INVARIANT: after point `n` the block holds the one-hot products of the blocks of `n`'s core up to `n`. -/
theorem outsAt_eq (c : Dev nD) (g : Fin 2048) (k : Fin 128) : ∀ (n : ℕ) (hn : n < cfg1.N),
    outsAt1 V c n hn (ix3 (0 : Fin 1) g k) = ∑ i ∈ Finset.range (n % 25 + 1), pointSum V c (25 * (n / 25) + i) g k
  | 0, hn => by
    refine (step_A V c ⟨0, hn⟩ rfl g k).trans ?_
    show 0 + pointSum V c 0 g k = ∑ i ∈ Finset.range 1, pointSum V c (0 + i) g k
    rw [Finset.sum_range_one, zero_add]
  | n + 1, hn => by
    by_cases h0 : (n + 1) % 25 = 0
    · refine (step_A V c ⟨n + 1, hn⟩ h0 g k).trans ?_
      show 0 + pointSum V c (n + 1) g k = _
      rw [h0, Finset.sum_range_one, zero_add, show 25 * ((n + 1) / 25) + 0 = n + 1 by omega]
    · refine (step_B V c ⟨n + 1, hn⟩ h0 g k).trans ?_
      show outsAt1 V c n _ (ix3 (0 : Fin 1) g k) + pointSum V c (n + 1) g k = _
      rw [show (n + 1) % 25 + 1 = (n % 25 + 1) + 1 by omega, Finset.sum_range_succ,
        show (n + 1) / 25 = n / 25 by omega, show 25 * (n / 25) + (n % 25 + 1) = n + 1 by omega, outsAt_eq c g k n]

/-! ## From the block to the array -/

/-- At the last point of a core (step 24) the block holds the core's share of every graph's sum. -/
theorem last_eq (c : Dev nD) (t : Fin cfg1.N) (h24 : t.val % 25 = 24) (y : S1x2048x128.Idx) (hc : t.val / 25 < 2) :
    outsAt1 V c t.val t.isLt y
      = Cert.Gnn.poolPart (btOf V c) (hOf V c) (ix3 (⟨t.val / 25, hc⟩ : Fin 2) (y 1 : Fin 2048) (y 2 : Fin 128)) := by
  obtain ⟨u, g, k, rfl⟩ : ∃ (u : Fin 1) (g : Fin 2048) (k : Fin 128), y = ix3 u g k := ⟨y 0, y 1, y 2, eq_ix3 y⟩
  obtain rfl : u = 0 := Subsingleton.elim _ _
  rw [outsAt_eq V c g k t.val t.isLt, h24, Finset.sum_range]
  show _ = ∑ i : Fin 25, ∑ r : Fin 2000,
    (if btOf V c (Cert.Gnn.node (⟨t.val / 25, hc⟩ : Fin 2) i r) = BitVec.ofNat 32 g.val then (1 : EReal) else 0)
      * hOf V c (ix2 (Cert.Gnn.node (⟨t.val / 25, hc⟩ : Fin 2) i r) k)
  refine Finset.sum_congr rfl fun i _ => ?_
  unfold pointSum
  refine Finset.sum_congr rfl fun r _ => ?_
  have e : rowAt (25 * (t.val / 25) + i.val) r = Cert.Gnn.node (⟨t.val / 25, hc⟩ : Fin 2) i r := by
    apply Fin.ext
    have hr : r.val < 2000 := r.isLt
    have hi : i.val < 25 := i.isLt
    show (r.val + 2000 * (25 * (t.val / 25) + i.val)) % 100000 = r.val + 2000 * (i.val + 25 * (t.val / 25))
    rw [Nat.mod_eq_of_lt (by omega)]; omega
  rw [e]

/-- WHAT A FLUSHING POINT WRITES BACK is its block of the cores' shares. -/
theorem flushed_eq (c : Dev nD) (t : Fin cfg1.N) (hf : (cfg1.win 5).flush t = true) :
    (dat1 (F := Ideal) V c).flushed 5 t
      = ((cfg1.win 5).blk t).view.read (Elt Ideal) (Cert.Gnn.poolPart (btOf V c) (hOf V c)) := by
  have h24 : t.val % 25 = 24 := (flush1_5 t).mp hf
  have hN : t.val < 50 := lt_of_lt_of_eq t.isLt (show cfg1.N = 50 from N_1)
  have hc : t.val / 25 < 2 := by omega
  obtain ⟨-, -, -, -, -, -, -, -, -, -, e0, e1, e2⟩ := idx_facts1 t
  show (cfg1.win 5).cut (grid1.coords t) ((dat1 (F := Ideal) V c).after 5 t) = _
  rw [after1_5]
  funext y
  rw [View.read_apply]
  refine (last_eq V c t h24 y hc).trans ?_
  refine congrArg (Cert.Gnn.poolPart (btOf V c) (hOf V c)) (funext fun a => Fin.ext ?_)
  match a with
  | ⟨0, _⟩ =>
    show t.val / 25 = win1_5.index t (0 : Fin 3) * 1 + 1 * (y 0).val
    have hy : (y 0).val < 1 := (y 0).isLt
    rw [e0]; omega
  | ⟨1, _⟩ => show (y 1).val = win1_5.index t (1 : Fin 3) * 2048 + 1 * (y 1).val; rw [e1]; omega
  | ⟨2, _⟩ => show (y 2).val = win1_5.index t (2 : Fin 3) * 128 + 1 * (y 2).val; rw [e2]; omega

/-- An index of the array is in point `t`'s block iff each coordinate is in the block's range on its axis. -/
theorem mem_blk5 (t : Fin cfg1.N) (i : S2x2048x128.Idx) :
    i ∈ ((cfg1.win 5).blk t).view.set ↔ ∀ a : Fin 3, win1_5.index t a * S1x2048x128.size a ≤ (i a).val
      ∧ (i a).val < win1_5.index t a * S1x2048x128.size a + S1x2048x128.size a := by
  show i ∈ ((View.whole main_v37).slice (win1_5.rect t)).set ↔ _
  rw [View.set_slice_whole, Rect.mem_set_unit]
  exact Iff.rfl

end Pool

/-- THE ARRAY after the region: every entry is in the block the last point of its core writes back, so the array
    holds the two cores' shares. -/
theorem pool_final (c : Dev nD) :
    (dat1 (F := Ideal) V c).arrAt 5 cfg1.N
      = Cert.Gnn.poolPart (fun n => V c main_v35 (ix2 n (0 : Fin 1)))
          (Cert.Gnn.hnodeK (V c main_v34) (V c main_v24_0) (fun n => V c main_v21 (ix2 n (0 : Fin 1))) (fun k => V c main_v36 (ix2 (0 : Fin 1) k))) :=
  (dat1 (F := Ideal) V c).arrAt_eq_of_cover 5 (Cert.Gnn.poolPart (Pool.btOf V c) (Pool.hOf V c)) (fun t hf => Pool.flushed_eq V c t hf) fun i => by
    have h0 : (i 0).val < 2 := (i 0).isLt
    have h1 : (i 1).val < 2048 := (i 1).isLt
    have h2 : (i 2).val < 128 := (i 2).isLt
    have hN : cfg1.N = 50 := N_1
    let t : Fin cfg1.N := ⟨25 * (i 0).val + 24, by rw [hN]; omega⟩
    have ht : t.val = 25 * (i 0).val + 24 := rfl
    obtain ⟨-, -, -, -, -, -, -, -, -, -, e0, e1, e2⟩ := Pool.idx_facts1 t
    refine ⟨t, (flush1_5 t).mpr (by rw [ht]; omega), ?_⟩
    rw [Pool.mem_blk5]
    intro a
    match a with
    | ⟨0, _⟩ =>
      show win1_5.index t (0 : Fin 3) * 1 ≤ (i 0).val ∧ (i 0).val < win1_5.index t (0 : Fin 3) * 1 + 1
      rw [e0, ht]; omega
    | ⟨1, _⟩ =>
      show win1_5.index t (1 : Fin 3) * 2048 ≤ (i 1).val ∧ (i 1).val < win1_5.index t (1 : Fin 3) * 2048 + 2048
      rw [e1]; omega
    | ⟨2, _⟩ =>
      show win1_5.index t (2 : Fin 3) * 128 ≤ (i 2).val ∧ (i 2).val < win1_5.index t (2 : Fin 3) * 128 + 128
      rw [e2]; omega

end Cert.KernelIdeal.Hand
end
-- ==== Proof.Region2Value.lean ====
/-
  Region 2, the head: the one grid point's one store, read as the two-layer head of the specification.

  The region has a single grid point and every window's block is its whole array, so a block read is the array
  itself.  The body's payload is

      (relu (x · w1 + b1)) · w2 + b2 ,

  each product a matrix product accumulated into the zero splat (its lhs' second axis contracted against the
  rhs' first), each bias a one-row array broadcast along the rows, the format changes identities on the
  extended reals.  Only `0 + x = x` is used of the arithmetic, so everything holds at the infinities too.
-/
import proofs.«401344_j78795470012789_2_alg».proof.Proof.Gen.KernelIdeal.Frame
import proofs.«401344_j78795470012789_2_alg».proof.Proof.Spec
import proofs.«401344_j78795470012789_2_alg».proof.Proof.LibDenseLayer
import Idealize.ShloMosaic.Lib.ValueIdx
import Idealize.ShloMosaic.Lib.Pipeline.Value
import Idealize.ShloMosaic.PureOps.Ideal.Laws

noncomputable section

namespace Cert.KernelIdeal.Hand.Head

open Idealize.ShloMosaic Idealize.ShloMosaic.TcCoe Idealize.ShloMosaic.ValueIdx Idealize.SL.Sem
open Cert.KernelIdeal Cert.KernelIdeal.Gen
open scoped BigOperators

/-! ## A matrix product into the zero splat is `mm` -/

section Product
variable {B K N : Nat} {φ₁ φ₂ : FTy} (d : DotDims ⟨2, ![B, K]⟩ ⟨2, ![K, N]⟩ ⟨2, ![B, N]⟩)
  (hrk : d.contr.rank = 1) (hsz : d.contr.size ⟨0, by omega⟩ = K)
  (hl0 : ∀ (j : (⟨2, ![B, N]⟩ : Shape).Idx) (q : d.contr.Idx), (d.lhsIdx j q 0).val = (j 0).val)
  (hl1 : ∀ (j : (⟨2, ![B, N]⟩ : Shape).Idx) (q : d.contr.Idx), (d.lhsIdx j q 1).val = (q ⟨0, by omega⟩).val)
  (hr0 : ∀ (j : (⟨2, ![B, N]⟩ : Shape).Idx) (q : d.contr.Idx), (d.rhsIdx j q 0).val = (q ⟨0, by omega⟩).val)
  (hr1 : ∀ (j : (⟨2, ![B, N]⟩ : Shape).Idx) (q : d.contr.Idx), (d.rhsIdx j q 1).val = (j 1).val)

include hrk hsz hl0 hl1 hr0 hr1 in
/-- The product of `a` (rows × `K`) with `w` (`K` × columns, its first axis contracted) accumulated into the zero
    splat is `mm a w`: the contraction's one coordinate runs over `Fin K`. -/
theorem matmul_zero_eq_mm (a : FVec Ideal ⟨2, ![B, K]⟩ φ₁) (w : FVec Ideal ⟨2, ![K, N]⟩ φ₂) :
    matmul d none a w (constant ⟨2, ![B, N]⟩ .f32 0x00000000#32) = Cert.Gnn.mm a w := by
  funext j
  show FloatOps.matmul d none a w (constant ⟨2, ![B, N]⟩ .f32 0x00000000#32) j = _
  rw [Ideal.matmul_constant_zero_apply,
    Cert.Lib.contraction_sum d K hrk hsz a w j (fun k => a (ix2 (j 0 : Fin B) k)) (fun k => w (ix2 k (j 1 : Fin N)))
      (fun q => congrArg a (funext fun ax => Fin.ext (by
        match ax with
        | ⟨0, _⟩ => exact hl0 j q
        | ⟨1, _⟩ => exact hl1 j q)))
      (fun q => congrArg w (funext fun ax => Fin.ext (by
        match ax with
        | ⟨0, _⟩ => exact hr0 j q
        | ⟨1, _⟩ => exact hr1 j q)))]
  rfl

end Product

/-! ## The two products' operand indices, axis by axis -/

theorem lhs_hidden_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_hidden_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_hidden_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_hidden_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

theorem lhs_logits_0 (i : S2048x3.Idx) (q : dot_S2048x128_S128x3_S2048x3_1_0_0_1_n_n.contr.Idx) :
    (dot_S2048x128_S128x3_S2048x3_1_0_0_1_n_n.lhsIdx i q 0).val = (i 0).val := by
  unfold DotDims.lhsIdx
  rw [dif_neg (show ¬(0 : Fin S2048x128.rank) ∈ dot_S2048x128_S128x3_S2048x3_1_0_0_1_n_n.lhsBatch by decide), dif_pos (show (0 : Fin S2048x128.rank) ∈ dot_S2048x128_S128x3_S2048x3_1_0_0_1_n_n.lhsNonContracting by decide)]
  rfl
theorem lhs_logits_1 (i : S2048x3.Idx) (q : dot_S2048x128_S128x3_S2048x3_1_0_0_1_n_n.contr.Idx) :
    (dot_S2048x128_S128x3_S2048x3_1_0_0_1_n_n.lhsIdx i q 1).val = (q ⟨0, by decide⟩).val :=
  dot_S2048x128_S128x3_S2048x3_1_0_0_1_n_n.lhsIdx_val_of_single rfl i q
theorem rhs_logits_0 (i : S2048x3.Idx) (q : dot_S2048x128_S128x3_S2048x3_1_0_0_1_n_n.contr.Idx) :
    (dot_S2048x128_S128x3_S2048x3_1_0_0_1_n_n.rhsIdx i q 0).val = (q ⟨0, by decide⟩).val :=
  dot_S2048x128_S128x3_S2048x3_1_0_0_1_n_n.rhsIdx_val_of_single rfl i q
theorem rhs_logits_1 (i : S2048x3.Idx) (q : dot_S2048x128_S128x3_S2048x3_1_0_0_1_n_n.contr.Idx) :
    (dot_S2048x128_S128x3_S2048x3_1_0_0_1_n_n.rhsIdx i q 1).val = (i 1).val := by
  unfold DotDims.rhsIdx
  rw [dif_neg (show ¬(1 : Fin S128x3.rank) ∈ dot_S2048x128_S128x3_S2048x3_1_0_0_1_n_n.rhsBatch by decide), dif_pos (show (1 : Fin S128x3.rank) ∈ dot_S2048x128_S128x3_S2048x3_1_0_0_1_n_n.rhsNonContracting by decide)]
  rfl

/-- The hidden layer's product is `mm`. -/
theorem hidden_product {φ₁ φ₂ : FTy} (a : FVec Ideal S2048x128 φ₁) (w : FVec Ideal S128x128 φ₂) :
    matmul dot_S2048x128_S128x128_S2048x128_1_0_0_1_n_n none a w (constant S2048x128 .f32 0x00000000#32) = Cert.Gnn.mm (B := 2048) (K := 128) (N := 128) a w :=
  matmul_zero_eq_mm (B := 2048) (K := 128) (N := 128) dot_S2048x128_S128x128_S2048x128_1_0_0_1_n_n rfl rfl
    lhs_hidden_0 lhs_hidden_1 rhs_hidden_0 rhs_hidden_1 a w

/-- The output layer's product is `mm`. -/
theorem logits_product {φ₁ φ₂ : FTy} (a : FVec Ideal S2048x128 φ₁) (w : FVec Ideal S128x3 φ₂) :
    matmul dot_S2048x128_S128x3_S2048x3_1_0_0_1_n_n none a w (constant S2048x3 .f32 0x00000000#32) = Cert.Gnn.mm (B := 2048) (K := 128) (N := 3) a w :=
  matmul_zero_eq_mm (B := 2048) (K := 128) (N := 3) dot_S2048x128_S128x3_S2048x3_1_0_0_1_n_n rfl rfl
    lhs_logits_0 lhs_logits_1 rhs_logits_0 rhs_logits_1 a w

/-! ## A one-row array broadcast along the rows -/

/-- A `[1, N]` row broadcast to `[B, N]` reads the row's entry of the column. -/
theorem row_broadcast {B N : Nat} (x : (⟨2, ![1, N]⟩ : Shape).Idx → EReal)
    (h : (⟨2, ![1, N]⟩ : Shape).Broadcasts ⟨2, ![B, N]⟩) (j : (⟨2, ![B, N]⟩ : Shape).Idx) :
    broadcastTo ⟨2, ![B, N]⟩ x h j = x (ix2 (0 : Fin 1) (j 1 : Fin N)) := by
  refine broadcastTo_apply x h j (ix2 (0 : Fin 1) (j 1 : Fin N)) fun a => ?_
  match a with
  | ⟨0, _⟩ => exact (if_pos rfl).symm
  | ⟨1, _⟩ =>
    show (j 1).val = if N = 1 then 0 else (j 1).val
    split_ifs with hN
    · have := (j 1).isLt
      have e : (⟨2, ![B, N]⟩ : Shape).size 1 = N := rfl
      omega
    · rfl

/-! ## The payload -/

/-- The narrowing format change is the identity on extended reals. -/
theorem truncf_id {s : Shape} {φ ψ : FTy} (a : FVec Ideal s φ) (h : ψ.bits < φ.bits) :
    (truncf ψ a h : FVec Ideal s ψ) = a := rfl

/-- A bias row added to every row, then the maximum with the zero splat: `relu (addRow M b)`. -/
theorem rectified_rows {B N : Nat} (M : FVec Ideal ⟨2, ![B, N]⟩ .f32) (x : FVec Ideal ⟨2, ![1, N]⟩ .f32)
    (h : (⟨2, ![1, N]⟩ : Shape).Broadcasts ⟨2, ![B, N]⟩) :
    maximumf (addf M (broadcastTo ⟨2, ![B, N]⟩ x h)) (broadcast ⟨2, ![B, N]⟩ (FloatOps.ofBits (F := Ideal) .f32 0x00000000#32))
      = Cert.Gnn.relu (Cert.Gnn.addRow M (fun k => x (ix2 (0 : Fin 1) k))) := by
  funext j
  rw [maximumf_apply, addf_apply, broadcast_apply, row_broadcast]
  show max _ (Ideal.ofBits .f32 0x00000000#32) = _
  rw [Ideal.ofBits_zero_f32]
  rfl

/-- A bias row added to every row: `addRow M b`. -/
theorem biased_rows {B N : Nat} (M : FVec Ideal ⟨2, ![B, N]⟩ .f32) (x : FVec Ideal ⟨2, ![1, N]⟩ .f32)
    (h : (⟨2, ![1, N]⟩ : Shape).Broadcasts ⟨2, ![B, N]⟩) :
    addf M (broadcastTo ⟨2, ![B, N]⟩ x h) = Cert.Gnn.addRow M (fun k => x (ix2 (0 : Fin 1) k)) := by
  funext j
  rw [addf_apply, row_broadcast]
  rfl

/-- THE BODY'S PAYLOAD is the head of its five loaded blocks. -/
theorem head_payload (x0 : Vec Ideal S2048x128 .f32) (x1 : Vec Ideal S128x128 .f32) (x2 : Vec Ideal S1x128 .f32)
    (x3 : Vec Ideal S128x3 .f32) (x4 : Vec Ideal S1x3 .f32) :
    k2_pay1 (F := Ideal) x0 x1 x2 x3 x4
      = Cert.Gnn.headOf x0 x1 (fun k => x2 (ix2 (0 : Fin 1) k)) x3 (fun k => x4 (ix2 (0 : Fin 1) k)) := by
  unfold k2_pay1
  dsimp only
  rw [shapeCast_self, shapeCast_self, shapeCast_self, hidden_product, rectified_rows, logits_product, biased_rows]
  rfl

end Cert.KernelIdeal.Hand.Head

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open Cert.KernelIdeal.Hand.Head

variable (V : (c : Dev nD) → (b : Ref sig .tc) → Buf (Elt Ideal) ((c : Thread nD τ).loc b))

/-! ## From the one block to the array

  The grid has one point and each window's block index there is `(0, 0)` with the block the array's own shape: a
  block read through zero offsets is the array. -/

namespace Head

/-- The zero offsets, however spelt. -/
theorem zero_offsets : (![0, 0] : Fin 2 → Nat) = fun _ => 0 := funext fun a => by fin_cases a <;> rfl

/-- The pooled rows' block at the one point is the whole array. -/
theorem pooled_block (c : Dev nD) : (iblk2 (F := Ideal) V c 0 t2_0 : Vec Ideal S2048x128 .f32) = V c main_v38 := by
  have hz' : (fun a => win2_0.index t2_0 a * main_v38.ty.shape.size a) = fun _ => 0 := funext fun a => by fin_cases a <;> decide
  exact Memref.read_access_unit_zero (Elt Ideal) main_v38 hz' (fun a => by rw [congrFun hz' a]; simp) (V c main_v38)

/-- So is the hidden layer's weight's, -/
theorem hidden_weight_block (c : Dev nD) : (iblk2 (F := Ideal) V c 1 t2_0 : Vec Ideal S128x128 .f32) = V c main_arg9 := by
  have hz' : (fun a => win2_1.index t2_0 a * main_arg9.ty.shape.size a) = fun _ => 0 := funext fun a => by fin_cases a <;> decide
  exact Memref.read_access_unit_zero (Elt Ideal) main_arg9 hz' (fun a => by rw [congrFun hz' a]; simp) (V c main_arg9)

/-- its bias row's, -/
theorem hidden_bias_block (c : Dev nD) : (iblk2 (F := Ideal) V c 2 t2_0 : Vec Ideal S1x128 .f32) = V c main_v39 := by
  have hz' : (fun a => win2_2.index t2_0 a * main_v39.ty.shape.size a) = fun _ => 0 := funext fun a => by fin_cases a <;> decide
  exact Memref.read_access_unit_zero (Elt Ideal) main_v39 hz' (fun a => by rw [congrFun hz' a]; simp) (V c main_v39)

/-- the output layer's weight's -/
theorem logits_weight_block (c : Dev nD) : (iblk2 (F := Ideal) V c 3 t2_0 : Vec Ideal S128x3 .f32) = V c main_arg11 := by
  have hz' : (fun a => win2_3.index t2_0 a * main_arg11.ty.shape.size a) = fun _ => 0 := funext fun a => by fin_cases a <;> decide
  exact Memref.read_access_unit_zero (Elt Ideal) main_arg11 hz' (fun a => by rw [congrFun hz' a]; simp) (V c main_arg11)

/-- and its bias row's. -/
theorem logits_bias_block (c : Dev nD) : (iblk2 (F := Ideal) V c 4 t2_0 : Vec Ideal S1x3 .f32) = V c main_v40 := by
  have hz' : (fun a => win2_4.index t2_0 a * main_v40.ty.shape.size a) = fun _ => 0 := funext fun a => by fin_cases a <;> decide
  exact Memref.read_access_unit_zero (Elt Ideal) main_v40 hz' (fun a => by rw [congrFun hz' a]; simp) (V c main_v40)

end Head

/-- WHAT THE ONE POINT WRITES BACK is the head of the region-entry arrays (its block: the whole result array). -/
theorem head_flushed (c : Dev nD) (t : Fin cfg2.N) :
    (dat2 (F := Ideal) V c).flushed 5 t = ((cfg2.win 5).blk t).view.read (Elt Ideal)
      (Cert.Gnn.headOf (V c main_v38) (V c main_arg9) (fun k => V c main_v39 (ix2 (0 : Fin 1) k)) (V c main_arg11)
        (fun k => V c main_v40 (ix2 (0 : Fin 1) k))) := by
  obtain rfl : t = t2_0 := fin_N2 t
  show (cfg2.win 5).cut (grid2.coords t2_0) ((dat2 (F := Ideal) V c).after 5 t2_0) = _
  rw [after2_5, pooled_block, hidden_weight_block, hidden_bias_block, logits_weight_block, logits_bias_block]
  unfold out2_5
  rw [View.canon_unit_zero zero_offsets]
  simp only [View.ld_unit_zero (S := S2048x128) zero_offsets, View.ld_unit_zero (S := S128x128) zero_offsets,
    View.ld_unit_zero (S := S1x128) zero_offsets, View.ld_unit_zero (S := S128x3) zero_offsets,
    View.ld_unit_zero (S := S1x3) zero_offsets]
  rw [head_payload]
  have hz' : (fun a => win2_5.index t2_0 a * main_v41.ty.shape.size a) = fun _ => 0 := funext fun a => by fin_cases a <;> decide
  exact (Memref.read_access_unit_zero (Elt Ideal) main_v41 hz' (fun a => by rw [congrFun hz' a]; simp) _).symm

/-- THE RESULT ARRAY after the region: the one point's block covers it, so it ends holding the head of the
    region-entry arrays. -/
theorem head_final (c : Dev nD) :
    (dat2 (F := Ideal) V c).arrAt 5 cfg2.N
      = Cert.Gnn.headOf (V c main_v38) (V c main_arg9) (fun k => V c main_v39 (ix2 (0 : Fin 1) k)) (V c main_arg11)
          (fun k => V c main_v40 (ix2 (0 : Fin 1) k)) :=
  (dat2 (F := Ideal) V c).arrAt_eq_of_cover 5 _ (fun t _ => head_flushed V c t) fun i =>
    ⟨t2_0, flush2_5 t2_0, by
      -- the block's offsets are zero and its extents the array's, on both axes at once
      have hoff : (fun a => win2_5.index t2_0 a * win2_5.size a) = fun _ => 0 := funext fun a => by fin_cases a <;> decide
      have hext : win2_5.xsize (grid2.coords t2_0) = S2048x3.size := funext fun a => by fin_cases a <;> decide
      show i ∈ ((View.whole main_v41).slice (win2_5.rect t2_0)).set
      rw [View.set_slice_whole, Rect.mem_set_unit]
      intro a
      show win2_5.index t2_0 a * win2_5.size a ≤ (i a).val
        ∧ (i a).val < win2_5.index t2_0 a * win2_5.size a + win2_5.xsize (grid2.coords t2_0) a
      rw [congrFun hoff a, congrFun hext a, Nat.zero_add]
      exact ⟨Nat.zero_le _, (i a).isLt⟩⟩

end Cert.KernelIdeal.Hand

end
-- ==== Proof.KernelValue.lean ====
/-
  The kernel's result as a function of the launch contents.

  Each region's output array is the network's stage of the region's entry contents (the three region modules); the
  entry contents are the host stretches' terms of the launch contents (the host module) read at their entries (the
  host-value module).  Chained: region 0 leaves `hw` and `hw` scaled by the reciprocal root; the host sums the scaled
  source rows at the targets; region 1 leaves each core's share of the pooled convolution; the host adds the two
  shares; region 2 applies the head.
-/
import proofs.«401344_j78795470012789_2_alg».proof.Proof.KernelHost
import proofs.«401344_j78795470012789_2_alg».proof.Proof.KernelHostValue
import proofs.«401344_j78795470012789_2_alg».proof.Proof.Region0Value
import proofs.«401344_j78795470012789_2_alg».proof.Proof.Region1Value
import proofs.«401344_j78795470012789_2_alg».proof.Proof.Region2Value
import proofs.«401344_j78795470012789_2_alg».proof.Proof.Spec

noncomputable section
namespace Cert.KernelIdeal.Hand
open Idealize.ShloMosaic Idealize.ShloMosaic.TcCoe Idealize.ShloMosaic.ValueIdx Idealize.SL.Sem Idealize.ShloMosaic.StableHlo
open Cert.KernelIdeal Cert.KernelIdeal.Gen
open scoped BigOperators

variable (m : (ℓ : Loc nD τ sig) → Buf (Elt Ideal) ℓ) (ρ : Dev nD → PrngReg)

/-! ## The bias rows, the id column and the reciprocal-root column, as functions of one coordinate -/

theorem V1_v22_row (c : Dev nD) : (fun k : Fin 128 => V1 m ρ c main_v22 (ix2 (0 : Fin 1) k)) = fun k => m ((c : Thread nD τ).loc main_arg4) (ix1 k) := by
  funext k; rw [V1_v22]; exact rowCast128 _ k
theorem V1_v23_row (c : Dev nD) : (fun k : Fin 128 => V1 m ρ c main_v23 (ix2 (0 : Fin 1) k)) = fun k => m ((c : Thread nD τ).loc main_arg6) (ix1 k) := by
  funext k; rw [V1_v23]; exact rowCast128 _ k
theorem V3_v36_row (c : Dev nD) : (fun k : Fin 128 => V3 m ρ c main_v36 (ix2 (0 : Fin 1) k)) = fun k => m ((c : Thread nD τ).loc main_arg8) (ix1 k) := by
  funext k; rw [V3_v36]; exact rowCast128 _ k
theorem V5_v39_row (c : Dev nD) : (fun k : Fin 128 => V5 m ρ c main_v39 (ix2 (0 : Fin 1) k)) = fun k => m ((c : Thread nD τ).loc main_arg10) (ix1 k) := by
  funext k; rw [V5_v39]; exact rowCast128 _ k
theorem V5_v40_row (c : Dev nD) : (fun k : Fin 3 => V5 m ρ c main_v40 (ix2 (0 : Fin 1) k)) = fun k => m ((c : Thread nD τ).loc main_arg12) (ix1 k) := by
  funext k; rw [V5_v40]; exact rowCast3 _ k
theorem V3_v35_col (c : Dev nD) : (fun n : Fin 100000 => V3 m ρ c main_v35 (ix2 n (0 : Fin 1))) = fun n => m ((c : Thread nD τ).loc main_arg2) (ix1 n) := by
  funext n; rw [V3_v35]; exact colCast_i _ n
/-- The reciprocal-root column region 0 and region 1 read, entry by entry. -/
theorem dinv_value (c : Dev nD) (n : Fin 100000) : V1 m ρ c main_v21 (ix2 n (0 : Fin 1)) = (Cert.Gnn.dinvOf (m ((c : Thread nD τ).loc main_arg1))) n := by
  rw [V1_v21]; exact (colCast_f _ n).trans (dinvT_apply _ n)
theorem V3_v21_col (c : Dev nD) : (fun n : Fin 100000 => V3 m ρ c main_v21 (ix2 n (0 : Fin 1))) = (Cert.Gnn.dinvOf (m ((c : Thread nD τ).loc main_arg1))) := by
  funext n; rw [V3_v21]; exact dinv_value m ρ c n

/-! ## The regions' outputs at the launch contents -/

/-- Region 0 leaves the product `hw` of the network at the launch contents. -/
theorem hw_value (c : Dev nD) : (dat0 (V1 m ρ) c).arrAt 8 cfg0.N = (Cert.Gnn.hwOf (m ((c : Thread nD τ).loc main_arg0)) (Cert.Gnn.aggOf (m ((c : Thread nD τ).loc main_arg0)) (m ((c : Thread nD τ).loc main_arg1))) (m ((c : Thread nD τ).loc main_arg3)) (fun k => (m ((c : Thread nD τ).loc main_arg4)) (ix1 k)) (m ((c : Thread nD τ).loc main_arg5)) (fun k => (m ((c : Thread nD τ).loc main_arg6)) (ix1 k)) (m ((c : Thread nD τ).loc main_arg7))) := by
  rw [hw_final (V1 m ρ) c, V1_v22_row, V1_v23_row, V1_arg0, V1_v13, V1_arg3, V1_arg5, V1_arg7, gsT_agg]

/-- Region 0's second output: `hw` scaled row by row. -/
theorem hws_value (c : Dev nD) : (dat0 (V1 m ρ) c).arrAt 9 cfg0.N
    = fun j : S100000x128.Idx => (Cert.Gnn.hwOf (m ((c : Thread nD τ).loc main_arg0)) (Cert.Gnn.aggOf (m ((c : Thread nD τ).loc main_arg0)) (m ((c : Thread nD τ).loc main_arg1))) (m ((c : Thread nD τ).loc main_arg3)) (fun k => (m ((c : Thread nD τ).loc main_arg4)) (ix1 k)) (m ((c : Thread nD τ).loc main_arg5)) (fun k => (m ((c : Thread nD τ).loc main_arg6)) (ix1 k)) (m ((c : Thread nD τ).loc main_arg7))) j * (Cert.Gnn.dinvOf (m ((c : Thread nD τ).loc main_arg1))) (j 0 : Fin 100000) := by
  rw [hws_final (V1 m ρ) c, ← hw_final (V1 m ρ) c, hw_value]
  funext j
  exact congrArg (_ * ·) (dinv_value m ρ c (j 0 : Fin 100000))

/-- The message region 1 reads: the scaled rows of the sources summed at the targets. -/
theorem msg_value (c : Dev nD) : V3 m ρ c main_v34 = Cert.Gnn.msgRaw (Cert.Gnn.hwOf (m ((c : Thread nD τ).loc main_arg0)) (Cert.Gnn.aggOf (m ((c : Thread nD τ).loc main_arg0)) (m ((c : Thread nD τ).loc main_arg1))) (m ((c : Thread nD τ).loc main_arg3)) (fun k => (m ((c : Thread nD τ).loc main_arg4)) (ix1 k)) (m ((c : Thread nD τ).loc main_arg5)) (fun k => (m ((c : Thread nD τ).loc main_arg6)) (ix1 k)) (m ((c : Thread nD τ).loc main_arg7))) (Cert.Gnn.dinvOf (m ((c : Thread nD τ).loc main_arg1))) (m ((c : Thread nD τ).loc main_arg1)) := by
  rw [V3_v34, gsT_apply, hws_value]
  rfl

/-- Region 1 leaves each core's share of the pooled sums. -/
theorem pool_value (c : Dev nD) : (dat1 (V3 m ρ) c).arrAt 5 cfg1.N
    = Cert.Gnn.poolPart (fun n => (m ((c : Thread nD τ).loc main_arg2)) (ix1 n))
        (Cert.Gnn.hnodeK (Cert.Gnn.msgRaw (Cert.Gnn.hwOf (m ((c : Thread nD τ).loc main_arg0)) (Cert.Gnn.aggOf (m ((c : Thread nD τ).loc main_arg0)) (m ((c : Thread nD τ).loc main_arg1))) (m ((c : Thread nD τ).loc main_arg3)) (fun k => (m ((c : Thread nD τ).loc main_arg4)) (ix1 k)) (m ((c : Thread nD τ).loc main_arg5)) (fun k => (m ((c : Thread nD τ).loc main_arg6)) (ix1 k)) (m ((c : Thread nD τ).loc main_arg7))) (Cert.Gnn.dinvOf (m ((c : Thread nD τ).loc main_arg1))) (m ((c : Thread nD τ).loc main_arg1))) (Cert.Gnn.hwOf (m ((c : Thread nD τ).loc main_arg0)) (Cert.Gnn.aggOf (m ((c : Thread nD τ).loc main_arg0)) (m ((c : Thread nD τ).loc main_arg1))) (m ((c : Thread nD τ).loc main_arg3)) (fun k => (m ((c : Thread nD τ).loc main_arg4)) (ix1 k)) (m ((c : Thread nD τ).loc main_arg5)) (fun k => (m ((c : Thread nD τ).loc main_arg6)) (ix1 k)) (m ((c : Thread nD τ).loc main_arg7))) (Cert.Gnn.dinvOf (m ((c : Thread nD τ).loc main_arg1))) (fun k => (m ((c : Thread nD τ).loc main_arg8)) (ix1 k))) := by
  rw [pool_final (V3 m ρ) c, V3_v35_col, V3_v36_row, V3_v21_col, msg_value, V3_v24_0, hw_value]

/-- THE KERNEL'S VALUE: the result buffer at the last boundary is the network of the launch contents. -/
theorem kernel_value (c : Dev nD) : W6 m ρ c (Proc.devRef .tc main_v41) = Cert.Gnn.outK (m ((c : Thread nD τ).loc main_arg0)) (m ((c : Thread nD τ).loc main_arg1)) (fun n => (m ((c : Thread nD τ).loc main_arg2)) (ix1 n)) (m ((c : Thread nD τ).loc main_arg3)) (fun k => (m ((c : Thread nD τ).loc main_arg4)) (ix1 k)) (m ((c : Thread nD τ).loc main_arg5)) (fun k => (m ((c : Thread nD τ).loc main_arg6)) (ix1 k)) (m ((c : Thread nD τ).loc main_arg7)) (fun k => (m ((c : Thread nD τ).loc main_arg8)) (ix1 k)) (m ((c : Thread nD τ).loc main_arg9)) (fun k => (m ((c : Thread nD τ).loc main_arg10)) (ix1 k)) (m ((c : Thread nD τ).loc main_arg11)) (fun k => (m ((c : Thread nD τ).loc main_arg12)) (ix1 k)) := by
  rw [W6_v41, head_final (V5 m ρ) c, V5_v39_row, V5_v40_row, V5_v38, reduce_cores, pool_value, V5_arg9, V5_arg11]
  rfl

end Cert.KernelIdeal.Hand
end
-- ==== Proof.RefConv.lean ====
/-
  The reference's graph convolution, read entry by entry.

  The reference normalises each edge by `dinv (source) · dinv (target)`, both factors gathered from the vector of
  reciprocal square roots at the wrapped index columns; gathers the rows of `hw` at the wrapped source column;
  multiplies each gathered row by its edge's factor; adds the rows up at the raw target column; adds
  `(dinv · dinv) · hw` and the bias; rectifies.  Entry `(p, q)` of the result is the specification's
  `hnodeR (msgSym hw dinv ei) hw dinv b` at `(p, q)`, with `hw` and `dinv` the two earlier stages kept as they are.
-/
import proofs.«401344_j78795470012789_2_alg».proof.Proof.Gen.ReferenceIdeal.Read
import proofs.«401344_j78795470012789_2_alg».proof.Proof.Spec
import proofs.«401344_j78795470012789_2_alg».proof.Proof.LibRowGatherScatter
import Idealize.ShloMosaic.Lib.StableHlo.Predicate
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx
open scoped BigOperators

/-! ## The three data-dependent operations at an entry -/

/-- A vector gathered at a column of wrapped index words reads the entry of the row the word names. -/
theorem vecGather_wrapped (x : S100000.Idx → EReal) (idx : IVec S1600000x1 32) (e : Fin 1600000) (v : BitVec 32)
    (h : idx (ix2 e (0 : Fin 1)) = Cert.Gnn.wrapN v) :
    Host.gather gather_S100000_S1600000x1_S1600000_n_0_n_n_0_1_1 x idx (ix1 e) = x (ix1 (Cert.Gnn.gRow v)) := by
  have hp : (StableHlo.Predicate.ixP e : S1600000x1.Idx) = ix2 e (0 : Fin 1) := by
    funext a; match a with | ⟨0, _⟩ => rfl | ⟨1, _⟩ => rfl
  have he : (Shape.Idx.ofFin e : S1600000.Idx) = ix1 e := by
    funext a; match a with | ⟨0, _⟩ => rfl
  have key := StableHlo.Predicate.gather_take gather_S100000_S1600000x1_S1600000_n_0_n_n_0_1_1 rfl rfl rfl rfl x idx e (by decide)
  rw [he] at key
  refine key.trans (congrArg x ?_)
  funext a
  match a with
  | ⟨0, _⟩ =>
    refine Fin.ext ?_
    show min (idx (StableHlo.Predicate.ixP e)).toInt.toNat (100000 - 1) = min (Cert.Gnn.wrapN v).toInt.toNat 99999
    rw [hp, h]

/-- A table's rows gathered at a column of wrapped index words: entry `(e, k)` is entry `k` of the row the word names. -/
theorem rowGather_wrapped (x : S100000x128.Idx → EReal) (idx : IVec S1600000x1 32) (e : Fin 1600000) (k : Fin 128)
    (v : BitVec 32) (h : idx (ix2 e (0 : Fin 1)) = Cert.Gnn.wrapN v) :
    Host.gather gather_S100000x128_S1600000x1_S1600000x128_1_0_n_n_0_1_1128 x idx (ix2 e k) = x (ix2 (Cert.Gnn.gRow v) k) := by
  have key := Cert.Gcn.gather_rows_apply (N := 100000) (E := 1600000) (C := 128) (by decide)
    Facts₀.gather_S100000x128_S1600000x1_S1600000x128_1_0_n_n_0_1_1128_wf x idx e k
  refine key.trans (congrArg x ?_)
  congr 1
  refine Fin.ext ?_
  show min (idx (ix2 e (0 : Fin 1))).toInt.toNat (100000 - 1) = min (Cert.Gnn.wrapN v).toInt.toNat 99999
  rw [h]

/-- The accumulating scatter of rows at a column of index words, at the ideal values: entry `(i, k)` is the operand's
    plus the updates' entries `k` over the rows whose word, read signed, is `i`. -/
theorem rowScatter_at (x : S100000x128.Idx → EReal) (idx : IVec S1600000x1 32) (upd : S1600000x128.Idx → EReal)
    (i : Fin 100000) (k : Fin 128) :
    Host.scatterAdd (F := Ideal) (φ := .f32) scatter_S100000x128_S1600000x1_S1600000x128_1_0_0_1 x idx upd (ix2 i k)
      = x (ix2 i k) + ∑ e ∈ Finset.univ.filter (fun e : Fin 1600000 => (idx (ix2 e (0 : Fin 1))).toInt = (i.val : ℤ)), upd (ix2 e k) :=
  Cert.Gcn.scatterAdd_rows_apply (N := 100000) (E := 1600000) (C := 128)
    Facts₀.scatter_S100000x128_S1600000x1_S1600000x128_1_0_0_1_wf idx x upd i k

/-! ## The index columns -/

section
variable (x1 : (⟨S2x1600000, .i32⟩ : BufTy).Contents (Elt Ideal))

/-- The source column: word `e` of row 0 of the edge table. -/
theorem src_col (e : Fin 1600000) : Read.val_main_v1 (F := Ideal) x1 (ix1 e) = x1 (ix2 (0 : Fin 2) e) := by
  rw [Read.val_main_v1_apply, Read.val_main_v0_apply]
  refine congrArg x1 ?_
  funext a
  refine Fin.ext ?_
  match a with
  | ⟨0, _⟩ => rfl
  | ⟨1, _⟩ => exact Nat.mod_eq_of_lt e.isLt

/-- The target column: word `e` of row 1 of the edge table. -/
theorem dst_col (e : Fin 1600000) : Read.val_main_v3 (F := Ideal) x1 (ix1 e) = x1 (ix2 (1 : Fin 2) e) := by
  rw [Read.val_main_v3_apply, Read.val_main_v2_apply]
  refine congrArg x1 ?_
  funext a
  refine Fin.ext ?_
  match a with
  | ⟨0, _⟩ => rfl
  | ⟨1, _⟩ => exact Nat.mod_eq_of_lt e.isLt

/-- The wrapped source column (first use: the factor `dinv (source)`). -/
theorem wsrc_col (e : Fin 1600000) :
    Read.val_main_v38 (F := Ideal) x1 (ix2 e (0 : Fin 1)) = Cert.Gnn.wrapN (x1 (ix2 (0 : Fin 2) e)) := by
  have hi : Read.idx_main_v38 (ix2 e (0 : Fin 1)) = ix1 e := by funext a; match a with | ⟨0, _⟩ => rfl
  rw [Read.val_main_v38_apply, hi, Read.val_main_v37_apply, Read.val_main_v34_apply, Read.val_main_v36_apply,
    Read.val_main_v33_apply, Read.val_main_v35_apply, Read.val_main_c_4_apply, Read.val_main_c_5_apply, src_col]
  rfl

/-- The wrapped target column (the factor `dinv (target)`). -/
theorem wdst_col (e : Fin 1600000) :
    Read.val_main_v45 (F := Ideal) x1 (ix2 e (0 : Fin 1)) = Cert.Gnn.wrapN (x1 (ix2 (1 : Fin 2) e)) := by
  have hi : Read.idx_main_v45 (ix2 e (0 : Fin 1)) = ix1 e := by funext a; match a with | ⟨0, _⟩ => rfl
  rw [Read.val_main_v45_apply, hi, Read.val_main_v44_apply, Read.val_main_v41_apply, Read.val_main_v43_apply,
    Read.val_main_v40_apply, Read.val_main_v42_apply, Read.val_main_c_6_apply, Read.val_main_c_7_apply, dst_col]
  rfl

/-- The wrapped source column (second use: the rows of `hw`). -/
theorem wsrc_col' (e : Fin 1600000) :
    Read.val_main_v54 (F := Ideal) x1 (ix2 e (0 : Fin 1)) = Cert.Gnn.wrapN (x1 (ix2 (0 : Fin 2) e)) := by
  have hi : Read.idx_main_v54 (ix2 e (0 : Fin 1)) = ix1 e := by funext a; match a with | ⟨0, _⟩ => rfl
  rw [Read.val_main_v54_apply, hi, Read.val_main_v53_apply, Read.val_main_v50_apply, Read.val_main_v52_apply,
    Read.val_main_v49_apply, Read.val_main_v51_apply, Read.val_main_c_8_apply, Read.val_main_c_9_apply, src_col]
  rfl

/-- The raw target column the scatter reads. -/
theorem rdst_col (e : Fin 1600000) :
    Read.val_main_v59 (F := Ideal) x1 (ix2 e (0 : Fin 1)) = x1 (ix2 (1 : Fin 2) e) := by
  have hi : Read.idx_main_v59 (ix2 e (0 : Fin 1)) = ix1 e := by funext a; match a with | ⟨0, _⟩ => rfl
  rw [Read.val_main_v59_apply, hi, dst_col]

/-! ## The edge factor, the weighted rows, the message -/

/-- The factor of edge `e`: `dinv` at its source row times `dinv` at its wrapped target row. -/
theorem norm_at (e : Fin 1600000) :
    Read.val_main_v47 (F := Ideal) x1 (ix1 e)
      = Read.val_main_v31 (F := Ideal) x1 (ix1 (Cert.Gnn.srcRow x1 e))
        * Read.val_main_v31 (F := Ideal) x1 (ix1 (Cert.Gnn.gRow (x1 (ix2 (1 : Fin 2) e)))) := by
  rw [Read.val_main_v47_apply]
  unfold Read.val_main_v39 Read.val_main_v46
  rw [vecGather_wrapped _ _ e _ (wsrc_col x1 e), vecGather_wrapped _ _ e _ (wdst_col x1 e)]
  rfl

end

section
variable (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal))

/-- Row `e` of the weighted updates: the edge's factor times the source's row of `hw`. -/
theorem upd_at (e : Fin 1600000) (q : Fin 128) :
    Read.val_main_v57 (F := Ideal) x0 x1 x3 x4 x5 x6 x7 (ix2 e q)
      = (Read.val_main_v31 (F := Ideal) x1 (ix1 (Cert.Gnn.srcRow x1 e))
          * Read.val_main_v31 (F := Ideal) x1 (ix1 (Cert.Gnn.gRow (x1 (ix2 (1 : Fin 2) e)))))
        * Read.val_main_v32 (F := Ideal) x0 x1 x3 x4 x5 x6 x7 (ix2 (Cert.Gnn.srcRow x1 e) q) := by
  have h56 : Read.idx_main_v56 (ix2 e q) = ix2 e (0 : Fin 1) := by
    funext a; match a with | ⟨0, _⟩ => rfl | ⟨1, _⟩ => rfl
  have h48 : Read.idx_main_v48 (ix2 e (0 : Fin 1)) = ix1 e := by funext a; match a with | ⟨0, _⟩ => rfl
  rw [Read.val_main_v57_apply, Read.val_main_v56_apply, h56, Read.val_main_v48_apply, h48, norm_at]
  unfold Read.val_main_v55
  rw [rowGather_wrapped _ _ e q _ (wsrc_col' x1 e)]
  rfl

/-- The scatter's result is the symmetric message. -/
theorem msg_at (p : Fin 100000) (q : Fin 128) :
    Read.val_main_v60 (F := Ideal) x0 x1 x3 x4 x5 x6 x7 (ix2 p q)
      = Cert.Gnn.msgSym (Read.val_main_v32 (F := Ideal) x0 x1 x3 x4 x5 x6 x7)
          (fun i => Read.val_main_v31 (F := Ideal) x1 (ix1 i)) x1 (ix2 p q) := by
  unfold Read.val_main_v60
  rw [rowScatter_at, Read.val_main_v58_apply, Read.val_main_cst_10_apply]
  have hf : (Finset.univ.filter fun e : Fin 1600000 => (Read.val_main_v59 (F := Ideal) x1 (ix2 e (0 : Fin 1))).toInt = (p.val : ℤ))
      = Cert.Gnn.lands x1 p := by
    unfold Cert.Gnn.lands
    refine Finset.filter_congr fun e _ => ?_
    rw [rdst_col]
  rw [hf]
  show Ideal.ofBits .f32 0x00000000#32 + _ = 0 + _
  rw [Ideal.ofBits_zero_f32]
  refine congrArg (fun s => (0 : EReal) + s) (Finset.sum_congr rfl fun e _ => ?_)
  exact upd_at x0 x1 x3 x4 x5 x6 x7 e q

end

/-! ## The convolution -/

/-- THE REFERENCE'S CONVOLUTION is the specification's, over the reference's own `hw` and `dinv`. -/
theorem ref_hnode (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    Read.val_main_v69 (F := Ideal) x0 x1 x3 x4 x5 x6 x7 x8
      = Cert.Gnn.hnodeR
          (Cert.Gnn.msgSym (Read.val_main_v32 (F := Ideal) x0 x1 x3 x4 x5 x6 x7) (fun i => Read.val_main_v31 (F := Ideal) x1 (ix1 i)) x1)
          (Read.val_main_v32 (F := Ideal) x0 x1 x3 x4 x5 x6 x7) (fun i => Read.val_main_v31 (F := Ideal) x1 (ix1 i))
          (fun k => x8 (ix1 k)) := by
  funext j
  obtain ⟨p, q, rfl⟩ : ∃ (p : Fin 100000) (q : Fin 128), j = ix2 p q := ⟨j 0, j 1, eq_ix2 j⟩
  have h63 : Read.idx_main_v62 (Read.idx_main_v63 (ix2 p q)) = ix1 p := by funext a; match a with | ⟨0, _⟩ => rfl
  have h67 : Read.idx_main_v66 (Read.idx_main_v67 (ix2 p q)) = ix1 q := by funext a; match a with | ⟨0, _⟩ => rfl
  rw [Read.val_main_v69_apply, Read.val_main_v68_apply, Read.val_main_v65_apply, Read.val_main_v64_apply,
    Read.val_main_v63_apply, Read.val_main_v62_apply, Read.val_main_v61_apply, h63,
    Read.val_main_v67_apply, Read.val_main_v66_apply, h67,
    Read.val_main_call2_v0_apply, Read.val_main_call2_cst_apply, msg_at]
  show max (_ + _ * _ + _) (Ideal.ofBits .f32 0x00000000#32) = _
  rw [Ideal.ofBits_zero_f32]
  rfl

end Cert.ReferenceIdeal.Hand

end
-- ==== Proof.RefDense.lean ====
/-
  The reference's dense part: the two-layer perceptron of `agg + x` followed by the convolution's weight.

  Between the neighbourhood sum (stage 13) and the third product (stage 32) the reference runs, on all 100000 rows at
  once: the sum with the features, a product with a 128 × 128 weight, the bias row broadcast over the rows and added,
  the maximum with a broadcast zero; the same three once more with the second weight and bias; and the product with
  the convolution's weight.  Entry `(p, q)` of a product is `Σ_k a (p, k) · w (k, q)`: the printed operand indices of
  the contraction at `(p, q)` and `k` are `(p, k)` on the left and `(k, q)` on the right.  Entry `(p, q)` of the
  broadcast bias is entry `q` of the bias.  The broadcast zero constant is the zero of the extended reals.  So each
  stage, as a function of the index, is the specification's `mm`, `addRow` or `relu` of the stage before, and stage 32
  is `hwOf` of the features and the neighbourhood sum.  Only the definitions of the operations are used, no law of
  arithmetic: the equalities hold at the infinities as they stand.

  The neighbourhood sum itself (stage 13): the rows of the features gathered at the wrapped source column are added
  up, from the zero table, at the raw target column; entry `(i, k)` is the sum over the edges whose target word, read
  signed, is `i` of entry `k` of the source's row: the specification's `aggOf`.

  The degree side (stages 25 to 31): ones added up at the raw target column from the zero vector count the edges
  that land on a node; one more is added and the reciprocal square root taken: the specification's `dinvOf`.
-/
import proofs.«401344_j78795470012789_2_alg».proof.Proof.Gen.ReferenceIdeal.Read
import proofs.«401344_j78795470012789_2_alg».proof.Proof.Spec
import proofs.«401344_j78795470012789_2_alg».proof.Proof.LibVecScatter
import proofs.«401344_j78795470012789_2_alg».proof.Proof.RefConv
import Idealize.ShloMosaic.Lib.ValueIdx
import Idealize.ShloMosaic.Lib.IdealHost
import Idealize.ShloMosaic.PureOps.Ideal.Laws

noncomputable section

namespace Cert.ReferenceIdeal.Hand

open Cert.ReferenceIdeal Idealize.ShloMosaic Idealize.ShloMosaic.ValueIdx
open scoped BigOperators

/-! ## The printed operand indices, in coordinates -/

/-- At the result entry `(p, q)` and contraction position `k` the left operand is read at `(p, k)`. -/
theorem lidx_coord (p : Fin 100000) (q k : Fin 128) : Read.lidx_main_v15 (ix2 p q) k = ix2 p k :=
  funext fun a => Fin.ext (by match a with | ⟨0, _⟩ => rfl | ⟨1, _⟩ => rfl)

/-- At the result entry `(p, q)` and contraction position `k` the right operand is read at `(k, q)`. -/
theorem ridx_coord (p : Fin 100000) (q k : Fin 128) : Read.ridx_main_v15 (ix2 p q) k = ix2 k q :=
  funext fun a => Fin.ext (by match a with | ⟨0, _⟩ => rfl | ⟨1, _⟩ => rfl)

/-- The bias broadcast to a row and then over the rows: entry `(p, q)` reads the bias at `q`. -/
theorem bias_coord (p : Fin 100000) (q : Fin 128) : Read.idx_main_v16 (Read.idx_main_v17 (ix2 p q)) = ix1 q :=
  funext fun a => Fin.ext (by match a with | ⟨0, _⟩ => rfl)

/-- A contraction read through the printed operand indices is the matrix product's entry. -/
theorem contraction_coord (y : S100000x128.Idx → EReal) (w : S128x128.Idx → EReal) (p : Fin 100000) (q : Fin 128) :
    ∑ k : Fin 128, y (Read.lidx_main_v15 (ix2 p q) k) * w (Read.ridx_main_v15 (ix2 p q) k) = Cert.Gnn.mm y w (ix2 p q) :=
  Finset.sum_congr rfl fun k _ => by rw [lidx_coord, ridx_coord]

/-! ## The neighbourhood sum and the degree -/

section Graph

variable (x1 : (⟨S2x1600000, .i32⟩ : BufTy).Contents (Elt Ideal))

/-- The index column of the first gather: entry `(e, 0)` is edge `e`'s source word, a negative one moved up by 100000. -/
theorem gather_col (e : Fin 1600000) :
    Read.val_main_v9 (F := Ideal) x1 (ix2 e (0 : Fin 1)) = Cert.Gnn.wrapN (x1 (ix2 (0 : Fin 2) e)) := by
  have hc : Read.idx_main_v9 (ix2 e (0 : Fin 1)) = ix1 e := funext fun a => by match a with | ⟨0, _⟩ => rfl
  rw [Read.val_main_v9_apply, hc, Read.val_main_v8_apply, Read.val_main_v5_apply, Read.val_main_v7_apply,
    Read.val_main_v4_apply, Read.val_main_v6_apply, Read.val_main_c_apply, Read.val_main_c_0_apply, src_col]
  rfl

/-- The index column of the first scatter: entry `(e, 0)` is edge `e`'s target word as it stands. -/
theorem scatter_col (e : Fin 1600000) :
    Read.val_main_v12 (F := Ideal) x1 (ix2 e (0 : Fin 1)) = x1 (ix2 (1 : Fin 2) e) := by
  have hc : Read.idx_main_v12 (ix2 e (0 : Fin 1)) = ix1 e := funext fun a => by match a with | ⟨0, _⟩ => rfl
  rw [Read.val_main_v12_apply, hc, dst_col]

/-- The index column of the degree's scatter: the same target words. -/
theorem degree_col (e : Fin 1600000) :
    Read.val_main_v27 (F := Ideal) x1 (ix2 e (0 : Fin 1)) = x1 (ix2 (1 : Fin 2) e) := by
  have hc : Read.idx_main_v27 (ix2 e (0 : Fin 1)) = ix1 e := funext fun a => by match a with | ⟨0, _⟩ => rfl
  rw [Read.val_main_v27_apply, hc, dst_col]

/-- The accumulating scatter of scalars at a column of index words, at the ideal values: element `i` is the operand's
    plus the updates over the positions whose word, read signed, is `i`. -/
theorem vecScatter_at (x : S100000.Idx → EReal) (idx : IVec S1600000x1 32) (upd : S1600000.Idx → EReal) (i : Fin 100000) :
    Host.scatterAdd (F := Ideal) (φ := .f32) scatter_S100000_S1600000x1_S1600000_n_0_0_1 x idx upd (ix1 i)
      = x (ix1 i) + ∑ e ∈ Finset.univ.filter (fun e : Fin 1600000 => (idx (ix2 e (0 : Fin 1))).toInt = (i.val : ℤ)), upd (ix1 e) :=
  Cert.Gcn.scatterAdd_vec_apply (N := 100000) (E := 1600000)
    Facts₀.scatter_S100000_S1600000x1_S1600000_n_0_0_1_wf idx x upd i

/-- STAGE 31 at node `i` is the specification's reciprocal square root of the in-degree plus one. -/
theorem ref_dinv (i : Fin 100000) : Read.val_main_v31 (F := Ideal) x1 (ix1 i) = Cert.Gnn.dinvOf x1 i := by
  rw [Read.val_main_v31_apply, Read.val_main_v30_apply, Read.val_main_v29_apply, Read.val_main_cst_3_apply]
  unfold Read.val_main_v28
  rw [vecScatter_at, Read.val_main_v26_apply, Read.val_main_cst_2_apply]
  have hl : (Finset.univ.filter fun e : Fin 1600000 => (Read.val_main_v27 (F := Ideal) x1 (ix2 e (0 : Fin 1))).toInt = (i.val : ℤ))
      = Cert.Gnn.lands x1 i := by
    unfold Cert.Gnn.lands
    exact Finset.filter_congr fun e _ => by rw [degree_col]
  rw [hl]
  simp only [Ideal.hostUnary_rsqrt_def, Ideal.addf_def, Ideal.ofBits_def, Ideal.ofBits_zero_f32, Ideal.ofBits_one_f32]
  unfold Cert.Gnn.dinvOf Cert.Gnn.degOf
  refine congrArg (fun s => Ideal.rsqrt (((0 : EReal) + s) + 1)) (Finset.sum_congr rfl fun e _ => ?_)
  rw [Read.val_main_v25_apply, Read.val_main_cst_1_apply, Ideal.ofBits_def, Ideal.ofBits_one_f32]

end Graph

/-- STAGE 13 is the specification's neighbourhood sum. -/
theorem ref_agg (x0 : (⟨S100000x128, .f32⟩ : BufTy).Contents (Elt Ideal)) (x1 : (⟨S2x1600000, .i32⟩ : BufTy).Contents (Elt Ideal)) :
    Read.val_main_v13 (F := Ideal) x0 x1 = Cert.Gnn.aggOf x0 x1 := by
  funext j
  obtain ⟨i, k, rfl⟩ : ∃ (i : Fin 100000) (k : Fin 128), j = ix2 i k := ⟨j 0, j 1, eq_ix2 j⟩
  unfold Read.val_main_v13
  rw [rowScatter_at, Read.val_main_v11_apply, Read.val_main_cst_apply]
  have hl : (Finset.univ.filter fun e : Fin 1600000 => (Read.val_main_v12 (F := Ideal) x1 (ix2 e (0 : Fin 1))).toInt = (i.val : ℤ))
      = Cert.Gnn.lands x1 i := by
    unfold Cert.Gnn.lands
    exact Finset.filter_congr fun e _ => by rw [scatter_col]
  rw [hl]
  show Ideal.ofBits .f32 0x00000000#32 + _ = 0 + _
  rw [Ideal.ofBits_zero_f32]
  refine congrArg (fun s => (0 : EReal) + s) (Finset.sum_congr rfl fun e _ => ?_)
  unfold Read.val_main_v10
  exact rowGather_wrapped x0 _ e k _ (gather_col x1 e)

/-! ## The stages, one by one -/

section Stages

variable (x0 : (⟨S100000x128, .f32⟩ : BufTy).Contents (Elt Ideal)) (x1 : (⟨S2x1600000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal))

/-- Stage 14: the neighbourhood sum plus the features. -/
theorem stage14 (hagg : Read.val_main_v13 (F := Ideal) x0 x1 = Cert.Gnn.aggOf x0 x1) :
    Read.val_main_v14 (F := Ideal) x0 x1 = fun j => Cert.Gnn.aggOf x0 x1 j + x0 j := by
  funext i
  rw [Read.val_main_v14_apply, hagg]
  rfl

/-- The broadcast zero of a rectification is `0`. -/
theorem zero0 (i : S100000x128.Idx) : Read.val_main_call0_v0 (F := Ideal) i = 0 := by
  rw [Read.val_main_call0_v0_apply, Read.val_main_call0_cst_apply]
  exact Ideal.ofBits_zero_f32

theorem zero1 (i : S100000x128.Idx) : Read.val_main_call1_v0 (F := Ideal) i = 0 := by
  rw [Read.val_main_call1_v0_apply, Read.val_main_call1_cst_apply]
  exact Ideal.ofBits_zero_f32

/-- Stages 15 to 19: the first layer. -/
theorem stage19 (hagg : Read.val_main_v13 (F := Ideal) x0 x1 = Cert.Gnn.aggOf x0 x1) :
    Read.val_main_v19 (F := Ideal) x0 x1 x3 x4
      = Cert.Gnn.relu (Cert.Gnn.addRow (Cert.Gnn.mm (fun j => Cert.Gnn.aggOf x0 x1 j + x0 j) x3) (fun k => x4 (ix1 k))) := by
  funext i
  obtain ⟨p, q, rfl⟩ : ∃ (p : Fin 100000) (q : Fin 128), i = ix2 p q := ⟨i 0, i 1, eq_ix2 i⟩
  rw [Read.val_main_v19_apply, Read.val_main_v18_apply, Read.val_main_v15_apply, Read.val_main_v17_apply,
    Read.val_main_v16_apply, zero0, stage14 x0 x1 hagg, bias_coord]
  unfold Cert.Gnn.relu Cert.Gnn.addRow
  rw [← contraction_coord _ x3 p q]
  rfl

/-- Stages 20 to 24: the second layer. -/
theorem stage24 (hagg : Read.val_main_v13 (F := Ideal) x0 x1 = Cert.Gnn.aggOf x0 x1) :
    Read.val_main_v24 (F := Ideal) x0 x1 x3 x4 x5 x6
      = Cert.Gnn.relu (Cert.Gnn.addRow (Cert.Gnn.mm (Cert.Gnn.relu (Cert.Gnn.addRow
          (Cert.Gnn.mm (fun j => Cert.Gnn.aggOf x0 x1 j + x0 j) x3) (fun k => x4 (ix1 k)))) x5) (fun k => x6 (ix1 k))) := by
  funext i
  obtain ⟨p, q, rfl⟩ : ∃ (p : Fin 100000) (q : Fin 128), i = ix2 p q := ⟨i 0, i 1, eq_ix2 i⟩
  rw [Read.val_main_v24_apply, Read.val_main_v23_apply, Read.val_main_v20_apply, Read.val_main_v22_apply,
    Read.val_main_v21_apply, zero1, stage19 x0 x1 x3 x4 hagg,
    show Read.idx_main_v21 (Read.idx_main_v22 (ix2 p q)) = ix1 q from bias_coord p q]
  unfold Cert.Gnn.relu Cert.Gnn.addRow
  rw [← contraction_coord _ x5 p q]
  rfl

end Stages

/-- Stage 32 is the specification's `hwOf` of the features and the neighbourhood sum. -/
theorem ref_hw (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal))
    (hagg : Read.val_main_v13 (F := Ideal) x0 x1 = Cert.Gnn.aggOf x0 x1) :
    Read.val_main_v32 (F := Ideal) x0 x1 x3 x4 x5 x6 x7
      = Cert.Gnn.hwOf x0 (Cert.Gnn.aggOf x0 x1) x3 (fun k => x4 (ix1 k)) x5 (fun k => x6 (ix1 k)) x7 := by
  funext i
  obtain ⟨p, q, rfl⟩ : ∃ (p : Fin 100000) (q : Fin 128), i = ix2 p q := ⟨i 0, i 1, eq_ix2 i⟩
  rw [Read.val_main_v32_apply, stage24 x0 x1 x3 x4 x5 x6 hagg]
  exact contraction_coord _ x7 p q

/-- Stage 32 is `hwOf` of the features and the specification's neighbourhood sum, with no hypothesis. -/
theorem ref_hw' (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) :
    Read.val_main_v32 (F := Ideal) x0 x1 x3 x4 x5 x6 x7
      = Cert.Gnn.hwOf x0 (Cert.Gnn.aggOf x0 x1) x3 (fun k => x4 (ix1 k)) x5 (fun k => x6 (ix1 k)) x7 :=
  ref_hw x0 x1 x3 x4 x5 x6 x7 (ref_agg x0 x1)

end Cert.ReferenceIdeal.Hand

end
-- ==== Proof.RefHead.lean ====
/-
  The reference's pooling and head, entry by entry.

  After the convolution the reference has one row of 128 features per node.  It then

  * sums, for every graph `g`, the rows of the nodes whose graph word (read signed) is `g`: an accumulating scatter
    of the node rows into a zero table of 2048 rows, the graph words standing as a column of 100000 indices;
  * applies the two-layer head: a product with a 128 × 128 weight, a bias row, rectification, a product with a
    128 × 3 weight, a bias row.

  Read at an entry, the scatter is `0 + Σ_{n : word n = g} h (n, c)`, which is `poolR`; the two contractions are sums
  over the 128 inner positions, which is `mm`; the broadcast bias rows read the bias at the column, which is
  `addRow`; the maximum with the zero constant is `relu`.  So the reference's last stage is `headOf (poolR …)` of the
  convolution's output, whatever that output is: it stays an opaque function of the arguments here.
-/
import proofs.«401344_j78795470012789_2_alg».proof.Proof.Gen.ReferenceIdeal.Read
import proofs.«401344_j78795470012789_2_alg».proof.Proof.Spec
import proofs.«401344_j78795470012789_2_alg».proof.Proof.LibRowGatherScatter

noncomputable section

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx
open scoped BigOperators

/-! ## Where the composed index maps of the last stages read -/

/-- The graph-word column at `(n, 0)` reads the word of node `n`. -/
theorem idx_word (n : Fin 100000) : Read.idx_main_v71 (ix2 n (0 : Fin 1)) = ix1 n :=
  funext fun a => Fin.ext (by match a with | ⟨0, _⟩ => rfl)

/-- The first product at `(g, c)`, inner position `k`: the pooled table at `(g, k)`. -/
theorem lidx_first (g : Fin 2048) (c k : Fin 128) : Read.lidx_main_v73 (ix2 g c) k = ix2 g k :=
  funext fun a => Fin.ext (by match a with | ⟨0, _⟩ => rfl | ⟨1, _⟩ => rfl)

/-- … times the first weight at `(k, c)`. -/
theorem ridx_first (g : Fin 2048) (c k : Fin 128) : Read.ridx_main_v73 (ix2 g c) k = ix2 k c :=
  funext fun a => Fin.ext (by match a with | ⟨0, _⟩ => rfl | ⟨1, _⟩ => rfl)

/-- The first bias, broadcast to a row and then to the table, read at `(g, c)`: its entry `c`. -/
theorem idx_bias_first (g : Fin 2048) (c : Fin 128) : Read.idx_main_v74 (Read.idx_main_v75 (ix2 g c)) = ix1 c :=
  funext fun a => Fin.ext (by match a with | ⟨0, _⟩ => rfl)

/-- The second product at `(g, q)`, inner position `k`: the hidden table at `(g, k)`. -/
theorem lidx_second (g : Fin 2048) (q : Fin 3) (k : Fin 128) : Read.lidx_main_v78 (ix2 g q) k = ix2 g k :=
  funext fun a => Fin.ext (by match a with | ⟨0, _⟩ => rfl | ⟨1, _⟩ => rfl)

/-- … times the second weight at `(k, q)`. -/
theorem ridx_second (g : Fin 2048) (q : Fin 3) (k : Fin 128) : Read.ridx_main_v78 (ix2 g q) k = ix2 k q :=
  funext fun a => Fin.ext (by match a with | ⟨0, _⟩ => rfl | ⟨1, _⟩ => rfl)

/-- The second bias read at `(g, q)`: its entry `q`. -/
theorem idx_bias_second (g : Fin 2048) (q : Fin 3) : Read.idx_main_v79 (Read.idx_main_v80 (ix2 g q)) = ix1 q :=
  funext fun a => Fin.ext (by match a with | ⟨0, _⟩ => rfl)

section
variable (x0 : (⟨S100000x128, .f32⟩ : BufTy).Contents (Elt Ideal))
  (x1 : (⟨S2x1600000, .i32⟩ : BufTy).Contents (Elt Ideal))
  (x2 : (⟨S100000, .i32⟩ : BufTy).Contents (Elt Ideal))
  (x3 : (⟨S128x128, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x128, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))
  (x11 : (⟨S128x3, .f32⟩ : BufTy).Contents (Elt Ideal))
  (x12 : (⟨S3, .f32⟩ : BufTy).Contents (Elt Ideal))

/-! ## The pooled table -/

/-- THE POOLING AT `(g, c)`: the accumulating scatter of the node rows into the zero table leaves, at graph `g`
    and feature `c`, zero plus the sum of the entries `c` of the nodes whose graph word, read signed, is `g`. -/
theorem ref_pool (g : Fin 2048) (c : Fin 128) :
    Read.val_main_v72 (F := Ideal) x0 x1 x2 x3 x4 x5 x6 x7 x8 (ix2 g c)
      = Cert.Gnn.poolR (fun n => x2 (ix1 n)) (Read.val_main_v69 (F := Ideal) x0 x1 x3 x4 x5 x6 x7 x8) (ix2 g c) := by
  unfold Read.val_main_v72
  generalize Read.val_main_v69 (F := Ideal) x0 x1 x3 x4 x5 x6 x7 x8 = h
  show Ideal.hostScatterAdd
      (Cert.Gcn.rowScatterDims 2048 100000 128 Facts₀.scatter_S2048x128_S100000x1_S100000x128_1_0_0_1_wf)
      (Read.val_main_v70 (F := Ideal)) (Read.val_main_v71 (F := Ideal) x2) h (ix2 g c) = _
  rw [Cert.Gcn.scatterAdd_rows_apply, Read.val_main_v70_apply, Read.val_main_cst_11_apply]
  show Ideal.ofBits .f32 0x00000000#32 + _ = _
  rw [Ideal.ofBits_zero_f32]
  unfold Cert.Gnn.poolR
  simp only [Read.val_main_v71_apply, idx_word]

/-! ## The hidden layer of the head -/

/-- THE HIDDEN LAYER AT `(g, k)`: `max (Σ_k' pool (g, k') · w₁ (k', k) + b₁ k) 0`. -/
theorem ref_hidden (g : Fin 2048) (k : Fin 128) :
    Read.val_main_v77 (F := Ideal) x0 x1 x2 x3 x4 x5 x6 x7 x8 x9 x10 (ix2 g k)
      = Cert.Gnn.relu (Cert.Gnn.addRow (Cert.Gnn.mm
          (Cert.Gnn.poolR (fun n => x2 (ix1 n)) (Read.val_main_v69 (F := Ideal) x0 x1 x3 x4 x5 x6 x7 x8)) x9)
          (fun k => x10 (ix1 k))) (ix2 g k) := by
  rw [Read.val_main_v77_apply, Read.val_main_v76_apply, Read.val_main_v73_apply, Read.val_main_v75_apply,
    Read.val_main_v74_apply, Read.val_main_call3_v0_apply, Read.val_main_call3_cst_apply, idx_bias_first]
  have hs : (∑ k' : Fin 128, Read.val_main_v72 (F := Ideal) x0 x1 x2 x3 x4 x5 x6 x7 x8 (Read.lidx_main_v73 (ix2 g k) k')
        * x9 (Read.ridx_main_v73 (ix2 g k) k'))
      = ∑ k' : Fin 128, Cert.Gnn.poolR (fun n => x2 (ix1 n)) (Read.val_main_v69 (F := Ideal) x0 x1 x3 x4 x5 x6 x7 x8) (ix2 g k')
        * x9 (ix2 k' k) :=
    Finset.sum_congr rfl fun k' _ => by rw [lidx_first, ridx_first, ref_pool]
  rw [hs]
  show max (_ + _) (Ideal.ofBits .f32 0x00000000#32) = _
  rw [Ideal.ofBits_zero_f32]
  rfl

/-! ## The reference's last stage -/

/-- THE REFERENCE'S HEAD: its last stage is the two-layer head of the pooled convolution output. -/
theorem ref_head :
    Read.val_main_v81 (F := Ideal) x0 x1 x2 x3 x4 x5 x6 x7 x8 x9 x10 x11 x12
      = Cert.Gnn.headOf (Cert.Gnn.poolR (fun n => x2 (ix1 n)) (Read.val_main_v69 (F := Ideal) x0 x1 x3 x4 x5 x6 x7 x8))
          x9 (fun k => x10 (ix1 k)) x11 (fun k => x12 (ix1 k)) := by
  funext j
  obtain ⟨g, q, rfl⟩ : ∃ (g : Fin 2048) (q : Fin 3), j = ix2 g q := ⟨j 0, j 1, eq_ix2 j⟩
  rw [Read.val_main_v81_apply, Read.val_main_v78_apply, Read.val_main_v80_apply, Read.val_main_v79_apply, idx_bias_second]
  have hs : (∑ k : Fin 128, Read.val_main_v77 (F := Ideal) x0 x1 x2 x3 x4 x5 x6 x7 x8 x9 x10 (Read.lidx_main_v78 (ix2 g q) k)
        * x11 (Read.ridx_main_v78 (ix2 g q) k))
      = ∑ k : Fin 128, Cert.Gnn.relu (Cert.Gnn.addRow (Cert.Gnn.mm
          (Cert.Gnn.poolR (fun n => x2 (ix1 n)) (Read.val_main_v69 (F := Ideal) x0 x1 x3 x4 x5 x6 x7 x8)) x9)
          (fun k => x10 (ix1 k))) (ix2 g k) * x11 (ix2 k q) :=
    Finset.sum_congr rfl fun k _ => by rw [lidx_second, ridx_second, ref_hidden]
  rw [hs]
  rfl

end

end Cert.ReferenceIdeal.Hand

end
-- ==== Proof.RefValue.lean ====
/-
  The reference's value: the network in the reference's arrangement.

  The reference's run leaves, in its one result, the last stage of its operations as a function of the thirteen
  argument arrays.  Stage by stage that function is the specification's network `outR`:

  * the neighbourhood sum of the features is `aggOf`, and the two-layer perceptron of `agg + x` followed by the
    convolution's weight is `hwOf`;
  * the reciprocal square root of the in-degree plus one is `dinvOf`;
  * the symmetrically normalised messages summed at each target, the self term and the bias, rectified, are
    `hnodeR (msgSym …)`;
  * the node rows summed per graph are `poolR`, and the two-layer head is `headOf`.

  Each bias arrives as a rank-one array and is read through its one coordinate; the graph words likewise.
-/
import proofs.«401344_j78795470012789_2_alg».proof.Proof.Gen.ReferenceIdeal.Run
import proofs.«401344_j78795470012789_2_alg».proof.Proof.Gen.ReferenceIdeal.Read
import proofs.«401344_j78795470012789_2_alg».proof.Proof.Spec
import proofs.«401344_j78795470012789_2_alg».proof.Proof.RefDense
import proofs.«401344_j78795470012789_2_alg».proof.Proof.RefConv
import proofs.«401344_j78795470012789_2_alg».proof.Proof.RefHead

noncomputable section

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx
open scoped BigOperators

/-- THE LAST STAGE IS THE NETWORK: as a function of the argument arrays, the reference's last stage is `outR`. -/
theorem ref_out (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x3, .f32⟩ : BufTy).Contents (Elt Ideal)) (x12 : (⟨S3, .f32⟩ : BufTy).Contents (Elt Ideal)) :
    Read.val_main_v81 (F := Ideal) x0 x1 x2 x3 x4 x5 x6 x7 x8 x9 x10 x11 x12
      = Cert.Gnn.outR x0 x1 (fun n => x2 (ix1 n)) x3 (fun k => x4 (ix1 k)) x5 (fun k => x6 (ix1 k)) x7 (fun k => x8 (ix1 k)) x9 (fun k => x10 (ix1 k)) x11 (fun k => x12 (ix1 k)) := by
  have hd : (fun i : Fin 100000 => Read.val_main_v31 (F := Ideal) x1 (ix1 i)) = Cert.Gnn.dinvOf x1 := funext fun i => ref_dinv (x1 := x1) (i := i)
  rw [ref_head, ref_hnode, ref_hw x0 x1 x3 x4 x5 x6 x7 (ref_agg (x0 := x0) (x1 := x1)), hd]
  rfl

/-- THE REFERENCE'S VALUE: the result its run leaves is `outR` of the argument buffers' contents. -/
theorem ref_value (m : (ℓ : Loc nD τ sig) → Buf (Elt Ideal) ℓ) (c : Dev nD) :
    Cert.ReferenceIdeal.Value.res_main_v81 (F := Ideal) m c
      = Cert.Gnn.outR (m ((c.tc : Thread nD τ).loc main_arg0)) (m ((c.tc : Thread nD τ).loc main_arg1)) (fun n => (m ((c.tc : Thread nD τ).loc main_arg2)) (ix1 n)) (m ((c.tc : Thread nD τ).loc main_arg3)) (fun k => (m ((c.tc : Thread nD τ).loc main_arg4)) (ix1 k)) (m ((c.tc : Thread nD τ).loc main_arg5)) (fun k => (m ((c.tc : Thread nD τ).loc main_arg6)) (ix1 k)) (m ((c.tc : Thread nD τ).loc main_arg7)) (fun k => (m ((c.tc : Thread nD τ).loc main_arg8)) (ix1 k)) (m ((c.tc : Thread nD τ).loc main_arg9)) (fun k => (m ((c.tc : Thread nD τ).loc main_arg10)) (ix1 k)) (m ((c.tc : Thread nD τ).loc main_arg11)) (fun k => (m ((c.tc : Thread nD τ).loc main_arg12)) (ix1 k)) :=
  (Read.val_main_v81_eq (F := Ideal) m c).trans (ref_out _ _ _ _ _ _ _ _ _ _ _ _ _)

end Cert.ReferenceIdeal.Hand

end
-- ==== Proof.LibSumBlocks.lean ====
/-
  A sum over `a · b` consecutive positions, regrouped into `a` blocks of `b`: position `r + b · q` is entry `r` of
  block `q`. Twice, a sum over `a · b · c` positions as blocks of blocks. In any commutative monoid, so also where
  the summands are extended reals.
-/
import Mathlib.Algebra.BigOperators.Fin
import Mathlib.Logic.Equiv.Fin.Basic

namespace Cert.Lib

open scoped BigOperators

/-- The positions below `a · b`, block by block. -/
theorem sum_blocks {M : Type*} [AddCommMonoid M] (a b : ℕ) (f : ℕ → M) :
    ∑ q : Fin a, ∑ r : Fin b, f (r.val + b * q.val) = ∑ x : Fin (a * b), f x.val := by
  rw [← Fintype.sum_prod_type']
  exact Equiv.sum_comp finProdFinEquiv fun x => f x.val

/-- The positions below `a · b · c`, as `a` groups of `b` blocks of `c`. -/
theorem sum_blocks_blocks {M : Type*} [AddCommMonoid M] (a b c : ℕ) (f : ℕ → M) :
    ∑ p : Fin a, ∑ s : Fin b, ∑ r : Fin c, f (r.val + c * (s.val + b * p.val)) = ∑ x : Fin (a * b * c), f x.val := by
  rw [← sum_blocks (a * b) c f, ← sum_blocks a b fun t => ∑ r : Fin c, f (r.val + c * t)]

end Cert.Lib
-- ==== Proof.Algebra.lean ====
/-
  Pure mathematics over the entry-by-entry network: the two arrangements of the network are the same function.

  * The reciprocal square root of a degree is a nonnegative real: a degree is a count plus one.
  * An edge that lands on row i has a nonnegative target word, so the gather's wrapped and clamped row is i again.
  * The convolution: the target's factor crosses the sum over the landing edges. That is legal in the extended reals
    because the factor is a nonnegative real (distributivity fails only at infinite or signed factors).
  * The pooling: the sum over cores, blocks and rows of one-hot products is the sum over the nodes of the graph.
-/
import proofs.«401344_j78795470012789_2_alg».proof.Proof.Spec
import proofs.«401344_j78795470012789_2_alg».proof.Proof.LibSumBlocks
import Mathlib.Data.EReal.Basic
import Mathlib.Data.EReal.Operations

noncomputable section

namespace Cert.Gnn

open Idealize.ShloMosaic Idealize.ShloMosaic.ValueIdx
open scoped BigOperators

/-- A degree is the real number card + 1. -/
theorem degOf_real (ei : T2E.Idx → BitVec 32) (i : Fin 100000) :
    degOf ei i = ((((lands ei i).card : ℝ) + 1 : ℝ) : EReal) := by
  unfold degOf
  rw [zero_add, Finset.sum_const, nsmul_one, EReal.coe_add, EReal.coe_one, EReal.coe_natCast]

theorem dinv_real (ei : T2E.Idx → BitVec 32) (i : Fin 100000) :
    ∃ r : ℝ, 0 ≤ r ∧ dinvOf ei i = ((r : ℝ) : EReal) := by
  have hpos : (0 : ℝ) < ((lands ei i).card : ℝ) + 1 := by positivity
  refine ⟨(Real.sqrt (((lands ei i).card : ℝ) + 1))⁻¹, by positivity, ?_⟩
  unfold dinvOf
  rw [degOf_real, Ideal.rsqrt_coe, if_neg (not_lt.mpr hpos.le), if_neg hpos.ne']

theorem gRow_of_lands (ei : T2E.Idx → BitVec 32) (i : Fin 100000) (e : Fin 1600000) (h : e ∈ lands ei i) :
    gRow (ei (ix2 (1 : Fin 2) e)) = i := by
  have hv : (ei (ix2 (1 : Fin 2) e)).toInt = (i.val : ℤ) := by
    unfold lands at h
    exact (Finset.mem_filter.mp h).2
  generalize ei (ix2 (1 : Fin 2) e) = v at hv
  have hw : wrapN v = v := by
    unfold wrapN IntOp.cmpi Scalar.select
    have : v.slt 0#32 = false := by
      rw [BitVec.slt, hv]
      simp
    simp [this]
  unfold gRow
  apply Fin.ext
  simp only [hw, hv]
  have := i.isLt
  omega

/-- A nonnegative real factor crosses a finite sum of extended reals. -/
theorem coe_mul_sum {ι : Type*} (r : ℝ) (hr : 0 ≤ r) (s : Finset ι) (f : ι → EReal) :
    ((r : ℝ) : EReal) * ∑ e ∈ s, f e = ∑ e ∈ s, ((r : ℝ) : EReal) * f e := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

theorem hnode_eq (hw : TNC.Idx → EReal) (ei : T2E.Idx → BitVec 32) (bg : Fin 128 → EReal) :
    hnodeK (msgRaw hw (dinvOf ei) ei) hw (dinvOf ei) bg = hnodeR (msgSym hw (dinvOf ei) ei) hw (dinvOf ei) bg := by
  funext j
  obtain ⟨r, hr, hd⟩ := dinv_real ei (j 0 : Fin 100000)
  have key : dinvOf ei (j 0 : Fin 100000) * msgRaw hw (dinvOf ei) ei j = msgSym hw (dinvOf ei) ei j := by
    unfold msgRaw msgSym
    rw [zero_add, zero_add, hd, coe_mul_sum r hr]
    refine Finset.sum_congr rfl fun e he => ?_
    rw [gRow_of_lands ei _ e he, hd, mul_comm (hw _), ← mul_assoc, mul_comm ((r : ℝ) : EReal)]
  unfold hnodeK hnodeR
  rw [key]

/-- A word equals a small natural's word exactly when it reads, signed, as that natural. -/
theorem eq_ofNat_iff_toInt (v : BitVec 32) (g : ℕ) (hg : g < 2048) :
    v = BitVec.ofNat 32 g ↔ v.toInt = (g : ℤ) := by
  have h2 : (BitVec.ofNat 32 g).toInt = (g : ℤ) := by
    rw [BitVec.toInt_ofNat']
    exact Int.bmod_eq_of_le (by omega) (by omega)
  rw [← h2, BitVec.toInt_inj]

theorem pool_eq (bt : Fin 100000 → BitVec 32) (h : TNC.Idx → EReal) : poolK bt h = poolR bt h := by
  funext j
  unfold poolK poolR poolPart
  rw [Finset.sum_filter, zero_add, zero_add]
  let f : ℕ → EReal := fun x =>
    if hx : x < 100000 then
      (if (bt ⟨x, hx⟩).toInt = ((j 0 : Fin 2048).val : ℤ) then h (ix2 ⟨x, hx⟩ (j 1 : Fin 128)) else 0)
    else 0
  have hb : ∑ p : Fin 2, ∑ s : Fin 25, ∑ r : Fin 2000, f (r.val + 2000 * (s.val + 25 * p.val))
      = ∑ n : Fin 100000, f n.val := Cert.Lib.sum_blocks_blocks 2 25 2000 f
  have hR : ∑ n : Fin 100000, f n.val
      = ∑ n : Fin 100000, if (bt n).toInt = ((j 0 : Fin 2048).val : ℤ) then h (ix2 n (j 1 : Fin 128)) else 0 :=
    Finset.sum_congr rfl fun n _ => dif_pos n.isLt
  rw [← hR, ← hb]
  refine Finset.sum_congr rfl fun c _ => Finset.sum_congr rfl fun i _ => Finset.sum_congr rfl fun r _ => ?_
  have hx : r.val + 2000 * (i.val + 25 * c.val) < 100000 := by omega
  show _ = dite _ _ _
  rw [dif_pos hx]
  show (if bt (node c i r) = BitVec.ofNat 32 (j 0 : Fin 2048).val then (1 : EReal) else 0)
      * h (ix2 (node c i r) (j 1 : Fin 128))
    = if (bt (node c i r)).toInt = ((j 0 : Fin 2048).val : ℤ) then h (ix2 (node c i r) (j 1 : Fin 128)) else 0
  by_cases hg : (bt (node c i r)).toInt = ((j 0 : Fin 2048).val : ℤ)
  · rw [if_pos hg, if_pos ((eq_ofNat_iff_toInt _ _ (j 0 : Fin 2048).isLt).mpr hg), one_mul]
  · rw [if_neg hg, if_neg (fun hh => hg ((eq_ofNat_iff_toInt _ _ (j 0 : Fin 2048).isLt).mp hh)), zero_mul]

theorem outK_eq_outR (x : TNC.Idx → EReal) (ei : T2E.Idx → BitVec 32) (bt : Fin 100000 → BitVec 32)
    (w1 : TCC.Idx → EReal) (b1 : Fin 128 → EReal) (w2 : TCC.Idx → EReal) (b2 : Fin 128 → EReal)
    (wg : TCC.Idx → EReal) (bg : Fin 128 → EReal) (l1 : TCC.Idx → EReal) (c1 : Fin 128 → EReal)
    (l2 : TC3.Idx → EReal) (c2 : Fin 3 → EReal) :
    outK x ei bt w1 b1 w2 b2 wg bg l1 c1 l2 c2 = outR x ei bt w1 b1 w2 b2 wg bg l1 c1 l2 c2 := by
  unfold outK outR
  rw [hnode_eq, pool_eq]

end Cert.Gnn

end
-- ==== Proof.lean ====
/-
  The kernel — a graph network in three kernel launches with the host's gathers and scatter-adds between them — and its
  plain reference compute one function of the inputs over the extended reals.

  Both gather the rows of `x` at the edges' sources and sum them at the targets, pass `agg + x` through a two-layer
  perceptron and the convolution's weight (`hw`), and take `dinv`, the reciprocal square root of the in-degree plus one.
  The reference weights each source row by `dinv (source) · dinv (target)` and sums at the targets; the kernel scales
  `hw` by `dinv` row by row first, sums the scaled source rows at the targets, and multiplies the sum by `dinv (target)`
  afterwards.  The two agree because `dinv` of a node is a nonnegative real number: such a factor may cross a finite sum
  of extended reals, and the target of an edge that lands on a row is that row.  The reference then adds the nodes of each
  graph by a scatter-add keyed on the graph id; the kernel multiplies a one-hot matrix of the ids into the node rows,
  block by block and core by core, and adds the two cores' tables: the same sum regrouped.  The two-layer head is the
  same on both sides.  No finiteness of the inputs is used.

  The frames of the two kernel programs are the generated ones; the reference's is its generated run with the result
  dropped; the idealization rewrote nothing, so its statement is `True`.
-/
import proofs.«401344_j78795470012789_2_alg».proof.Defs
import proofs.«401344_j78795470012789_2_alg».proof.Proof.Gen.Kernel
import proofs.«401344_j78795470012789_2_alg».proof.Proof.Gen.Kernel.Frame
import proofs.«401344_j78795470012789_2_alg».proof.Proof.Gen.KernelIdeal
import proofs.«401344_j78795470012789_2_alg».proof.Proof.Gen.KernelIdeal.Frame
import proofs.«401344_j78795470012789_2_alg».proof.Proof.Gen.ReferenceIdeal
import proofs.«401344_j78795470012789_2_alg».proof.Proof.Gen.ReferenceIdeal.Run
import proofs.«401344_j78795470012789_2_alg».proof.Proof.Gen.Pre_finite_inputs
import proofs.«401344_j78795470012789_2_alg».proof.Proof.KernelRun
import proofs.«401344_j78795470012789_2_alg».proof.Proof.KernelValue
import proofs.«401344_j78795470012789_2_alg».proof.Proof.RefValue
import proofs.«401344_j78795470012789_2_alg».proof.Proof.Algebra
import Idealize.ShloMosaic.Adequacy
import Idealize.ShloMosaic.Init

noncomputable section

namespace Cert.Proof

open Idealize.ShloMosaic Idealize.ShloMosaic.TcCoe Idealize.ShloMosaic.ValueIdx Idealize.SL.Sem

/-- The two idealized programs, run from memories that agree on the arguments, end with the same result: the kernel's
    is the network in its own arrangement of the launch contents, the reference's the network in the reference's
    arrangement, and the two arrangements are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gnn.outK (m ((c : Thread Cert.KernelIdeal.nD Cert.KernelIdeal.τ).loc Cert.KernelIdeal.main_arg0)) (m ((c : Thread Cert.KernelIdeal.nD Cert.KernelIdeal.τ).loc Cert.KernelIdeal.main_arg1)) (fun n => (m ((c : Thread Cert.KernelIdeal.nD Cert.KernelIdeal.τ).loc Cert.KernelIdeal.main_arg2)) (ix1 n)) (m ((c : Thread Cert.KernelIdeal.nD Cert.KernelIdeal.τ).loc Cert.KernelIdeal.main_arg3)) (fun k => (m ((c : Thread Cert.KernelIdeal.nD Cert.KernelIdeal.τ).loc Cert.KernelIdeal.main_arg4)) (ix1 k)) (m ((c : Thread Cert.KernelIdeal.nD Cert.KernelIdeal.τ).loc Cert.KernelIdeal.main_arg5)) (fun k => (m ((c : Thread Cert.KernelIdeal.nD Cert.KernelIdeal.τ).loc Cert.KernelIdeal.main_arg6)) (ix1 k)) (m ((c : Thread Cert.KernelIdeal.nD Cert.KernelIdeal.τ).loc Cert.KernelIdeal.main_arg7)) (fun k => (m ((c : Thread Cert.KernelIdeal.nD Cert.KernelIdeal.τ).loc Cert.KernelIdeal.main_arg8)) (ix1 k)) (m ((c : Thread Cert.KernelIdeal.nD Cert.KernelIdeal.τ).loc Cert.KernelIdeal.main_arg9)) (fun k => (m ((c : Thread Cert.KernelIdeal.nD Cert.KernelIdeal.τ).loc Cert.KernelIdeal.main_arg10)) (ix1 k)) (m ((c : Thread Cert.KernelIdeal.nD Cert.KernelIdeal.τ).loc Cert.KernelIdeal.main_arg11)) (fun k => (m ((c : Thread Cert.KernelIdeal.nD Cert.KernelIdeal.τ).loc Cert.KernelIdeal.main_arg12)) (ix1 k)), ?_, ?_⟩
  · exact (θ_run Cert.KernelIdeal.defs _ _).mono
      (fun r h c => ⟨(h c).1.trans (Cert.KernelIdeal.Hand.kernel_value m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Hand.ref_value, e0, e1, e2, e3, e4, e5, e6, e7, e8, e9, e10, e11, e12]
    exact (Cert.Gnn.outK_eq_outR _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    algebraic⟩

end Cert.Proof

end
